-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384 : Shape := ⟨1, ![16384]⟩
abbrev S100000x256 : Shape := ⟨2, ![100000, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16384x256 .f32) (main_arg1 : IVec S16384 32) (main_arg2 : FVec F S100000x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S100000x256 .f32 := Host.absf main_arg2
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 1 := constantI S_ 1 1#1
  let main_v11 : IVec S_ 1 := (fun x v => Host.reduce IntOp.andi x v reducesTo_S16384_S_d0 h_S_) main_v10 main_c_3
  let main_v12 : IVec S_ 1 := andi main_v8 main_v11
  let main_c_4 : IVec S_ 32 := constantI S_ 32 100000#32
  let main_v13 : IVec S16384 32 := broadcastInDim S16384 ![] bcast_S_S16384 main_c_4
  let main_v14 : IVec S16384 1 := cmpi .slt main_arg1 main_v13
  let main_c_5 : IVec S_ 1 := constantI S_ 1 1#1
  let main_v15 : IVec S_ 1 := (fun x v => Host.reduce IntOp.andi x v reducesTo_S16384_S_d0 h_S_) main_v14 main_c_5
  fn_part1 (F := F) main_v12 main_v15
-- ==== Kernel.lean ====
abbrev S16384x256 : Shape := ⟨2, ![16384, 256]⟩
abbrev S16384 : Shape := ⟨1, ![16384]⟩
abbrev S100000x256 : Shape := ⟨2, ![100000, 256]⟩
abbrev S16384x1 : Shape := ⟨2, ![16384, 1]⟩
abbrev S1024x256 : Shape := ⟨2, ![1024, 256]⟩
abbrev S2000x256 : Shape := ⟨2, ![2000, 256]⟩
abbrev S1024x1 : Shape := ⟨2, ![1024, 1]⟩
abbrev S1024x2000 : Shape := ⟨2, ![1024, 2000]⟩
abbrev S_ : Shape := ⟨0, ![]⟩
abbrev S100000x1 : Shape := ⟨2, ![100000, 1]⟩
abbrev S2000x1 : Shape := ⟨2, ![2000, 1]⟩

abbrev nBuf : Space → Nat
  | .hbm => 15
  | .vmem => 27
  | .smem => 0
  | _ => 0

abbrev bufTy : (tb : Table) → Fin (tcTables nBuf tb) → BufTy
  | .hbm, ⟨0, _⟩ => ⟨S16384x256, .f32⟩
  | .hbm, ⟨1, _⟩ => ⟨S16384, .i32⟩
  | .hbm, ⟨2, _⟩ => ⟨S100000x256, .f32⟩
  | .hbm, ⟨3, _⟩ => ⟨S16384x1, .i32⟩
  | .hbm, ⟨4, _⟩ => ⟨S16384x256, .f32⟩
  | .hbm, ⟨5, _⟩ => ⟨S16384x256, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S100000x256, .f32⟩
  | .hbm, ⟨13, _⟩ => ⟨S100000x1, .f32⟩
  | .hbm, ⟨14, _⟩ => ⟨S100000x256, .f32⟩
  | .local _ .vmem, ⟨0, _⟩ => ⟨S1024x256, .f32⟩
  | .local _ .vmem, ⟨1, _⟩ => ⟨S1024x256, .f32⟩
  | .local _ .vmem, ⟨2, _⟩ => ⟨S2000x256, .f32⟩
  | .local _ .vmem, ⟨3, _⟩ => ⟨S2000x256, .f32⟩
  | .local _ .vmem, ⟨4, _⟩ => ⟨S1024x1, .i32⟩
  | .local _ .vmem, ⟨5, _⟩ => ⟨S1024x1, .i32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x1, .i32⟩
  | .local _ .vmem, ⟨12, _⟩ => ⟨S1024x1, .i32⟩
  | .local _ .vmem, ⟨13, _⟩ => ⟨S2000x256, .f32⟩
  | .local _ .vmem, ⟨14, _⟩ => ⟨S2000x256, .f32⟩
  | .local _ .vmem, ⟨15, _⟩ => ⟨S2000x1, .f32⟩
  | .local _ .vmem, ⟨16, _⟩ => ⟨S2000x1, .f32⟩
  | .local _ .vmem, ⟨17, _⟩ => ⟨S2000x256, .f32⟩
  | .local _ .vmem, ⟨18, _⟩ => ⟨S2000x1, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x1, .f32⟩
  | .local _ .vmem, ⟨24, _⟩ => ⟨S2000x1, .f32⟩
  | .local _ .vmem, ⟨25, _⟩ => ⟨S2000x256, .f32⟩
  | .local _ .vmem, ⟨26, _⟩ => ⟨S2000x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![16, 50], ![false, false]⟩

def k0_cond2 (i : grid0.Coords) : BitVec 1 :=
  let arg1 : BitVec 32 := BitVec.ofNat 32 (i 1).val
  let c49_i32 : BitVec 32 := 49#32
  let v22 : BitVec 1 := Scalar.cmpi .eq arg1 c49_i32
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![50, 16], ![false, false]⟩

def k1_cond2 (i : grid1.Coords) : BitVec 1 :=
  let arg1 : BitVec 32 := BitVec.ofNat 32 (i 1).val
  let c15_i32 : BitVec 32 := 15#32
  let v30 : BitVec 1 := Scalar.cmpi .eq arg1 c15_i32
  let v31 : BitVec 32 := Scalar.extui v30
  let c0_i32_14 : BitVec 32 := 0#32
  let v32 : BitVec 1 := Scalar.cmpi .ne v31 c0_i32_14
  v32

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S16384_S16384x1 : S16384.ShapeCasts S16384x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  iota_S1024x2000_d1_w32 : S1024x2000.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x2000 : S1024x1.Broadcasts S1024x2000
  natLt_1_32 : 1 < 32
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  reducesTo_S16384x256_S_d0_1 : S16384x256.ReducesTo [0, 1] S_
  h_S_ : 0 < S_.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  dot_S1024x2000_S2000x256_S1024x256_1_0_0_1_n_n_wf : DotDims.WF S1024x2000 S2000x256 S1024x256 [1] [0] [0] [1] [] []
  dot_S1024x2000_S1024x256_S2000x256_0_0_1_1_n_n_wf : DotDims.WF S1024x2000 S1024x256 S2000x256 [0] [0] [1] [1] [] []
  dot_S1024x2000_S1024x1_S2000x1_0_0_1_1_n_n_wf : DotDims.WF S1024x2000 S1024x1 S2000x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .i32 = 32 ∨ (Rect.block (s := S16384x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S16384x256.size a
  hwx0_3 : ∀ i : grid0.Coords, EltTy.bits .f32 = 32 ∨ (Rect.block (s := S16384x256) S1024x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S16384x256.size a
  hwx1_0 : ∀ i : grid1.Coords, EltTy.bits .f32 = 32 ∨ (Rect.block (s := S16384x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S16384x1.size a
  hwx1_1 : ∀ i : grid1.Coords, EltTy.bits .i32 = 32 ∨ (Rect.block (s := S16384x1) S1024x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S100000x256.size a
  hwx1_2 : ∀ i : grid1.Coords, EltTy.bits .f32 = 32 ∨ (Rect.block (s := S100000x256) S2000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .f32 = 32 ∨ (Rect.block (s := S100000x1) S2000x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .f32 = 32 ∨ (Rect.block (s := S100000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S100000x256.size a
  hwx2_3 : ∀ i : grid2.Coords, EltTy.bits .f32 = 32 ∨ (Rect.block (s := S100000x256) S2000x256.size (cc2_transform_3 i) (hinb2_3 i)).WholeWords (EltTy.packing .f32)

variable [Facts₀]

def dot_S1024x2000_S2000x256_S1024x256_1_0_0_1_n_n : DotDims S1024x2000 S2000x256 S1024x256 where
  lhsContracting := [1]
  rhsContracting := [0]
  lhsNonContracting := [0]
  rhsNonContracting := [1]
  lhsBatch := []
  rhsBatch := []
  wf := dot_S1024x2000_S2000x256_S1024x256_1_0_0_1_n_n_wf
def dot_S1024x2000_S1024x256_S2000x256_0_0_1_1_n_n : DotDims S1024x2000 S1024x256 S2000x256 where
  lhsContracting := [0]
  rhsContracting := [0]
  lhsNonContracting := [1]
  rhsNonContracting := [1]
  lhsBatch := []
  rhsBatch := []
  wf := dot_S1024x2000_S1024x256_S2000x256_0_0_1_1_n_n_wf
def dot_S1024x2000_S1024x1_S2000x1_0_0_1_1_n_n : DotDims S1024x2000 S1024x1 S2000x1 where
  lhsContracting := [0]
  rhsContracting := [0]
  lhsNonContracting := [1]
  rhsNonContracting := [1]
  lhsBatch := []
  rhsBatch := []
  wf := dot_S1024x2000_S1024x1_S2000x1_0_0_1_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_0) S2000x256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6_1) S2000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_arg2) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6_0) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6_1) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S16384x256 : Shape := ⟨2, ![16384, 256]⟩
abbrev S16384 : Shape := ⟨1, ![16384]⟩
abbrev S100000x256 : Shape := ⟨2, ![100000, 256]⟩
abbrev S_ : Shape := ⟨0, ![]⟩
abbrev S16384x1 : Shape := ⟨2, ![16384, 1]⟩
abbrev S100000 : Shape := ⟨1, ![100000]⟩
abbrev S100000x1 : Shape := ⟨2, ![100000, 1]⟩

abbrev nBuf : Space → Nat
  | .hbm => 50
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384, .i32⟩
  | .hbm, ⟨2, _⟩ => ⟨S100000x256, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S16384x256, .f32⟩
  | .hbm, ⟨12, _⟩ => ⟨S16384x256, .f32⟩
  | .hbm, ⟨13, _⟩ => ⟨S16384x256, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S16384x1, .i32⟩
  | .hbm, ⟨28, _⟩ => ⟨S16384x256, .f32⟩
  | .hbm, ⟨29, _⟩ => ⟨S16384x256, .f32⟩
  | .hbm, ⟨30, _⟩ => ⟨S_, .f32⟩
  | .hbm, ⟨31, _⟩ => ⟨S100000x256, .f32⟩
  | .hbm, ⟨32, _⟩ => ⟨S16384x1, .i32⟩
  | .hbm, ⟨33, _⟩ => ⟨S100000x256, .f32⟩
  | .hbm, ⟨34, _⟩ => ⟨S_, .f32⟩
  | .hbm, ⟨35, _⟩ => ⟨S16384, .f32⟩
  | .hbm, ⟨36, _⟩ => ⟨S_, .f32⟩
  | .hbm, ⟨37, _⟩ => ⟨S100000, .f32⟩
  | .hbm, ⟨38, _⟩ => ⟨S16384x1, .i32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S100000x256, .f32⟩
  | .hbm, ⟨45, _⟩ => ⟨S100000x256, .f32⟩
  | .hbm, ⟨46, _⟩ => ⟨S_, .f32⟩
  | .hbm, ⟨47, _⟩ => ⟨S100000x256, .f32⟩
  | .hbm, ⟨48, _⟩ => ⟨S100000x256, .f32⟩
  | .hbm, ⟨49, _⟩ => ⟨S100000x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  reducesTo_S16384x256_S_d0_1 : S16384x256.ReducesTo [0, 1] S_
  h_S_ : 0 < S_.numel
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  gather_S100000x256_S16384x1_S16384x256_1_0_n_n_0_1_1256_wf : GatherDims.WF S100000x256 S16384x1 S16384x256 [1] [0] [] [0] [] 1 ![1, 256]
  scatter_S100000x256_S16384x1_S16384x256_1_0_0_1_wf : ScatterDims.WF S100000x256 S16384x1 S16384x256 [1] [0] [0] 1
  scatter_S100000_S16384x1_S16384_n_0_0_1_wf : ScatterDims.WF S100000 S16384x1 S16384 [] [0] [0] 1

variable [Facts₀]

def gather_S100000x256_S16384x1_S16384x256_1_0_n_n_0_1_1256 : GatherDims S100000x256 S16384x1 S16384x256 where
  offsetDims := [1]
  collapsedSliceDims := [0]
  operandBatchingDims := []
  startIndicesBatchingDims := []
  startIndexMap := [0]
  indexVectorDim := 1
  sliceSizes := ![1, 256]
  wf := gather_S100000x256_S16384x1_S16384x256_1_0_n_n_0_1_1256_wf
def scatter_S100000x256_S16384x1_S16384x256_1_0_0_1 : ScatterDims S100000x256 S16384x1 S16384x256 where
  updateWindowDims := [1]
  insertedWindowDims := [0]
  scatterDimsToOperandDims := [0]
  indexVectorDim := 1
  wf := scatter_S100000x256_S16384x1_S16384x256_1_0_0_1_wf
def scatter_S100000_S16384x1_S16384_n_0_0_1 : ScatterDims S100000 S16384x1 S16384 where
  updateWindowDims := []
  insertedWindowDims := [0]
  scatterDimsToOperandDims := [0]
  indexVectorDim := 1
  wf := scatter_S100000_S16384x1_S16384_n_0_0_1_wf

class Facts : Prop extends Facts₀ where

variable [Facts]
-- ==== Proof.Bits.RegionData.lean ====
import proofs.«426712_j80015240724894_1_alg».proof.Proof.Gen.Kernel.Launch
import proofs.«426712_j80015240724894_1_alg».proof.Proof.Gen.Kernel.Skeleton
import proofs.«426712_j80015240724894_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every definition below is stated at this parameter
variable (V : (c : Dev nD) → (b : Ref sig .tc) → Buf (Elt F) ((c : Thread nD τ).loc b))

/-! # The gather call (pipeline 0): rows of the class table picked by a one-hot product, accumulated over class tiles

Grid 16 × 50: batch tile `i 0`, class tile `i 1`. Window 0 is the batch tile of the features, window 1 the class
tile of the table, window 2 the batch tile of the labels, window 3 the batch tile of the result. The scratch holds
the running sum over the class tiles seen so far; it is reset at class tile 0 and the result is stored at class tile 49. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sum's buffer. -/
abbrev scM0 : Memref sig .tc .vmem S1024x256 .f32 := Memref.whole cc0_scratch0

/-- THE RUNNING SUM after the body at position `n`: the class tile's one-hot product added to zero at a batch
    tile's first class tile (`n % 50 = 0`), to what the position before left otherwise. -/
def accAt0 (c : Dev nD) : (n : ℕ) → n < cfg0.N → Vec F S1024x256 .f32
  | 0, hn => k0_pay2 (grid0.coords ⟨0, hn⟩) (iblk0 V c 2 ⟨0, hn⟩) (iblk0 V c 1 ⟨0, hn⟩) k0_pay1
  | n + 1, hn =>
    if (n + 1) % 50 = 0 then
      k0_pay2 (grid0.coords ⟨n + 1, hn⟩) (iblk0 V c 2 ⟨n + 1, hn⟩) (iblk0 V c 1 ⟨n + 1, hn⟩) k0_pay1
    else
      k0_pay2 (grid0.coords ⟨n + 1, hn⟩) (iblk0 V c 2 ⟨n + 1, hn⟩) (iblk0 V c 1 ⟨n + 1, hn⟩) (accAt0 c n (Nat.lt_of_succ_lt hn))

/-- The region's invariant before position `n`: at the first position the class's (every scoped buffer at anything);
    afterwards the running sum's buffer at what the position before left, the other scoped buffers at anything,
    the generator register at some state. -/
def PhiS0 (c : Dev nD) : (n : ℕ) → n ≤ cfg0.N → sProp 𝕄
  | 0, _ => Pipeline.ΦA spec0 c
  | n + 1, hn => iprop(owns (c : Thread nD τ) scM0 fullShare (accAt0 V c n hn)
      ∗ Pipeline.scopedRestBut (Ix := Unit) (Name := ℕ) (U := UR sig nD τ) (Lvl := ℕ) (Val := Elt F) spec0 c [cc0_scratch0]
      ∗ (∃ r, prngReg c r))

/-- The proof data of pipeline 0 on core `c`: the arrays as the region finds them; after the body each input's buffer
    at its block, the result's at the running sum less the features' block (read only where the block is written
    back: the last class tile). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c t.val t.isLt) (iblk0 V c 0 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (accAt0 V c t.val t.isLt) (iblk0 V c 0 t) := by dsimp only [dat0]

/-! # The scatter call (pipeline 1): per class, the sum and the count of the batch rows labelled with it

Grid 50 × 16: class tile `i 0`, batch tile `i 1`. Window 0 is the batch tile of the differences, window 1 the batch
tile of the labels, windows 2 and 3 the class tile of the two results. Two scratch buffers hold the running sums
over the batch tiles seen so far; reset at batch tile 0, stored at batch tile 15. -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scM1_0 : Memref sig .tc .vmem S2000x256 .f32 := Memref.whole cc1_scratch0
abbrev scM1_1 : Memref sig .tc .vmem S2000x1 .f32 := Memref.whole cc1_scratch1

/-- THE RUNNING SUMS (rows, counts) after the body at position `n`: reset at a class tile's first batch tile (`n % 16 = 0`). -/
def accAt1 (c : Dev nD) : (n : ℕ) → n < cfg1.N → Vec F S2000x256 .f32 × Vec F S2000x1 .f32
  | 0, hn => (k1_pay4 (grid1.coords ⟨0, hn⟩) (iblk1 V c 1 ⟨0, hn⟩) (iblk1 V c 0 ⟨0, hn⟩) k1_pay1,
              k1_pay5 (grid1.coords ⟨0, hn⟩) (iblk1 V c 1 ⟨0, hn⟩) k1_pay2)
  | n + 1, hn =>
    if (n + 1) % 16 = 0 then
      (k1_pay4 (grid1.coords ⟨n + 1, hn⟩) (iblk1 V c 1 ⟨n + 1, hn⟩) (iblk1 V c 0 ⟨n + 1, hn⟩) k1_pay1,
       k1_pay5 (grid1.coords ⟨n + 1, hn⟩) (iblk1 V c 1 ⟨n + 1, hn⟩) k1_pay2)
    else
      (k1_pay4 (grid1.coords ⟨n + 1, hn⟩) (iblk1 V c 1 ⟨n + 1, hn⟩) (iblk1 V c 0 ⟨n + 1, hn⟩) (accAt1 c n (Nat.lt_of_succ_lt hn)).1,
       k1_pay5 (grid1.coords ⟨n + 1, hn⟩) (iblk1 V c 1 ⟨n + 1, hn⟩) (accAt1 c n (Nat.lt_of_succ_lt hn)).2)

def PhiS1 (c : Dev nD) : (n : ℕ) → n ≤ cfg1.N → sProp 𝕄
  | 0, _ => Pipeline.ΦA spec1 c
  | n + 1, hn => iprop(owns (c : Thread nD τ) scM1_0 fullShare (accAt1 V c n hn).1
      ∗ owns (c : Thread nD τ) scM1_1 fullShare (accAt1 V c n hn).2
      ∗ Pipeline.scopedRestBut (Ix := Unit) (Name := ℕ) (U := UR sig nD τ) (Lvl := ℕ) (Val := Elt F) spec1 c [cc1_scratch0, cc1_scratch1]
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (accAt1 V c t.val t.isLt).1
    | ⟨3, _⟩ => (accAt1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (accAt1 V c t.val t.isLt).1 := by dsimp only [dat1]
theorem after1_3 (c : Dev nD) (t : Fin cfg1.N) : (dat1 V c).after 3 t = (accAt1 V c t.val t.isLt).2 := by dsimp only [dat1]

/-! # The finalize call (pipeline 2): pointwise on class tiles

Grid 50. Window 0 the class tile of the table, window 1 of the row sums, window 2 of the counts, window 3 of the result. -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 1 t) (iblk2 V c 2 t) (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay1 (iblk2 V c 1 t) (iblk2 V c 2 t) (iblk2 V c 0 t) := by dsimp only [dat2]

end Cert.Kernel.Hand

end
-- ==== Proof.Bits.Fold.lean ====
import proofs.«426712_j80015240724894_1_alg».proof.Proof.Gen.Kernel.Launch
import proofs.«426712_j80015240724894_1_alg».proof.Proof.Gen.Kernel.Skeleton
import proofs.«426712_j80015240724894_1_alg».proof.Proof.Gen.Kernel.Points
import proofs.«426712_j80015240724894_1_alg».proof.Proof.Bits.RegionData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of the program's five items

The reshape of the labels; the gather call; the host's mean of squares; the scatter call; the finalize call. A host
stretch leaves every buffer at the stretch's operations applied in order; a call leaves its windows' arrays at what its
write-backs leave and every other buffer as it found it. -/

/-- Core `c`'s buffers at launch. -/
abbrev W0 : Dev nD → Valuation τ sig (Elt F) := fun c b => (s₀ m ρ).mem ((c : Dev nD), b)
/-- After the reshape of the labels (the gather call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the gather call. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host's mean of squares (the scatter call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the scatter call (the finalize call's entry: no host operation lies between the two). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the finalize call (the program's end). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

end Cert.Kernel.Hand

end
-- ==== Proof.Bits.GatherBody.lean ====
import proofs.«426712_j80015240724894_1_alg».proof.Proof.Gen.Kernel.Launch
import proofs.«426712_j80015240724894_1_alg».proof.Proof.Gen.Kernel.Skeleton
import proofs.«426712_j80015240724894_1_alg».proof.Proof.Gen.Kernel.Points
import proofs.«426712_j80015240724894_1_alg».proof.Proof.Bits.RegionData
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every definition below is stated at this parameter
variable (V : (c : Dev nD) → (b : Ref sig .tc) → Buf (Elt F) ((c : Thread nD τ).loc b))

/-! ## The body's two conditions -/

/-- The first conditional of the body: the class tile is the first of its batch tile (the running sum is reset). -/
abbrev cond0_0 (i : grid0.Coords) : Prop := (Scalar.cmpi .ne (Scalar.extui (Scalar.cmpi .eq (BitVec.ofNat 32 (i 1).val) 0#32)) 0#32) = 1#1
/-- The second conditional of the body: the class tile is the last of its batch tile (the result block is stored). -/
abbrev cond0_1 (i : grid0.Coords) : Prop := k0_cond2 i = 1#1

/-- Every access of the body is through the whole-block rectangle: offsets zero on both axes. -/
theorem origin2_eq_zero : (![0, 0] : Fin 2 → Nat) = fun _ => 0 := funext fun a => by fin_cases a <;> rfl

/-- A store of a whole block, made last, leaves its payload: whatever the earlier stores and the prior contents were,
    the buffer then reads as what was stored. -/
theorem read_writes_whole_last0 {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-! ## The body on any whole memrefs, case by case

The inputs' memrefs hold `x0` (features block), `x1` (table block), `x2` (labels block). The scratch is stored whole
and read back whole within one run, so what the run leaves in it is the last whole-block store's payload. -/

set_option maxHeartbeats 1000000 in
/-- FIRST class tile, not the last: the scratch (entered at anything) is reset to zero and ends at the tile's one-hot
    product added to zero; the result's memref is handed back untouched. -/
theorem sound_kernel0_A (c : Dev nD) (E : Set ℕ) (i : grid0.Coords)
    (arg2 : Memref sig .tc .vmem S1024x256 .f32) (harg2 : arg2.IsWhole)
    (arg3 : Memref sig .tc .vmem S2000x256 .f32) (harg3 : arg3.IsWhole)
    (arg4 : Memref sig .tc .vmem S1024x1 .i32) (harg4 : arg4.IsWhole)
    (arg5 : Memref sig .tc .vmem S1024x256 .f32) (harg5 : arg5.IsWhole)
    (arg6 : Memref sig .tc .vmem S1024x256 .f32) (harg6 : arg6.IsWhole)
    (hc0 : cond0_0 i) (hc1 : ¬cond0_1 i)
    (x0 : Vec F S1024x256 .f32) (x1 : Vec F S2000x256 .f32) (x2 : Vec F S1024x1 .i32) (xi : Vec F S1024x256 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare xi
            ∗ owns (c : Thread nD τ) arg6 fullShare (k0_pay2 i x2 x1 k0_pay1)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists f3; isplitr; · ipureintro; exact hf3
    iexact H3
  iexists _; isplitr
  swap; · iexact HS
  ipureintro
  sl_unfold_words
  rw [read_writes_whole_last0 _ _ origin2_eq_zero, View.readCov_unit_zero (S := S1024x256) _ origin2_eq_zero]
  simp only [View.readAt_eq_ld, harg3.read_unread, harg4.read_unread, View.ld_unit_zero (S := S2000x256) origin2_eq_zero, View.ld_unit_zero (S := S1024x1) origin2_eq_zero]

set_option maxHeartbeats 1000000 in
/-- A MIDDLE class tile: the scratch enters at the running sum `xs` and ends at the tile's one-hot product added to
    it; the result's memref is handed back untouched. -/
theorem sound_kernel0_B (c : Dev nD) (E : Set ℕ) (i : grid0.Coords)
    (arg2 : Memref sig .tc .vmem S1024x256 .f32) (harg2 : arg2.IsWhole)
    (arg3 : Memref sig .tc .vmem S2000x256 .f32) (harg3 : arg3.IsWhole)
    (arg4 : Memref sig .tc .vmem S1024x1 .i32) (harg4 : arg4.IsWhole)
    (arg5 : Memref sig .tc .vmem S1024x256 .f32) (harg5 : arg5.IsWhole)
    (arg6 : Memref sig .tc .vmem S1024x256 .f32) (harg6 : arg6.IsWhole)
    (hc0 : ¬cond0_0 i) (hc1 : ¬cond0_1 i)
    (x0 : Vec F S1024x256 .f32) (x1 : Vec F S2000x256 .f32) (x2 : Vec F S1024x1 .i32) (xi : Vec F S1024x256 .f32)
    (xs : Vec F S1024x256 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi
        ∗ owns (c : Thread nD τ) arg6 fullShare xs
        ∗ (iprop(owns (c : Thread nD τ) arg2 fullShare x0 ∗ owns (c : Thread nD τ) arg3 fullShare x1
            ∗ owns (c : Thread nD τ) arg4 fullShare x2 ∗ owns (c : Thread nD τ) arg5 fullShare xi
            ∗ owns (c : Thread nD τ) arg6 fullShare (k0_pay2 i x2 x1 xs)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists f3; isplitr; · ipureintro; exact hf3
    iexact H3
  iexists _; isplitr
  swap; · iexact HS
  ipureintro
  sl_unfold_words
  rw [read_writes_whole_last0 _ _ origin2_eq_zero]
  simp only [View.readAt_eq_ld, harg3.read_unread, harg4.read_unread, harg6.read_unread, View.ld_unit_zero (S := S2000x256) origin2_eq_zero, View.ld_unit_zero (S := S1024x1) origin2_eq_zero, View.ld_unit_zero (S := S1024x256) origin2_eq_zero]

set_option maxHeartbeats 1000000 in
/-- The LAST class tile (not the first): the scratch enters at the running sum `xs` and ends at `acc`, the tile's one-hot
    product added to it; the result's memref (entered at anything) ends at `acc` less the features' block. -/
theorem sound_kernel0_C (c : Dev nD) (E : Set ℕ) (i : grid0.Coords)
    (arg2 : Memref sig .tc .vmem S1024x256 .f32) (harg2 : arg2.IsWhole)
    (arg3 : Memref sig .tc .vmem S2000x256 .f32) (harg3 : arg3.IsWhole)
    (arg4 : Memref sig .tc .vmem S1024x1 .i32) (harg4 : arg4.IsWhole)
    (arg5 : Memref sig .tc .vmem S1024x256 .f32) (harg5 : arg5.IsWhole)
    (arg6 : Memref sig .tc .vmem S1024x256 .f32) (harg6 : arg6.IsWhole)
    (hc0 : ¬cond0_0 i) (hc1 : cond0_1 i)
    (x0 : Vec F S1024x256 .f32) (x1 : Vec F S2000x256 .f32) (x2 : Vec F S1024x1 .i32)
    (xs : Vec F S1024x256 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (k0_pay3 (k0_pay2 i x2 x1 xs) x0)
            ∗ owns (c : Thread nD τ) arg6 fullShare (k0_pay2 i x2 x1 xs)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_writes_whole_last0 _ _ origin2_eq_zero, View.readCov_unit_zero (S := S1024x256) _ origin2_eq_zero]
    simp only [View.readAt_eq_ld, harg2.read_unread, harg3.read_unread, harg4.read_unread, harg6.read_unread, View.ld_unit_zero (S := S2000x256) origin2_eq_zero, View.ld_unit_zero (S := S1024x1) origin2_eq_zero, View.ld_unit_zero (S := S1024x256) origin2_eq_zero]
  iexists _; isplitr
  swap; · iexact HS
  ipureintro
  sl_unfold_words
  rw [read_writes_whole_last0 _ _ origin2_eq_zero]
  simp only [View.readAt_eq_ld, harg3.read_unread, harg4.read_unread, harg6.read_unread, View.ld_unit_zero (S := S2000x256) origin2_eq_zero, View.ld_unit_zero (S := S1024x1) origin2_eq_zero, View.ld_unit_zero (S := S1024x256) origin2_eq_zero]

/-! ## The conditions in closed form over the grid -/

/-- The first condition holds at the first class tile of each batch tile. -/
theorem hcond0_0 : ∀ t : Fin cfg0.N, cond0_0 (grid0.coords t) ↔ t.val % 50 = 0 :=
  (by decide +kernel : ∀ t : Fin grid0.N, cond0_0 (grid0.coords t) ↔ t.val % 50 = 0)

/-- The second condition holds at the last class tile of each batch tile. -/
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are idle -/

/-- The inputs are never idle. -/
theorem liveAt0_0 (i : grid0.Coords) : cfg0.idle 0 i = false := rfl
theorem liveAt0_1 (i : grid0.Coords) : cfg0.idle 1 i = false := rfl
theorem liveAt0_2 (i : grid0.Coords) : cfg0.idle 2 i = false := rfl
/-- The result's window is idle wherever the second condition fails: the body stores nothing into it there. -/
theorem idleAt0_3 (i : grid0.Coords) (h : ¬cond0_1 i) : cfg0.idle 3 i = true := by
  show (!(k0_cond2 i == 1#1)) = true
  rw [Bool.not_eq_true', beq_eq_false_iff_ne]; exact h
/-- It is live where the second condition holds. -/
theorem liveAt0_3 (i : grid0.Coords) (h : cond0_1 i) : cfg0.idle 3 i = false := by
  show (!(k0_cond2 i == 1#1)) = false
  rw [Bool.not_eq_false', beq_iff_eq]; exact h
/-- Off the last class tile the result's block is not written back. -/
theorem noFlush0_3 (t : Fin cfg0.N) (h : ¬t.val % 50 = 49) : (cfg0.win 3).flush t = false :=
  Bool.eq_false_iff.mpr fun hf => h ((flush0_3 t).mp hf)

/-! ## The class invariant with the running sum's buffer named -/

/-- Separating conjunction re-bracketed, as an equation of propositions. -/
theorem sep_assoc_eq0 (P Q R : sProp 𝕄) : iprop((P ∗ Q) ∗ R) = iprop(P ∗ Q ∗ R) := by
  have h₁ : iprop((P ∗ Q) ∗ R) ⊢ iprop(P ∗ Q ∗ R) := by
    iintro ⟨⟨HA, HB⟩, HC⟩
    isplitl [HA]; · iexact HA
    isplitl [HB]; · iexact HB
    iexact HC
  have h₂ : iprop(P ∗ Q ∗ R) ⊢ iprop((P ∗ Q) ∗ R) := by
    iintro ⟨HA, HB, HC⟩
    isplitl [HA HB]
    · isplitl [HA]; · iexact HA
      iexact HB
    iexact HC
  exact BI.equiv_iff.mp ⟨h₁, h₂⟩

/-- The class invariant of the gather call with its own scratch buffer named. -/
theorem PhiA0_eq (c : Dev nD) :
    (Pipeline.ΦA spec0 c : sProp 𝕄)
      = iprop((∃ d, owns (c : Thread nD τ) scM0 fullShare d) ∗ Pipeline.scopedRestBut (Ix := Unit) (Name := ℕ) (U := UR sig nD τ) (Lvl := ℕ) (Val := Elt F) spec0 c [cc0_scratch0] ∗ (∃ r, prngReg c r)) := by
  unfold Pipeline.ΦA
  rw [Pipeline.scopedRest_split_of_list spec0 c [cc0_scratch0] (by decide) (by decide), bigSepL_singleton]
  simp only [scM0, owns_whole]
  exact sep_assoc_eq0 _ _ _

/-! ## The running sum, point by point -/

/-- At a batch tile's first class tile the running sum starts from zero. -/
theorem accAt0_first (c : Dev nD) (t : Fin cfg0.N) (h0 : t.val % 50 = 0) :
    accAt0 V c t.val t.isLt = k0_pay2 (grid0.coords t) (iblk0 V c 2 t) (iblk0 V c 1 t) k0_pay1 := by
  obtain ⟨n, hn⟩ := t
  cases n with
  | zero => rfl
  | succ n => exact (if_pos h0).trans rfl

/-- At any other class tile it continues what the point before left. -/
theorem accAt0_next (c : Dev nD) (t : Fin cfg0.N) (h0 : ¬t.val % 50 = 0) :
    accAt0 V c t.val t.isLt = k0_pay2 (grid0.coords t) (iblk0 V c 2 t) (iblk0 V c 1 t)
      (accAt0 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The invariant's shapes -/

theorem PhiS0_zero (c : Dev nD) (n : ℕ) (h : n ≤ cfg0.N) (hz : n = 0) : PhiS0 V c n h = Pipeline.ΦA spec0 c := by
  subst hz; rfl

/-- After point `n`: the running sum's buffer at that point's contents. -/
theorem PhiS0_succ (c : Dev nD) (n : ℕ) (hn : n < cfg0.N) :
    PhiS0 V c (n + 1) hn = iprop(owns (c : Thread nD τ) scM0 fullShare (accAt0 V c n hn)
      ∗ Pipeline.scopedRestBut (Ix := Unit) (Name := ℕ) (U := UR sig nD τ) (Lvl := ℕ) (Val := Elt F) spec0 c [cc0_scratch0]
      ∗ (∃ r, prngReg c r)) := rfl

/-- Before a point that is not the first: the running sum's buffer at what the point before left. -/
theorem PhiS0_pos (c : Dev nD) (n : ℕ) (h : n ≤ cfg0.N) (hz : n ≠ 0) :
    PhiS0 V c n h = iprop(owns (c : Thread nD τ) scM0 fullShare (accAt0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## The inputs' buffers hold their blocks at every point -/

/-- An input's current staging buffer holds its block whether or not the point fetched it: unfetched, the block
    index has not moved since the point before. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point. The inputs' buffers hold their blocks; the closed forms of the two conditions say which of
    the three cases the point is in (first class tile, a middle one, the last); the invariant hands the body the
    running sum's buffer at what the point before left (at anything at the very first point, and the first class tile
    of a later batch tile overwrites it) and takes it back at this point's running sum; the other scoped buffers, the
    generator register and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 800 := lt_of_lt_of_eq t.isLt (show cfg0.N = 800 from N_0)
  rw [show (dat0 V c).leavesExact 0 t = owns (c : Thread nD τ) (st0_0 t) fullShare ((dat0 V c).after 0 t) from by
    unfold Dat.leavesExact; rw [liveAt0_0], after0_0]
  rw [show (dat0 V c).leavesExact 1 t = owns (c : Thread nD τ) (st0_1 t) fullShare ((dat0 V c).after 1 t) from by
    unfold Dat.leavesExact; rw [liveAt0_1], after0_1]
  rw [show (dat0 V c).leavesExact 2 t = owns (c : Thread nD τ) (st0_2 t) fullShare ((dat0 V c).after 2 t) from by
    unfold Dat.leavesExact; rw [liveAt0_2], after0_2]
  by_cases h0 : t.val % 50 = 0
  · by_cases h1 : t.val % 50 = 49
    · exfalso; omega
    · -- the first class tile
      rw [Dat.leavesExact_idle (dat0 V c) 3 t (idleAt0_3 _ (fun h => h1 ((hcond0_1 t).mp h))) (noFlush0_3 t h1)]
      rw [accAt0_first V c t h0]
      by_cases hz : t.val = 0
      · rw [PhiS0_castSucc V c t, PhiS0_zero V c _ _ hz, PhiA0_eq]
        iintro ⟨⟨HS, Hr, Hg⟩, Ho, ⟨%d0, H0⟩, ⟨%d1, H1⟩, ⟨%d2, H2⟩, ⟨%d3, H3⟩⟩
        iapply (sound_kernel0_A c Set.univ (grid0.coords t) _ _ _ _ _ _ _ _ _ _ ((hcond0_0 t).mpr h0) (fun h => h1 ((hcond0_1 t).mp h))
          (iblk0 V c 0 t) (iblk0 V c 1 t) (iblk0 V c 2 t) ((dat0 V c).before 3 t d3) _)
        isplitl [H0]; · iexact H0
        isplitl [H1]; · iexact H1
        isplitl [H2]; · iexact H2
        isplitl [H3]; · iexact H3
        isplitl [HS]; · iexact HS
        iintro ⟨H0, H1, H2, H3, HS⟩
        isplitl [HS Hr Hg]
        · isplitl [HS]; · iexact HS
          isplitl [Hr]; · iexact Hr
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨HS, Hr, Hg⟩, Ho, ⟨%d0, H0⟩, ⟨%d1, H1⟩, ⟨%d2, H2⟩, ⟨%d3, H3⟩⟩
        iapply (sound_kernel0_A c Set.univ (grid0.coords t) _ _ _ _ _ _ _ _ _ _ ((hcond0_0 t).mpr h0) (fun h => h1 ((hcond0_1 t).mp h))
          (iblk0 V c 0 t) (iblk0 V c 1 t) (iblk0 V c 2 t) ((dat0 V c).before 3 t d3) _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hr Hg]
        · isplitl [HS]; · iexact HS
          isplitl [Hr]; · iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 50 = 49
    · -- the last class tile
      rw [show (dat0 V c).leavesExact 3 t = owns (c : Thread nD τ) (st0_3 t) fullShare ((dat0 V c).after 3 t) from by
        unfold Dat.leavesExact; rw [liveAt0_3 _ ((hcond0_1 t).mpr h1)], after0_3]
      rw [accAt0_next V c t h0]
      rw [PhiS0_castSucc V c t, PhiS0_pos V c _ _ hz]
      iintro ⟨⟨HS, Hr, Hg⟩, Ho, ⟨%d0, H0⟩, ⟨%d1, H1⟩, ⟨%d2, H2⟩, ⟨%d3, H3⟩⟩
      iapply (sound_kernel0_C c Set.univ (grid0.coords t) _ _ _ _ _ _ _ _ _ _ (fun h => h0 ((hcond0_0 t).mp h)) ((hcond0_1 t).mpr h1)
        (iblk0 V c 0 t) (iblk0 V c 1 t) (iblk0 V c 2 t) (accAt0 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · -- a middle class tile
      rw [Dat.leavesExact_idle (dat0 V c) 3 t (idleAt0_3 _ (fun h => h1 ((hcond0_1 t).mp h))) (noFlush0_3 t h1)]
      rw [accAt0_next V c t h0]
      rw [PhiS0_castSucc V c t, PhiS0_pos V c _ _ hz]
      iintro ⟨⟨HS, Hr, Hg⟩, Ho, ⟨%d0, H0⟩, ⟨%d1, H1⟩, ⟨%d2, H2⟩, ⟨%d3, H3⟩⟩
      iapply (sound_kernel0_B c Set.univ (grid0.coords t) _ _ _ _ _ _ _ _ _ _ (fun h => h0 ((hcond0_0 t).mp h)) (fun h => h1 ((hcond0_1 t).mp h))
        (iblk0 V c 0 t) (iblk0 V c 1 t) (iblk0 V c 2 t) ((dat0 V c).before 3 t d3) (accAt0 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The library's body obligation for the gather call, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]

/-- After the last point the invariant gives the class's back: the running sum's contents are forgotten. -/
theorem hout0 (c : Dev nD) : (dat0 V c).Φ (Fin.last cfg0.N) ⊢ (Pipeline.ΦA spec0 c : sProp 𝕄) := by
  have hN : cfg0.N = 800 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨HS, Hr, Hg⟩
  isplitl [HS]; · iexists _; iexact HS
  isplitl [Hr]; · iexact Hr
  iexact Hg

end Cert.Kernel.Hand

end
-- ==== Proof.Bits.ScatterBody.lean ====
import proofs.«426712_j80015240724894_1_alg».proof.Proof.Gen.Kernel.Launch
import proofs.«426712_j80015240724894_1_alg».proof.Proof.Gen.Kernel.Skeleton
import proofs.«426712_j80015240724894_1_alg».proof.Proof.Gen.Kernel.Points
import proofs.«426712_j80015240724894_1_alg».proof.Proof.Bits.RegionData
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every definition below is stated at this parameter
variable (V : (c : Dev nD) → (b : Ref sig .tc) → Buf (Elt F) ((c : Thread nD τ).loc b))

/-! ## The body's two branch conditions, in closed form over the grid -/

/-- The first conditional's test: the batch tile is the first of its class tile. -/
abbrev cond1_0 (i : grid1.Coords) : Prop :=
  (Scalar.cmpi .ne (Scalar.extui (Scalar.cmpi .eq (BitVec.ofNat 32 (i 1).val) 0#32)) 0#32) = 1#1

theorem hcond1_0 : ∀ t : Fin cfg1.N, cond1_0 (grid1.coords t) ↔ t.val % 16 = 0 :=
  (by decide +kernel : ∀ t : Fin grid1.N, cond1_0 (grid1.coords t) ↔ t.val % 16 = 0)

/-- The second conditional's test: the batch tile is the last of its class tile. -/
abbrev cond1_1 (i : grid1.Coords) : Prop := k1_cond2 i = 1#1

theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem idleAt1_3 : ∀ t : Fin cfg1.N, ¬cond1_1 (grid1.coords t) → cfg1.idle 3 (grid1.coords t) = true := by decide +kernel
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel
theorem noFlush1_2 : ∀ t : Fin cfg1.N, ¬cond1_1 (grid1.coords t) → (cfg1.win 2).flush t = false := by decide +kernel
theorem noFlush1_3 : ∀ t : Fin cfg1.N, ¬cond1_1 (grid1.coords t) → (cfg1.win 3).flush t = false := by decide +kernel

/-! ## The class invariant with the call's own two scratch buffers named -/

/-- Four conjuncts grouped to the left are the same four grouped to the right. -/
theorem sep_reassoc4 {M : Type} [URA M] (A B R G : sProp M) :
    iprop(((A ∗ B) ∗ R) ∗ G) = iprop(A ∗ B ∗ R ∗ G) := by
  have h₁ : iprop(((A ∗ B) ∗ R) ∗ G) ⊢ iprop(A ∗ B ∗ R ∗ G) := by
    iintro ⟨⟨⟨HA, HB⟩, HR⟩, HG⟩
    isplitl [HA]; · iexact HA
    isplitl [HB]; · iexact HB
    isplitl [HR]; · iexact HR
    iexact HG
  have h₂ : iprop(A ∗ B ∗ R ∗ G) ⊢ iprop(((A ∗ B) ∗ R) ∗ G) := by
    iintro ⟨HA, HB, HR, HG⟩
    isplitr [HG]
    · isplitr [HR]
      · isplitl [HA]; · iexact HA
        iexact HB
      iexact HR
    iexact HG
  exact BI.equiv_iff.mp ⟨h₁, h₂⟩

/-- The class invariant of the scatter call with its own two scratch buffers named. -/
theorem PhiA1_eq (c : Dev nD) :
    (Pipeline.ΦA spec1 c : sProp 𝕄)
      = iprop((∃ d, owns (c : Thread nD τ) scM1_0 fullShare d) ∗ (∃ d, owns (c : Thread nD τ) scM1_1 fullShare d)
          ∗ Pipeline.scopedRestBut (Ix := Unit) (Name := ℕ) (U := UR sig nD τ) (Lvl := ℕ) (Val := Elt F) spec1 c [cc1_scratch0, cc1_scratch1] ∗ (∃ r, prngReg c r)) := by
  unfold Pipeline.ΦA
  rw [Pipeline.scopedRest_split_of_list spec1 c [cc1_scratch0, cc1_scratch1] (by decide) (by decide)]
  simp only [BI.bigSepL_cons_cons, BI.bigSepL_singleton, scM1_0, scM1_1, owns_whole]
  exact sep_reassoc4 _ _ _ _

/-! ## The invariant, position by position -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (accAt1 V c n hn).1
      ∗ owns (c : Thread nD τ) scM1_1 fullShare (accAt1 V c n hn).2
      ∗ Pipeline.scopedRestBut (Ix := Unit) (Name := ℕ) (U := UR sig nD τ) (Lvl := ℕ) (Val := Elt F) spec1 c [cc1_scratch0, cc1_scratch1]
      ∗ (∃ r, prngReg c r)) := rfl

theorem PhiS1_pos (c : Dev nD) (n : ℕ) (h : n ≤ cfg1.N) (hz : n ≠ 0) :
    PhiS1 V c n h = iprop(owns (c : Thread nD τ) scM1_0 fullShare (accAt1 V c (n - 1) (by omega)).1
      ∗ owns (c : Thread nD τ) scM1_1 fullShare (accAt1 V c (n - 1) (by omega)).2
      ∗ Pipeline.scopedRestBut (Ix := Unit) (Name := ℕ) (U := UR sig nD τ) (Lvl := ℕ) (Val := Elt F) spec1 c [cc1_scratch0, cc1_scratch1]
      ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-! ## The running sums, position by position -/

/-- At a class tile's first batch tile the sums restart from zero. -/
theorem accAt1_first (c : Dev nD) (t : Fin cfg1.N) (h0 : t.val % 16 = 0) :
    accAt1 V c t.val t.isLt
      = (k1_pay4 (grid1.coords t) (iblk1 V c 1 t) (iblk1 V c 0 t) k1_pay1,
         k1_pay5 (grid1.coords t) (iblk1 V c 1 t) k1_pay2) := by
  obtain ⟨n, hn⟩ := t
  cases n with
  | zero => rfl
  | succ n => exact (if_pos h0).trans rfl

/-- At any other batch tile they continue from what the position before left. -/
theorem accAt1_next (c : Dev nD) (t : Fin cfg1.N) (h0 : ¬t.val % 16 = 0) :
    accAt1 V c t.val t.isLt
      = (k1_pay4 (grid1.coords t) (iblk1 V c 1 t) (iblk1 V c 0 t)
            (accAt1 V c (t.val - 1) (Nat.lt_of_le_of_lt (Nat.sub_le _ _) t.isLt)).1,
         k1_pay5 (grid1.coords t) (iblk1 V c 1 t)
            (accAt1 V c (t.val - 1) (Nat.lt_of_le_of_lt (Nat.sub_le _ _) t.isLt)).2) := by
  obtain ⟨n, hn⟩ := t
  cases n with
  | zero => exact absurd (Nat.zero_mod _) h0
  | succ n => exact (if_neg h0).trans rfl

/-! ## What the body finds in the two input windows -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The differences' window holds its block at every point. -/
theorem before1_0 (c : Dev nD) (t : Fin cfg1.N) (d) : (dat1 V c).before 0 t d = iblk1 V c 0 t :=
  before1_0_of V (dat1 V c) (A_eq1 V c 0) (after1_0 V c) t d

/-- The labels' window holds its block at every point. -/
theorem before1_1 (c : Dev nD) (t : Fin cfg1.N) (d) : (dat1 V c).before 1 t d = iblk1 V c 1 t :=
  before1_1_of V (dat1 V c) (A_eq1 V c 1) (after1_1 V c) t d

/-! ## Whole-buffer accesses -/

theorem hz2 : (![0, 0] : Fin 2 → Nat) = fun _ => 0 := funext fun a => by fin_cases a <;> rfl

/-- After a list of stores whose LAST is a store of the whole buffer, the buffer reads that store's payload. -/
theorem read_writes_head_whole {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

set_option maxHeartbeats 1000000 in
/-- A class tile's first batch tile: both running sums are reset to zero, then get this tile's product added. -/
theorem sound_kernel1_A (c : Dev nD) (E : Set ℕ) (i : grid1.Coords)
    (arg2 : Memref sig .tc .vmem S1024x256 .f32) (harg2 : arg2.IsWhole)
    (arg3 : Memref sig .tc .vmem S1024x1 .i32) (harg3 : arg3.IsWhole)
    (arg4 : Memref sig .tc .vmem S2000x256 .f32) (harg4 : arg4.IsWhole)
    (arg5 : Memref sig .tc .vmem S2000x1 .f32) (harg5 : arg5.IsWhole)
    (arg6 : Memref sig .tc .vmem S2000x256 .f32) (harg6 : arg6.IsWhole)
    (arg7 : Memref sig .tc .vmem S2000x1 .f32) (harg7 : arg7.IsWhole)
    (hc0 : cond1_0 i) (hc1 : ¬cond1_1 i)
    (x0 : Vec F S1024x256 .f32) (x1 : Vec F S1024x1 .i32)
    (K : PUnit → sProp 𝕄) :
    iprop(owns (c : Thread nD τ) arg2 fullShare x0 ∗ owns (c : Thread nD τ) arg3 fullShare x1
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg6 fullShare (k1_pay4 i x1 x0 k1_pay1)
            ∗ owns (c : Thread nD τ) arg7 fullShare (k1_pay5 i x1 k1_pay2)) -∗ K ⟨⟩))
      ⊢ wp frame (wpE (defs₀ (F := F)) Variants.none c none) E (cc1__scatter_kernel i arg2 harg2 arg3 harg3 arg4 harg4 arg5 harg5 arg6 harg6 arg7 harg7) K := by
  simp only [cc1__scatter_kernel_eq_skeleton]; unfold cc1__scatter_kernel_skel
  unfold owns
  iintro ⟨⟨%f0, %hf0, H0⟩, ⟨%f1, %hf1, H1⟩, ⟨%d6, %f6, -, H6⟩, ⟨%d7, %f7, -, H7⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    sl_unfold_words
    rw [read_writes_head_whole _ _ hz2]
    simp only [View.readAt_eq_ld, View.ld_unit_zero (S := S1024x1) hz2, View.ld_unit_zero (S := S1024x256) hz2,
      View.readCov_unit_zero (S := S2000x256) _ hz2]
  iexists _; isplitr
  swap; · iexact H7
  ipureintro
  sl_unfold_words
  rw [read_writes_head_whole _ _ hz2]
  simp only [View.readAt_eq_ld, View.ld_unit_zero (S := S1024x1) hz2, View.readCov_unit_zero (S := S2000x1) _ hz2]

set_option maxHeartbeats 1000000 in
/-- A batch tile that is neither first nor last: each running sum gets this tile's product added; nothing else moves. -/
theorem sound_kernel1_B (c : Dev nD) (E : Set ℕ) (i : grid1.Coords)
    (arg2 : Memref sig .tc .vmem S1024x256 .f32) (harg2 : arg2.IsWhole)
    (arg3 : Memref sig .tc .vmem S1024x1 .i32) (harg3 : arg3.IsWhole)
    (arg4 : Memref sig .tc .vmem S2000x256 .f32) (harg4 : arg4.IsWhole)
    (arg5 : Memref sig .tc .vmem S2000x1 .f32) (harg5 : arg5.IsWhole)
    (arg6 : Memref sig .tc .vmem S2000x256 .f32) (harg6 : arg6.IsWhole)
    (arg7 : Memref sig .tc .vmem S2000x1 .f32) (harg7 : arg7.IsWhole)
    (hc0 : ¬cond1_0 i) (hc1 : ¬cond1_1 i)
    (x0 : Vec F S1024x256 .f32) (x1 : Vec F S1024x1 .i32) (xs6 : Vec F S2000x256 .f32) (xs7 : Vec F S2000x1 .f32)
    (K : PUnit → sProp 𝕄) :
    iprop(owns (c : Thread nD τ) arg2 fullShare x0 ∗ owns (c : Thread nD τ) arg3 fullShare x1
        ∗ owns (c : Thread nD τ) arg6 fullShare xs6 ∗ owns (c : Thread nD τ) arg7 fullShare xs7
        ∗ (iprop(owns (c : Thread nD τ) arg2 fullShare x0 ∗ owns (c : Thread nD τ) arg3 fullShare x1
            ∗ owns (c : Thread nD τ) arg6 fullShare (k1_pay4 i x1 x0 xs6)
            ∗ owns (c : Thread nD τ) arg7 fullShare (k1_pay5 i x1 xs7)) -∗ K ⟨⟩))
      ⊢ wp frame (wpE (defs₀ (F := F)) Variants.none c none) E (cc1__scatter_kernel i arg2 harg2 arg3 harg3 arg4 harg4 arg5 harg5 arg6 harg6 arg7 harg7) K := by
  simp only [cc1__scatter_kernel_eq_skeleton]; unfold cc1__scatter_kernel_skel
  unfold owns
  iintro ⟨⟨%f0, %hf0, H0⟩, ⟨%f1, %hf1, H1⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    rw [read_writes_head_whole _ _ hz2]
    simp only [View.readAt_eq_ld, View.ld_unit_zero (S := S1024x1) hz2, View.ld_unit_zero (S := S1024x256) hz2,
      View.ld_unit_zero (S := S2000x256) hz2]
  iexists _; isplitr
  swap; · iexact H7
  ipureintro
  rw [read_writes_head_whole _ _ hz2]
  simp only [View.readAt_eq_ld, View.ld_unit_zero (S := S1024x1) hz2, View.ld_unit_zero (S := S2000x1) hz2]

set_option maxHeartbeats 1000000 in
/-- A class tile's last batch tile (never its first): the running sums get this tile's product added, and the two
    result blocks are stored at the sums so updated. -/
theorem sound_kernel1_C (c : Dev nD) (E : Set ℕ) (i : grid1.Coords)
    (arg2 : Memref sig .tc .vmem S1024x256 .f32) (harg2 : arg2.IsWhole)
    (arg3 : Memref sig .tc .vmem S1024x1 .i32) (harg3 : arg3.IsWhole)
    (arg4 : Memref sig .tc .vmem S2000x256 .f32) (harg4 : arg4.IsWhole)
    (arg5 : Memref sig .tc .vmem S2000x1 .f32) (harg5 : arg5.IsWhole)
    (arg6 : Memref sig .tc .vmem S2000x256 .f32) (harg6 : arg6.IsWhole)
    (arg7 : Memref sig .tc .vmem S2000x1 .f32) (harg7 : arg7.IsWhole)
    (hc0 : ¬cond1_0 i) (hc1 : cond1_1 i)
    (x0 : Vec F S1024x256 .f32) (x1 : Vec F S1024x1 .i32) (xs6 : Vec F S2000x256 .f32) (xs7 : Vec F S2000x1 .f32)
    (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ owns (c : Thread nD τ) arg6 fullShare xs6 ∗ owns (c : Thread nD τ) arg7 fullShare xs7
        ∗ (iprop(owns (c : Thread nD τ) arg2 fullShare x0 ∗ owns (c : Thread nD τ) arg3 fullShare x1
            ∗ owns (c : Thread nD τ) arg4 fullShare (k1_pay4 i x1 x0 xs6)
            ∗ owns (c : Thread nD τ) arg5 fullShare (k1_pay5 i x1 xs7)
            ∗ owns (c : Thread nD τ) arg6 fullShare (k1_pay4 i x1 x0 xs6)
            ∗ owns (c : Thread nD τ) arg7 fullShare (k1_pay5 i x1 xs7)) -∗ K ⟨⟩))
      ⊢ wp frame (wpE (defs₀ (F := F)) Variants.none c none) E (cc1__scatter_kernel i arg2 harg2 arg3 harg3 arg4 harg4 arg5 harg5 arg6 harg6 arg7 harg7) K := by
  simp only [cc1__scatter_kernel_eq_skeleton]; unfold cc1__scatter_kernel_skel
  unfold owns
  iintro ⟨⟨%f0, %hf0, H0⟩, ⟨%f1, %hf1, H1⟩, ⟨%d4, %f4, -, H4⟩, ⟨%d5, %f5, -, H5⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [read_writes_head_whole _ _ hz2]
    simp only [View.readAt_eq_ld, View.ld_unit_zero (S := S1024x1) hz2, View.ld_unit_zero (S := S1024x256) hz2,
      View.ld_unit_zero (S := S2000x256) hz2, View.readCov_unit_zero (S := S2000x256) _ hz2]
  isplitl [H5]
  · iexists _; isplitr
    swap; · iexact H5
    ipureintro
    sl_unfold_words
    rw [read_writes_head_whole _ _ hz2]
    simp only [View.readAt_eq_ld, View.ld_unit_zero (S := S1024x1) hz2, View.ld_unit_zero (S := S2000x1) hz2,
      View.readCov_unit_zero (S := S2000x1) _ hz2]
  isplitl [H6]
  · iexists _; isplitr
    swap; · iexact H6
    ipureintro
    sl_unfold_words
    rw [read_writes_head_whole _ _ hz2]
    simp only [View.readAt_eq_ld, View.ld_unit_zero (S := S1024x1) hz2, View.ld_unit_zero (S := S1024x256) hz2,
      View.ld_unit_zero (S := S2000x256) hz2]
  iexists _; isplitr
  swap; · iexact H7
  ipureintro
  sl_unfold_words
  rw [read_writes_head_whole _ _ hz2]
  simp only [View.readAt_eq_ld, View.ld_unit_zero (S := S1024x1) hz2, View.ld_unit_zero (S := S2000x1) hz2]

/-! ## The body obligation at a generic point -/

/-- What the body is handed at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The two input windows hold their blocks. By the batch tile's position in its class tile
    the point is a first one (the sums restart: whatever the scratch held is overwritten), a middle one, or a last
    one (the result blocks are stored at the updated sums); first and last never coincide, the class tile having
    sixteen batch tiles. At a first or middle point the two result windows are idle and go back as they came. The
    other calls' scoped buffers, the generator register and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 800 := lt_of_lt_of_eq t.isLt (show cfg1.N = 800 from N_1)
  by_cases h0 : t.val % 16 = 0
  · have h1 : ¬t.val % 16 = 15 := by omega
    have hc1 : ¬cond1_1 (grid1.coords t) := fun h => h1 ((hcond1_1 t).mp h)
    rw [Dat.leavesExact_idle (dat1 V c) 2 t (idleAt1_2 t hc1) (noFlush1_2 t hc1)]
    rw [Dat.leavesExact_idle (dat1 V c) 3 t (idleAt1_3 t hc1) (noFlush1_3 t hc1)]
    rw [accAt1_first V c t h0]
    dsimp only
    by_cases hz : t.val = 0
    · rw [PhiS1_castSucc V c t, PhiS1_zero V c _ _ hz, PhiA1_eq]
      iintro ⟨⟨HS0, HS1, Hr, Hg⟩, Ho, ⟨%d0, H0⟩, ⟨%d1, H1⟩, H2, H3⟩
      iapply (sound_kernel1_A c Set.univ (grid1.coords t) _ _ _ _ _ _ _ _ _ _ _ _ ((hcond1_0 t).mpr h0) hc1 (iblk1 V c 0 t) (iblk1 V c 1 t) _)
      isplitl [H0]; · iexact H0
      isplitl [H1]; · iexact H1
      isplitl [HS0]; · iexact HS0
      isplitl [HS1]; · iexact HS1
      iintro ⟨H0, H1, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      iexact H3
    · rw [PhiS1_castSucc V c t, PhiS1_pos V c _ _ hz]
      iintro ⟨⟨HS0, HS1, Hr, Hg⟩, Ho, ⟨%d0, H0⟩, ⟨%d1, H1⟩, H2, H3⟩
      iapply (sound_kernel1_A c Set.univ (grid1.coords t) _ _ _ _ _ _ _ _ _ _ _ _ ((hcond1_0 t).mpr h0) hc1 (iblk1 V c 0 t) (iblk1 V c 1 t) _)
      isplitl [H0]; · iexact H0
      isplitl [H1]; · iexact H1
      isplitl [HS0]; · iexists _; iexact HS0
      isplitl [HS1]; · iexists _; iexact HS1
      iintro ⟨H0, H1, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      iexact H3
  · have hz : t.val ≠ 0 := fun h => h0 (by rw [h])
    have hc0 : ¬cond1_0 (grid1.coords t) := fun h => h0 ((hcond1_0 t).mp h)
    by_cases h1 : t.val % 16 = 15
    · have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2]
      rw [show (dat1 V c).leavesExact 3 t = owns (c : Thread nD τ) (st1_3 t) fullShare ((dat1 V c).after 3 t) from by
        unfold Dat.leavesExact; rw [liveAt1_3 t hc1], after1_3]
      rw [accAt1_next V c t h0]
      dsimp only
      rw [PhiS1_castSucc V c t, PhiS1_pos V c _ _ hz]
      iintro ⟨⟨HS0, HS1, Hr, Hg⟩, Ho, ⟨%d0, H0⟩, ⟨%d1, H1⟩, ⟨%d2, H2⟩, ⟨%d3, H3⟩⟩
      iapply (sound_kernel1_C c Set.univ (grid1.coords t) _ _ _ _ _ _ _ _ _ _ _ _ hc0 hc1 (iblk1 V c 0 t) (iblk1 V c 1 t) _ _ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 2 t (idleAt1_2 t hc1) (noFlush1_2 t hc1)]
      rw [Dat.leavesExact_idle (dat1 V c) 3 t (idleAt1_3 t hc1) (noFlush1_3 t hc1)]
      rw [accAt1_next V c t h0]
      dsimp only
      rw [PhiS1_castSucc V c t, PhiS1_pos V c _ _ hz]
      iintro ⟨⟨HS0, HS1, Hr, Hg⟩, Ho, ⟨%d0, H0⟩, ⟨%d1, H1⟩, H2, H3⟩
      iapply (sound_kernel1_B c Set.univ (grid1.coords t) _ _ _ _ _ _ _ _ _ _ _ _ hc0 hc1 (iblk1 V c 0 t) (iblk1 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      iexact H3

/-- The library's body obligation for the scatter call, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After any point the invariant gives the class invariant back: the running sums' named contents are forgotten. -/
theorem Phi_out1 (c : Dev nD) (t : Fin (cfg1.N + 1)) (ht : t.val ≠ 0) :
    (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨HS0, HS1, Hr, Hg⟩
  isplitl [HS0]; · iexists _; iexact HS0
  isplitl [HS1]; · iexists _; iexact HS1
  isplitl [Hr]; · iexact Hr
  iexact Hg

theorem hout1 (c : Dev nD) : (dat1 V c).Φ (Fin.last cfg1.N) ⊢ (Pipeline.ΦA spec1 c : sProp 𝕄) :=
  Phi_out1 V c _ (by rw [Fin.val_last]; have : cfg1.N = 800 := N_1; omega)

end Cert.Kernel.Hand

end
-- ==== Proof.Bits.FinalizeBody.lean ====
import proofs.«426712_j80015240724894_1_alg».proof.Proof.Gen.Kernel.Launch
import proofs.«426712_j80015240724894_1_alg».proof.Proof.Gen.Kernel.Skeleton
import proofs.«426712_j80015240724894_1_alg».proof.Proof.Gen.Kernel.Points
import proofs.«426712_j80015240724894_1_alg».proof.Proof.Bits.RegionData
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every definition below is stated at this parameter
variable (V : (c : Dev nD) → (b : Ref sig .tc) → Buf (Elt F) ((c : Thread nD τ).loc b))

/-! # The finalize call's body: pointwise on one class tile

The body reads the three input tiles whole, and writes the result tile whole in one store: the class table's tile
less half the row sums' tile divided by the counts' tile plus one. -/

/-! ## The input windows' staging buffers hold their blocks -/

/-- An input window's current staging buffer holds its block at every point, fetched there or not, for any proof
    data whose array is the entry contents and whose body leaves the block in place: an unfetched point has the
    block index of the point before it. Window 0: the class table's tile. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1: the row sums' tile. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2: the counts' tile. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body's accesses: each buffer through its whole rectangle -/

/-- The whole tile of 2000 rows by 256 columns, and of 2000 rows by one column. -/
abbrev r2_w : Rect S2000x256 := Rect.unit (s := S2000x256) ![0, 0] S2000x256.size inb_S2000x256_S2000x256_0_0
abbrev r2_n : Rect S2000x1 := Rect.unit (s := S2000x1) ![0, 0] S2000x1.size inb_S2000x1_S2000x1_0_0

/-- The offsets of a whole rank-2 rectangle are zero. -/
theorem zeros2 : (![0, 0] : Fin 2 → Nat) = fun _ => 0 := funext fun a => by fin_cases a <;> rfl

/-- The one store covers the result's buffer: every index lies in the whole rectangle. -/
theorem cover2_3 (p0 : Vec F S2000x256 .f32) (y : S2000x256.Idx) :
    ∃ pc ∈ ([⟨r2_w, p0⟩] : List (View.Piece (Elt F) S2000x256 .f32)), y ∈ pc.1.set :=
  ⟨_, List.mem_singleton_self _, View.mem_set_unit_zero (S := S2000x256) zeros2 inb_S2000x256_S2000x256_0_0 y⟩

/-- A load through the whole rectangle reads the contents; one store through it leaves its payload. So the canonical
    contents of the one store, over the three whole loads, is the payload of the three tiles themselves. -/
theorem canon2_3 (x0 : Vec F S2000x256 .f32) (x1 : Vec F S2000x256 .f32) (x2 : Vec F S2000x1 .f32) :
    View.canon [(⟨r2_w, k2_pay1 (View.ld x1 r2_w) (View.ld x2 r2_n) (View.ld x0 r2_w)⟩ : View.Piece (Elt F) S2000x256 .f32)]
      = k2_pay1 x1 x2 x0 := by
  rw [View.canon_unit_zero (S := S2000x256) zeros2 inb_S2000x256_S2000x256_0_0,
    View.ld_unit_zero (S := S2000x256) zeros2 inb_S2000x256_S2000x256_0_0 x1,
    View.ld_unit_zero (S := S2000x1) zeros2 inb_S2000x1_S2000x1_0_0 x2,
    View.ld_unit_zero (S := S2000x256) zeros2 inb_S2000x256_S2000x256_0_0 x0]

/-! ## The body's triple -/

set_option maxHeartbeats 1000000 in
/-- The body on whole staging memrefs — the class table's tile at `x0`, the row sums' at `x1`, the counts' at `x2`,
    the result's at anything — runs to the continuation holding the inputs' as they were and the result's at the
    pointwise payload of the three tiles. -/
theorem sound_kernel2 (c : Dev nD) (E : Set ℕ) (i : grid2.Coords)
    (arg1 : Memref sig .tc .vmem S2000x256 .f32) (harg1 : arg1.IsWhole) (arg2 : Memref sig .tc .vmem S2000x256 .f32) (harg2 : arg2.IsWhole)
    (arg3 : Memref sig .tc .vmem S2000x1 .f32) (harg3 : arg3.IsWhole) (arg4 : Memref sig .tc .vmem S2000x256 .f32) (harg4 : arg4.IsWhole)
    (x0 : Vec F S2000x256 .f32) (x1 : Vec F S2000x256 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k2_pay1 x1 x2 x0)) -∗ K ⟨⟩))
      ⊢ wp frame (wpE (defs₀ (F := F)) Variants.none c none) E (cc2__finalize_kernel i arg1 harg1 arg2 harg2 arg3 harg3 arg4 harg4) K := by
  simp only [cc2__finalize_kernel_eq_skeleton]; unfold cc2__finalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover2_3 _)]
  exact canon2_3 _ _ _

/-! ## The body obligation, at a generic point -/

/-- What the body is called with at point `t`: the invariant, nothing owed, each window's current staging buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the finalize call, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Bits.Run.lean ====
import proofs.«426712_j80015240724894_1_alg».proof.Proof.Gen.Kernel.Launch
import proofs.«426712_j80015240724894_1_alg».proof.Proof.Gen.Kernel.Skeleton
import proofs.«426712_j80015240724894_1_alg».proof.Proof.Gen.Kernel.Points
import proofs.«426712_j80015240724894_1_alg».proof.Proof.Bits.Fold
import proofs.«426712_j80015240724894_1_alg».proof.Proof.Bits.GatherBody
import proofs.«426712_j80015240724894_1_alg».proof.Proof.Bits.ScatterBody
import proofs.«426712_j80015240724894_1_alg».proof.Proof.Bits.FinalizeBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The proof data family and the thread state -/

/-- The prefetched tables' admissible contents: no call has a table. -/
abbrev adm : (p : Fin 3) → (pcfgs (F := F) p).Adm := fun p => (cfgs p).toPCfg_adm
/-- Every call's proof data, each at the contents its call is entered with: the gather call after the reshape of the
    labels, the scatter call after the host's mean of squares, the finalize call straight after the scatter call. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core
    owing nothing. -/
abbrev R (c : Dev nD) : sProp 𝕄 := iprop((∃ r, prngReg c r) ∗ ∃ W, owes (c : Thread nD τ) (0 : CellTallies nD τ sig Unit) W)
/-- A host stretch as an item: its operations over the unscoped buffers held at the contents `W`, `R` riding along;
    it leaves those buffers at the operations applied in order. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape of the labels allocates no buffer. -/
theorem hostOps0_fresh : (hostOps0 : List (HloOp τ sig (Elt F))).Forall fun op => op.fresh = ∅ := by
  simp only [List.Forall]; repeat' constructor
/-- No operation of the host's mean of squares allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W5 m ρ c) ∗ ∃ r, prngReg c r)

/-! # The three calls as items

Each call is entered from every unscoped buffer at its entry contents and left with them at its exit contents: its
windows' arrays are split out of the unscoped buffers at entry and put back, at what the write-backs leave, at exit;
the generator register goes into the call's invariant and comes back; nothing is owed; the kernels have no semaphore
of their own. The gather and the scatter call's invariants name their running sums, so the class's invariant is
turned into theirs before the first point and back after the last. -/

set_option backward.isDefEq.respectTransparency.types false in
/-- THE GATHER CALL: entered after the reshape of the labels, left at the contents the host's mean of squares starts from. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    have h := hin0 (V1 m ρ) c
    unfold Pipeline.ΦA at h
    iintro ⟨Hp, -, Hr⟩
    iapply h
    isplitl [Hr]; · iexact Hr
    iexact Hp
  hout c := by
    rw [Pipeline.ownSems0_none, show (pdats m ρ 0 c).Φ (Fin.last _) = (dat0 (V1 m ρ) c).Φ (Fin.last cfg0.N) from rfl]
    have h := hout0 (V1 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SCATTER CALL: entered after the host's mean of squares, left at the contents the finalize call is entered with. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have h := hin1 (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V3 m ρ) c).Φ (Fin.last cfg1.N) from rfl]
    have h := hout1 (V3 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE FINALIZE CALL: entered straight from the scatter call's exit contents, left at the program's last contents. Its
    invariant is the class's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # The program as its five items, and the launch -/

/-- The program's five items in order: the reshape of the labels, the gather call, the host's mean of squares, the
    scatter call, the finalize call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
/-- The program is the run of its items: it is the chain of its items, and the items' run is that chain by
    definitional unfolding. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of the program on
    the TensorCores terminates, nothing faulting, and every final state holds every unscoped buffer at the last
    boundary's contents `W5`: the three calls' records over the launch theorem for a program of several calls. -/
theorem run : θ_run defs (onTc (τ := τ) (main (F := F))) ⟨m, fun _ => 0, ρ⟩ (fun r => ∀ c : Dev nD, ∀ b : Ref sig .tc,
      ¬ (Proc.devRef .tc b : DevRef τ sig).isScoped →
      r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

end Cert.Kernel.Hand

end
-- ==== Proof.Bits.Frame.lean ====
import proofs.«426712_j80015240724894_1_alg».proof.Proof.Gen.Kernel.Launch
import proofs.«426712_j80015240724894_1_alg».proof.Proof.Gen.Kernel.Skeleton
import proofs.«426712_j80015240724894_1_alg».proof.Proof.Gen.Kernel.Points
import proofs.«426712_j80015240724894_1_alg».proof.Proof.Bits.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The arguments end as launched

No host operation writes an argument and no call writes one back: a call reads it through an input window or leaves it
alone, so the last boundary's contents at an argument walk back to the launch memory. -/

/-- No operation of the first host stretch (the reshape) writes `b`, when `b` is not the label column. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- No operation of the second host stretch (the mean of squares) writes `b`, when `b` is none of its seven results. -/
theorem W3_of_ne (c : Dev nD) (b : Ref sig .tc) (h2 : b ≠ main_v2) (h3 : b ≠ main_cst) (h4 : b ≠ main_v3) (h5 : b ≠ main_cst_0)
    (h6 : b ≠ main_v4) (h7 : b ≠ main_cst_1) (h8 : b ≠ main_v5) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.nullary_writes, StableHlo.binary_writes, Finset.mem_singleton]
    exact ⟨StableHlo.devRef_ne_of_ne h2, StableHlo.devRef_ne_of_ne h3, StableHlo.devRef_ne_of_ne h4, StableHlo.devRef_ne_of_ne h5,
      StableHlo.devRef_ne_of_ne h6, StableHlo.devRef_ne_of_ne h7, StableHlo.devRef_ne_of_ne h8⟩))

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide) (by decide) (by decide) (by decide) (by decide) (by decide) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_ne m ρ c main_arg0 (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide) (by decide) (by decide) (by decide) (by decide) (by decide) (by decide)
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := (W5_arr m ρ c 0).trans (((dat2 (V4 m ρ) c).arrAt_in 0 rfl _).trans (A_eq2 (V4 m ρ) c 0))
    _ = W3 m ρ c (Proc.devRef .tc main_arg2) := W4_of_ne m ρ c main_arg2 (by decide)
    _ = W2 m ρ c (Proc.devRef .tc main_arg2) := W3_of_ne m ρ c main_arg2 (by decide) (by decide) (by decide) (by decide) (by decide) (by decide) (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of_ne m ρ c main_arg2 (by decide)
    _ = m ((c : Thread nD τ).loc main_arg2) := rfl

/-- THE FRAME, at any instance: the program runs to the end, nothing faulting, and its three argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c main_arg0 (by decide)).trans (W5_main_arg0 m ρ c),
     (h c main_arg1 (by decide)).trans (W5_main_arg1 m ρ c),
     (h c main_arg2 (by decide)).trans (W5_main_arg2 m ρ c)⟩) (run m ρ)

end Cert.Kernel.Hand

end
-- ==== Proof.Ideal.RegionData.lean ====
import proofs.«426712_j80015240724894_1_alg».proof.Proof.Gen.KernelIdeal.Launch
import proofs.«426712_j80015240724894_1_alg».proof.Proof.Gen.KernelIdeal.Skeleton
import proofs.«426712_j80015240724894_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every definition below is stated at this parameter
variable (V : (c : Dev nD) → (b : Ref sig .tc) → Buf (Elt F) ((c : Thread nD τ).loc b))

/-! # The gather call (pipeline 0): rows of the class table picked by a one-hot product, accumulated over class tiles

Grid 16 × 50: batch tile `i 0`, class tile `i 1`. Window 0 is the batch tile of the features, window 1 the class
tile of the table, window 2 the batch tile of the labels, window 3 the batch tile of the result. The scratch holds
the running sum over the class tiles seen so far; it is reset at class tile 0 and the result is stored at class tile 49. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sum's buffer. -/
abbrev scM0 : Memref sig .tc .vmem S1024x256 .f32 := Memref.whole cc0_scratch0

/-- THE RUNNING SUM after the body at position `n`: the class tile's one-hot product added to zero at a batch
    tile's first class tile (`n % 50 = 0`), to what the position before left otherwise. -/
def accAt0 (c : Dev nD) : (n : ℕ) → n < cfg0.N → Vec F S1024x256 .f32
  | 0, hn => k0_pay2 (grid0.coords ⟨0, hn⟩) (iblk0 V c 2 ⟨0, hn⟩) (iblk0 V c 1 ⟨0, hn⟩) k0_pay1
  | n + 1, hn =>
    if (n + 1) % 50 = 0 then
      k0_pay2 (grid0.coords ⟨n + 1, hn⟩) (iblk0 V c 2 ⟨n + 1, hn⟩) (iblk0 V c 1 ⟨n + 1, hn⟩) k0_pay1
    else
      k0_pay2 (grid0.coords ⟨n + 1, hn⟩) (iblk0 V c 2 ⟨n + 1, hn⟩) (iblk0 V c 1 ⟨n + 1, hn⟩) (accAt0 c n (Nat.lt_of_succ_lt hn))

/-- The region's invariant before position `n`: at the first position the class's (every scoped buffer at anything);
    afterwards the running sum's buffer at what the position before left, the other scoped buffers at anything,
    the generator register at some state. -/
def PhiS0 (c : Dev nD) : (n : ℕ) → n ≤ cfg0.N → sProp 𝕄
  | 0, _ => Pipeline.ΦA spec0 c
  | n + 1, hn => iprop(owns (c : Thread nD τ) scM0 fullShare (accAt0 V c n hn)
      ∗ Pipeline.scopedRestBut (Ix := Unit) (Name := ℕ) (U := UR sig nD τ) (Lvl := ℕ) (Val := Elt F) spec0 c [cc0_scratch0]
      ∗ (∃ r, prngReg c r))

/-- The proof data of pipeline 0 on core `c`: the arrays as the region finds them; after the body each input's buffer
    at its block, the result's at the running sum less the features' block (read only where the block is written
    back: the last class tile). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c t.val t.isLt) (iblk0 V c 0 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (accAt0 V c t.val t.isLt) (iblk0 V c 0 t) := by dsimp only [dat0]

/-! # The scatter call (pipeline 1): per class, the sum and the count of the batch rows labelled with it

Grid 50 × 16: class tile `i 0`, batch tile `i 1`. Window 0 is the batch tile of the differences, window 1 the batch
tile of the labels, windows 2 and 3 the class tile of the two results. Two scratch buffers hold the running sums
over the batch tiles seen so far; reset at batch tile 0, stored at batch tile 15. -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scM1_0 : Memref sig .tc .vmem S2000x256 .f32 := Memref.whole cc1_scratch0
abbrev scM1_1 : Memref sig .tc .vmem S2000x1 .f32 := Memref.whole cc1_scratch1

/-- THE RUNNING SUMS (rows, counts) after the body at position `n`: reset at a class tile's first batch tile (`n % 16 = 0`). -/
def accAt1 (c : Dev nD) : (n : ℕ) → n < cfg1.N → Vec F S2000x256 .f32 × Vec F S2000x1 .f32
  | 0, hn => (k1_pay4 (grid1.coords ⟨0, hn⟩) (iblk1 V c 1 ⟨0, hn⟩) (iblk1 V c 0 ⟨0, hn⟩) k1_pay1,
              k1_pay5 (grid1.coords ⟨0, hn⟩) (iblk1 V c 1 ⟨0, hn⟩) k1_pay2)
  | n + 1, hn =>
    if (n + 1) % 16 = 0 then
      (k1_pay4 (grid1.coords ⟨n + 1, hn⟩) (iblk1 V c 1 ⟨n + 1, hn⟩) (iblk1 V c 0 ⟨n + 1, hn⟩) k1_pay1,
       k1_pay5 (grid1.coords ⟨n + 1, hn⟩) (iblk1 V c 1 ⟨n + 1, hn⟩) k1_pay2)
    else
      (k1_pay4 (grid1.coords ⟨n + 1, hn⟩) (iblk1 V c 1 ⟨n + 1, hn⟩) (iblk1 V c 0 ⟨n + 1, hn⟩) (accAt1 c n (Nat.lt_of_succ_lt hn)).1,
       k1_pay5 (grid1.coords ⟨n + 1, hn⟩) (iblk1 V c 1 ⟨n + 1, hn⟩) (accAt1 c n (Nat.lt_of_succ_lt hn)).2)

def PhiS1 (c : Dev nD) : (n : ℕ) → n ≤ cfg1.N → sProp 𝕄
  | 0, _ => Pipeline.ΦA spec1 c
  | n + 1, hn => iprop(owns (c : Thread nD τ) scM1_0 fullShare (accAt1 V c n hn).1
      ∗ owns (c : Thread nD τ) scM1_1 fullShare (accAt1 V c n hn).2
      ∗ Pipeline.scopedRestBut (Ix := Unit) (Name := ℕ) (U := UR sig nD τ) (Lvl := ℕ) (Val := Elt F) spec1 c [cc1_scratch0, cc1_scratch1]
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (accAt1 V c t.val t.isLt).1
    | ⟨3, _⟩ => (accAt1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (accAt1 V c t.val t.isLt).1 := by dsimp only [dat1]
theorem after1_3 (c : Dev nD) (t : Fin cfg1.N) : (dat1 V c).after 3 t = (accAt1 V c t.val t.isLt).2 := by dsimp only [dat1]

/-! # The finalize call (pipeline 2): pointwise on class tiles

Grid 50. Window 0 the class tile of the table, window 1 of the row sums, window 2 of the counts, window 3 of the result. -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 1 t) (iblk2 V c 2 t) (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay1 (iblk2 V c 1 t) (iblk2 V c 2 t) (iblk2 V c 0 t) := by dsimp only [dat2]

end Cert.KernelIdeal.Hand

end
-- ==== Proof.Ideal.Fold.lean ====
import proofs.«426712_j80015240724894_1_alg».proof.Proof.Gen.KernelIdeal.Launch
import proofs.«426712_j80015240724894_1_alg».proof.Proof.Gen.KernelIdeal.Skeleton
import proofs.«426712_j80015240724894_1_alg».proof.Proof.Gen.KernelIdeal.Points
import proofs.«426712_j80015240724894_1_alg».proof.Proof.Ideal.RegionData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of the program's five items

The reshape of the labels; the gather call; the host's mean of squares; the scatter call; the finalize call. A host
stretch leaves every buffer at the stretch's operations applied in order; a call leaves its windows' arrays at what its
write-backs leave and every other buffer as it found it. -/

/-- Core `c`'s buffers at launch. -/
abbrev W0 : Dev nD → Valuation τ sig (Elt F) := fun c b => (s₀ m ρ).mem ((c : Dev nD), b)
/-- After the reshape of the labels (the gather call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the gather call. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host's mean of squares (the scatter call's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the scatter call (the finalize call's entry: no host operation lies between the two). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the finalize call (the program's end). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

end Cert.KernelIdeal.Hand

end
-- ==== Proof.Ideal.GatherBody.lean ====
import proofs.«426712_j80015240724894_1_alg».proof.Proof.Gen.KernelIdeal.Launch
import proofs.«426712_j80015240724894_1_alg».proof.Proof.Gen.KernelIdeal.Skeleton
import proofs.«426712_j80015240724894_1_alg».proof.Proof.Gen.KernelIdeal.Points
import proofs.«426712_j80015240724894_1_alg».proof.Proof.Ideal.RegionData
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every definition below is stated at this parameter
variable (V : (c : Dev nD) → (b : Ref sig .tc) → Buf (Elt F) ((c : Thread nD τ).loc b))

/-! ## The body's two conditions -/

/-- The first conditional of the body: the class tile is the first of its batch tile (the running sum is reset). -/
abbrev cond0_0 (i : grid0.Coords) : Prop := (Scalar.cmpi .ne (Scalar.extui (Scalar.cmpi .eq (BitVec.ofNat 32 (i 1).val) 0#32)) 0#32) = 1#1
/-- The second conditional of the body: the class tile is the last of its batch tile (the result block is stored). -/
abbrev cond0_1 (i : grid0.Coords) : Prop := k0_cond2 i = 1#1

/-- Every access of the body is through the whole-block rectangle: offsets zero on both axes. -/
theorem origin2_eq_zero : (![0, 0] : Fin 2 → Nat) = fun _ => 0 := funext fun a => by fin_cases a <;> rfl

/-- A store of a whole block, made last, leaves its payload: whatever the earlier stores and the prior contents were,
    the buffer then reads as what was stored. -/
theorem read_writes_whole_last0 {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-! ## The body on any whole memrefs, case by case

The inputs' memrefs hold `x0` (features block), `x1` (table block), `x2` (labels block). The scratch is stored whole
and read back whole within one run, so what the run leaves in it is the last whole-block store's payload. -/

set_option maxHeartbeats 1000000 in
/-- FIRST class tile, not the last: the scratch (entered at anything) is reset to zero and ends at the tile's one-hot
    product added to zero; the result's memref is handed back untouched. -/
theorem sound_kernel0_A (c : Dev nD) (E : Set ℕ) (i : grid0.Coords)
    (arg2 : Memref sig .tc .vmem S1024x256 .f32) (harg2 : arg2.IsWhole)
    (arg3 : Memref sig .tc .vmem S2000x256 .f32) (harg3 : arg3.IsWhole)
    (arg4 : Memref sig .tc .vmem S1024x1 .i32) (harg4 : arg4.IsWhole)
    (arg5 : Memref sig .tc .vmem S1024x256 .f32) (harg5 : arg5.IsWhole)
    (arg6 : Memref sig .tc .vmem S1024x256 .f32) (harg6 : arg6.IsWhole)
    (hc0 : cond0_0 i) (hc1 : ¬cond0_1 i)
    (x0 : Vec F S1024x256 .f32) (x1 : Vec F S2000x256 .f32) (x2 : Vec F S1024x1 .i32) (xi : Vec F S1024x256 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare xi
            ∗ owns (c : Thread nD τ) arg6 fullShare (k0_pay2 i x2 x1 k0_pay1)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists f3; isplitr; · ipureintro; exact hf3
    iexact H3
  iexists _; isplitr
  swap; · iexact HS
  ipureintro
  sl_unfold_words
  rw [read_writes_whole_last0 _ _ origin2_eq_zero, View.readCov_unit_zero (S := S1024x256) _ origin2_eq_zero]
  simp only [View.readAt_eq_ld, harg3.read_unread, harg4.read_unread, View.ld_unit_zero (S := S2000x256) origin2_eq_zero, View.ld_unit_zero (S := S1024x1) origin2_eq_zero]

set_option maxHeartbeats 1000000 in
/-- A MIDDLE class tile: the scratch enters at the running sum `xs` and ends at the tile's one-hot product added to
    it; the result's memref is handed back untouched. -/
theorem sound_kernel0_B (c : Dev nD) (E : Set ℕ) (i : grid0.Coords)
    (arg2 : Memref sig .tc .vmem S1024x256 .f32) (harg2 : arg2.IsWhole)
    (arg3 : Memref sig .tc .vmem S2000x256 .f32) (harg3 : arg3.IsWhole)
    (arg4 : Memref sig .tc .vmem S1024x1 .i32) (harg4 : arg4.IsWhole)
    (arg5 : Memref sig .tc .vmem S1024x256 .f32) (harg5 : arg5.IsWhole)
    (arg6 : Memref sig .tc .vmem S1024x256 .f32) (harg6 : arg6.IsWhole)
    (hc0 : ¬cond0_0 i) (hc1 : ¬cond0_1 i)
    (x0 : Vec F S1024x256 .f32) (x1 : Vec F S2000x256 .f32) (x2 : Vec F S1024x1 .i32) (xi : Vec F S1024x256 .f32)
    (xs : Vec F S1024x256 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xi
        ∗ owns (c : Thread nD τ) arg6 fullShare xs
        ∗ (iprop(owns (c : Thread nD τ) arg2 fullShare x0 ∗ owns (c : Thread nD τ) arg3 fullShare x1
            ∗ owns (c : Thread nD τ) arg4 fullShare x2 ∗ owns (c : Thread nD τ) arg5 fullShare xi
            ∗ owns (c : Thread nD τ) arg6 fullShare (k0_pay2 i x2 x1 xs)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists f3; isplitr; · ipureintro; exact hf3
    iexact H3
  iexists _; isplitr
  swap; · iexact HS
  ipureintro
  sl_unfold_words
  rw [read_writes_whole_last0 _ _ origin2_eq_zero]
  simp only [View.readAt_eq_ld, harg3.read_unread, harg4.read_unread, harg6.read_unread, View.ld_unit_zero (S := S2000x256) origin2_eq_zero, View.ld_unit_zero (S := S1024x1) origin2_eq_zero, View.ld_unit_zero (S := S1024x256) origin2_eq_zero]

set_option maxHeartbeats 1000000 in
/-- The LAST class tile (not the first): the scratch enters at the running sum `xs` and ends at `acc`, the tile's one-hot
    product added to it; the result's memref (entered at anything) ends at `acc` less the features' block. -/
theorem sound_kernel0_C (c : Dev nD) (E : Set ℕ) (i : grid0.Coords)
    (arg2 : Memref sig .tc .vmem S1024x256 .f32) (harg2 : arg2.IsWhole)
    (arg3 : Memref sig .tc .vmem S2000x256 .f32) (harg3 : arg3.IsWhole)
    (arg4 : Memref sig .tc .vmem S1024x1 .i32) (harg4 : arg4.IsWhole)
    (arg5 : Memref sig .tc .vmem S1024x256 .f32) (harg5 : arg5.IsWhole)
    (arg6 : Memref sig .tc .vmem S1024x256 .f32) (harg6 : arg6.IsWhole)
    (hc0 : ¬cond0_0 i) (hc1 : cond0_1 i)
    (x0 : Vec F S1024x256 .f32) (x1 : Vec F S2000x256 .f32) (x2 : Vec F S1024x1 .i32)
    (xs : Vec F S1024x256 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ owns (c : Thread nD τ) arg6 fullShare xs
        ∗ (iprop(owns (c : Thread nD τ) arg2 fullShare x0 ∗ owns (c : Thread nD τ) arg3 fullShare x1
            ∗ owns (c : Thread nD τ) arg4 fullShare x2
            ∗ owns (c : Thread nD τ) arg5 fullShare (k0_pay3 (k0_pay2 i x2 x1 xs) x0)
            ∗ owns (c : Thread nD τ) arg6 fullShare (k0_pay2 i x2 x1 xs)) -∗ K ⟨⟩))
      ⊢ wp frame (wpE (defs₀ (F := F)) Variants.none c none) E (cc0__gather_kernel i arg2 harg2 arg3 harg3 arg4 harg4 arg5 harg5 arg6 harg6) K := by
  simp only [cc0__gather_kernel_eq_skeleton]; unfold cc0__gather_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_writes_whole_last0 _ _ origin2_eq_zero, View.readCov_unit_zero (S := S1024x256) _ origin2_eq_zero]
    simp only [View.readAt_eq_ld, harg2.read_unread, harg3.read_unread, harg4.read_unread, harg6.read_unread, View.ld_unit_zero (S := S2000x256) origin2_eq_zero, View.ld_unit_zero (S := S1024x1) origin2_eq_zero, View.ld_unit_zero (S := S1024x256) origin2_eq_zero]
  iexists _; isplitr
  swap; · iexact HS
  ipureintro
  sl_unfold_words
  rw [read_writes_whole_last0 _ _ origin2_eq_zero]
  simp only [View.readAt_eq_ld, harg3.read_unread, harg4.read_unread, harg6.read_unread, View.ld_unit_zero (S := S2000x256) origin2_eq_zero, View.ld_unit_zero (S := S1024x1) origin2_eq_zero, View.ld_unit_zero (S := S1024x256) origin2_eq_zero]

/-! ## The conditions in closed form over the grid -/

/-- The first condition holds at the first class tile of each batch tile. -/
theorem hcond0_0 : ∀ t : Fin cfg0.N, cond0_0 (grid0.coords t) ↔ t.val % 50 = 0 :=
  (by decide +kernel : ∀ t : Fin grid0.N, cond0_0 (grid0.coords t) ↔ t.val % 50 = 0)

/-- The second condition holds at the last class tile of each batch tile. -/
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are idle -/

/-- The inputs are never idle. -/
theorem liveAt0_0 (i : grid0.Coords) : cfg0.idle 0 i = false := rfl
theorem liveAt0_1 (i : grid0.Coords) : cfg0.idle 1 i = false := rfl
theorem liveAt0_2 (i : grid0.Coords) : cfg0.idle 2 i = false := rfl
/-- The result's window is idle wherever the second condition fails: the body stores nothing into it there. -/
theorem idleAt0_3 (i : grid0.Coords) (h : ¬cond0_1 i) : cfg0.idle 3 i = true := by
  show (!(k0_cond2 i == 1#1)) = true
  rw [Bool.not_eq_true', beq_eq_false_iff_ne]; exact h
/-- It is live where the second condition holds. -/
theorem liveAt0_3 (i : grid0.Coords) (h : cond0_1 i) : cfg0.idle 3 i = false := by
  show (!(k0_cond2 i == 1#1)) = false
  rw [Bool.not_eq_false', beq_iff_eq]; exact h
/-- Off the last class tile the result's block is not written back. -/
theorem noFlush0_3 (t : Fin cfg0.N) (h : ¬t.val % 50 = 49) : (cfg0.win 3).flush t = false :=
  Bool.eq_false_iff.mpr fun hf => h ((flush0_3 t).mp hf)

/-! ## The class invariant with the running sum's buffer named -/

/-- Separating conjunction re-bracketed, as an equation of propositions. -/
theorem sep_assoc_eq0 (P Q R : sProp 𝕄) : iprop((P ∗ Q) ∗ R) = iprop(P ∗ Q ∗ R) := by
  have h₁ : iprop((P ∗ Q) ∗ R) ⊢ iprop(P ∗ Q ∗ R) := by
    iintro ⟨⟨HA, HB⟩, HC⟩
    isplitl [HA]; · iexact HA
    isplitl [HB]; · iexact HB
    iexact HC
  have h₂ : iprop(P ∗ Q ∗ R) ⊢ iprop((P ∗ Q) ∗ R) := by
    iintro ⟨HA, HB, HC⟩
    isplitl [HA HB]
    · isplitl [HA]; · iexact HA
      iexact HB
    iexact HC
  exact BI.equiv_iff.mp ⟨h₁, h₂⟩

/-- The class invariant of the gather call with its own scratch buffer named. -/
theorem PhiA0_eq (c : Dev nD) :
    (Pipeline.ΦA spec0 c : sProp 𝕄)
      = iprop((∃ d, owns (c : Thread nD τ) scM0 fullShare d) ∗ Pipeline.scopedRestBut (Ix := Unit) (Name := ℕ) (U := UR sig nD τ) (Lvl := ℕ) (Val := Elt F) spec0 c [cc0_scratch0] ∗ (∃ r, prngReg c r)) := by
  unfold Pipeline.ΦA
  rw [Pipeline.scopedRest_split_of_list spec0 c [cc0_scratch0] (by decide) (by decide), bigSepL_singleton]
  simp only [scM0, owns_whole]
  exact sep_assoc_eq0 _ _ _

/-! ## The running sum, point by point -/

/-- At a batch tile's first class tile the running sum starts from zero. -/
theorem accAt0_first (c : Dev nD) (t : Fin cfg0.N) (h0 : t.val % 50 = 0) :
    accAt0 V c t.val t.isLt = k0_pay2 (grid0.coords t) (iblk0 V c 2 t) (iblk0 V c 1 t) k0_pay1 := by
  obtain ⟨n, hn⟩ := t
  cases n with
  | zero => rfl
  | succ n => exact (if_pos h0).trans rfl

/-- At any other class tile it continues what the point before left. -/
theorem accAt0_next (c : Dev nD) (t : Fin cfg0.N) (h0 : ¬t.val % 50 = 0) :
    accAt0 V c t.val t.isLt = k0_pay2 (grid0.coords t) (iblk0 V c 2 t) (iblk0 V c 1 t)
      (accAt0 V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The invariant's shapes -/

theorem PhiS0_zero (c : Dev nD) (n : ℕ) (h : n ≤ cfg0.N) (hz : n = 0) : PhiS0 V c n h = Pipeline.ΦA spec0 c := by
  subst hz; rfl

/-- After point `n`: the running sum's buffer at that point's contents. -/
theorem PhiS0_succ (c : Dev nD) (n : ℕ) (hn : n < cfg0.N) :
    PhiS0 V c (n + 1) hn = iprop(owns (c : Thread nD τ) scM0 fullShare (accAt0 V c n hn)
      ∗ Pipeline.scopedRestBut (Ix := Unit) (Name := ℕ) (U := UR sig nD τ) (Lvl := ℕ) (Val := Elt F) spec0 c [cc0_scratch0]
      ∗ (∃ r, prngReg c r)) := rfl

/-- Before a point that is not the first: the running sum's buffer at what the point before left. -/
theorem PhiS0_pos (c : Dev nD) (n : ℕ) (h : n ≤ cfg0.N) (hz : n ≠ 0) :
    PhiS0 V c n h = iprop(owns (c : Thread nD τ) scM0 fullShare (accAt0 V c (n - 1) (by omega))
      ∗ Pipeline.scopedRestBut (Ix := Unit) (Name := ℕ) (U := UR sig nD τ) (Lvl := ℕ) (Val := Elt F) spec0 c [cc0_scratch0]
      ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## The inputs' buffers hold their blocks at every point -/

/-- An input's current staging buffer holds its block whether or not the point fetched it: unfetched, the block
    index has not moved since the point before. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4000000 in
/-- The body at any point. The inputs' buffers hold their blocks; the closed forms of the two conditions say which of
    the three cases the point is in (first class tile, a middle one, the last); the invariant hands the body the
    running sum's buffer at what the point before left (at anything at the very first point, and the first class tile
    of a later batch tile overwrites it) and takes it back at this point's running sum; the other scoped buffers, the
    generator register and what the core owes pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 800 := lt_of_lt_of_eq t.isLt (show cfg0.N = 800 from N_0)
  rw [show (dat0 V c).leavesExact 0 t = owns (c : Thread nD τ) (st0_0 t) fullShare ((dat0 V c).after 0 t) from by
    unfold Dat.leavesExact; rw [liveAt0_0], after0_0]
  rw [show (dat0 V c).leavesExact 1 t = owns (c : Thread nD τ) (st0_1 t) fullShare ((dat0 V c).after 1 t) from by
    unfold Dat.leavesExact; rw [liveAt0_1], after0_1]
  rw [show (dat0 V c).leavesExact 2 t = owns (c : Thread nD τ) (st0_2 t) fullShare ((dat0 V c).after 2 t) from by
    unfold Dat.leavesExact; rw [liveAt0_2], after0_2]
  by_cases h0 : t.val % 50 = 0
  · by_cases h1 : t.val % 50 = 49
    · exfalso; omega
    · -- the first class tile
      rw [Dat.leavesExact_idle (dat0 V c) 3 t (idleAt0_3 _ (fun h => h1 ((hcond0_1 t).mp h))) (noFlush0_3 t h1)]
      rw [accAt0_first V c t h0]
      by_cases hz : t.val = 0
      · rw [PhiS0_castSucc V c t, PhiS0_zero V c _ _ hz, PhiA0_eq]
        iintro ⟨⟨HS, Hr, Hg⟩, Ho, ⟨%d0, H0⟩, ⟨%d1, H1⟩, ⟨%d2, H2⟩, ⟨%d3, H3⟩⟩
        iapply (sound_kernel0_A c Set.univ (grid0.coords t) _ _ _ _ _ _ _ _ _ _ ((hcond0_0 t).mpr h0) (fun h => h1 ((hcond0_1 t).mp h))
          (iblk0 V c 0 t) (iblk0 V c 1 t) (iblk0 V c 2 t) ((dat0 V c).before 3 t d3) _)
        isplitl [H0]; · iexact H0
        isplitl [H1]; · iexact H1
        isplitl [H2]; · iexact H2
        isplitl [H3]; · iexact H3
        isplitl [HS]; · iexact HS
        iintro ⟨H0, H1, H2, H3, HS⟩
        isplitl [HS Hr Hg]
        · isplitl [HS]; · iexact HS
          isplitl [Hr]; · iexact Hr
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨HS, Hr, Hg⟩, Ho, ⟨%d0, H0⟩, ⟨%d1, H1⟩, ⟨%d2, H2⟩, ⟨%d3, H3⟩⟩
        iapply (sound_kernel0_A c Set.univ (grid0.coords t) _ _ _ _ _ _ _ _ _ _ ((hcond0_0 t).mpr h0) (fun h => h1 ((hcond0_1 t).mp h))
          (iblk0 V c 0 t) (iblk0 V c 1 t) (iblk0 V c 2 t) ((dat0 V c).before 3 t d3) _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HS Hr Hg]
        · isplitl [HS]; · iexact HS
          isplitl [Hr]; · iexact Hr
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 50 = 49
    · -- the last class tile
      rw [show (dat0 V c).leavesExact 3 t = owns (c : Thread nD τ) (st0_3 t) fullShare ((dat0 V c).after 3 t) from by
        unfold Dat.leavesExact; rw [liveAt0_3 _ ((hcond0_1 t).mpr h1)], after0_3]
      rw [accAt0_next V c t h0]
      rw [PhiS0_castSucc V c t, PhiS0_pos V c _ _ hz]
      iintro ⟨⟨HS, Hr, Hg⟩, Ho, ⟨%d0, H0⟩, ⟨%d1, H1⟩, ⟨%d2, H2⟩, ⟨%d3, H3⟩⟩
      iapply (sound_kernel0_C c Set.univ (grid0.coords t) _ _ _ _ _ _ _ _ _ _ (fun h => h0 ((hcond0_0 t).mp h)) ((hcond0_1 t).mpr h1)
        (iblk0 V c 0 t) (iblk0 V c 1 t) (iblk0 V c 2 t) (accAt0 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexact H3
    · -- a middle class tile
      rw [Dat.leavesExact_idle (dat0 V c) 3 t (idleAt0_3 _ (fun h => h1 ((hcond0_1 t).mp h))) (noFlush0_3 t h1)]
      rw [accAt0_next V c t h0]
      rw [PhiS0_castSucc V c t, PhiS0_pos V c _ _ hz]
      iintro ⟨⟨HS, Hr, Hg⟩, Ho, ⟨%d0, H0⟩, ⟨%d1, H1⟩, ⟨%d2, H2⟩, ⟨%d3, H3⟩⟩
      iapply (sound_kernel0_B c Set.univ (grid0.coords t) _ _ _ _ _ _ _ _ _ _ (fun h => h0 ((hcond0_0 t).mp h)) (fun h => h1 ((hcond0_1 t).mp h))
        (iblk0 V c 0 t) (iblk0 V c 1 t) (iblk0 V c 2 t) ((dat0 V c).before 3 t d3) (accAt0 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitl [HS]; · iexact HS
        isplitl [Hr]; · iexact Hr
        iexact Hg
      isplitl [Ho]; · iexact Ho
      isplitl [H0]; · iexact H0
      isplitl [H1]; · iexact H1
      isplitl [H2]; · iexact H2
      iexists _; iexact H3

/-- The library's body obligation for the gather call, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]

/-- After the last point the invariant gives the class's back: the running sum's contents are forgotten. -/
theorem hout0 (c : Dev nD) : (dat0 V c).Φ (Fin.last cfg0.N) ⊢ (Pipeline.ΦA spec0 c : sProp 𝕄) := by
  have hN : cfg0.N = 800 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨HS, Hr, Hg⟩
  isplitl [HS]; · iexists _; iexact HS
  isplitl [Hr]; · iexact Hr
  iexact Hg

end Cert.KernelIdeal.Hand

end
-- ==== Proof.Ideal.ScatterBody.lean ====
import proofs.«426712_j80015240724894_1_alg».proof.Proof.Gen.KernelIdeal.Launch
import proofs.«426712_j80015240724894_1_alg».proof.Proof.Gen.KernelIdeal.Skeleton
import proofs.«426712_j80015240724894_1_alg».proof.Proof.Gen.KernelIdeal.Points
import proofs.«426712_j80015240724894_1_alg».proof.Proof.Ideal.RegionData
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every definition below is stated at this parameter
variable (V : (c : Dev nD) → (b : Ref sig .tc) → Buf (Elt F) ((c : Thread nD τ).loc b))

/-! ## The body's two branch conditions, in closed form over the grid -/

/-- The first conditional's test: the batch tile is the first of its class tile. -/
abbrev cond1_0 (i : grid1.Coords) : Prop :=
  (Scalar.cmpi .ne (Scalar.extui (Scalar.cmpi .eq (BitVec.ofNat 32 (i 1).val) 0#32)) 0#32) = 1#1

theorem hcond1_0 : ∀ t : Fin cfg1.N, cond1_0 (grid1.coords t) ↔ t.val % 16 = 0 :=
  (by decide +kernel : ∀ t : Fin grid1.N, cond1_0 (grid1.coords t) ↔ t.val % 16 = 0)

/-- The second conditional's test: the batch tile is the last of its class tile. -/
abbrev cond1_1 (i : grid1.Coords) : Prop := k1_cond2 i = 1#1

theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem idleAt1_3 : ∀ t : Fin cfg1.N, ¬cond1_1 (grid1.coords t) → cfg1.idle 3 (grid1.coords t) = true := by decide +kernel
theorem liveAt1_2 : ∀ t : Fin cfg1.N, cond1_1 (grid1.coords t) → cfg1.idle 2 (grid1.coords t) = false := by decide +kernel
theorem liveAt1_3 : ∀ t : Fin cfg1.N, cond1_1 (grid1.coords t) → cfg1.idle 3 (grid1.coords t) = false := by decide +kernel
theorem noFlush1_2 : ∀ t : Fin cfg1.N, ¬cond1_1 (grid1.coords t) → (cfg1.win 2).flush t = false := by decide +kernel
theorem noFlush1_3 : ∀ t : Fin cfg1.N, ¬cond1_1 (grid1.coords t) → (cfg1.win 3).flush t = false := by decide +kernel

/-! ## The class invariant with the call's own two scratch buffers named -/

/-- Four conjuncts grouped to the left are the same four grouped to the right. -/
theorem sep_reassoc4 {M : Type} [URA M] (A B R G : sProp M) :
    iprop(((A ∗ B) ∗ R) ∗ G) = iprop(A ∗ B ∗ R ∗ G) := by
  have h₁ : iprop(((A ∗ B) ∗ R) ∗ G) ⊢ iprop(A ∗ B ∗ R ∗ G) := by
    iintro ⟨⟨⟨HA, HB⟩, HR⟩, HG⟩
    isplitl [HA]; · iexact HA
    isplitl [HB]; · iexact HB
    isplitl [HR]; · iexact HR
    iexact HG
  have h₂ : iprop(A ∗ B ∗ R ∗ G) ⊢ iprop(((A ∗ B) ∗ R) ∗ G) := by
    iintro ⟨HA, HB, HR, HG⟩
    isplitr [HG]
    · isplitr [HR]
      · isplitl [HA]; · iexact HA
        iexact HB
      iexact HR
    iexact HG
  exact BI.equiv_iff.mp ⟨h₁, h₂⟩

/-- The class invariant of the scatter call with its own two scratch buffers named. -/
theorem PhiA1_eq (c : Dev nD) :
    (Pipeline.ΦA spec1 c : sProp 𝕄)
      = iprop((∃ d, owns (c : Thread nD τ) scM1_0 fullShare d) ∗ (∃ d, owns (c : Thread nD τ) scM1_1 fullShare d)
          ∗ Pipeline.scopedRestBut (Ix := Unit) (Name := ℕ) (U := UR sig nD τ) (Lvl := ℕ) (Val := Elt F) spec1 c [cc1_scratch0, cc1_scratch1] ∗ (∃ r, prngReg c r)) := by
  unfold Pipeline.ΦA
  rw [Pipeline.scopedRest_split_of_list spec1 c [cc1_scratch0, cc1_scratch1] (by decide) (by decide)]
  simp only [BI.bigSepL_cons_cons, BI.bigSepL_singleton, scM1_0, scM1_1, owns_whole]
  exact sep_reassoc4 _ _ _ _

/-! ## The invariant, position by position -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (accAt1 V c n hn).1
      ∗ owns (c : Thread nD τ) scM1_1 fullShare (accAt1 V c n hn).2
      ∗ Pipeline.scopedRestBut (Ix := Unit) (Name := ℕ) (U := UR sig nD τ) (Lvl := ℕ) (Val := Elt F) spec1 c [cc1_scratch0, cc1_scratch1]
      ∗ (∃ r, prngReg c r)) := rfl

theorem PhiS1_pos (c : Dev nD) (n : ℕ) (h : n ≤ cfg1.N) (hz : n ≠ 0) :
    PhiS1 V c n h = iprop(owns (c : Thread nD τ) scM1_0 fullShare (accAt1 V c (n - 1) (by omega)).1
      ∗ owns (c : Thread nD τ) scM1_1 fullShare (accAt1 V c (n - 1) (by omega)).2
      ∗ Pipeline.scopedRestBut (Ix := Unit) (Name := ℕ) (U := UR sig nD τ) (Lvl := ℕ) (Val := Elt F) spec1 c [cc1_scratch0, cc1_scratch1]
      ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-! ## The running sums, position by position -/

/-- At a class tile's first batch tile the sums restart from zero. -/
theorem accAt1_first (c : Dev nD) (t : Fin cfg1.N) (h0 : t.val % 16 = 0) :
    accAt1 V c t.val t.isLt
      = (k1_pay4 (grid1.coords t) (iblk1 V c 1 t) (iblk1 V c 0 t) k1_pay1,
         k1_pay5 (grid1.coords t) (iblk1 V c 1 t) k1_pay2) := by
  obtain ⟨n, hn⟩ := t
  cases n with
  | zero => rfl
  | succ n => exact (if_pos h0).trans rfl

/-- At any other batch tile they continue from what the position before left. -/
theorem accAt1_next (c : Dev nD) (t : Fin cfg1.N) (h0 : ¬t.val % 16 = 0) :
    accAt1 V c t.val t.isLt
      = (k1_pay4 (grid1.coords t) (iblk1 V c 1 t) (iblk1 V c 0 t)
            (accAt1 V c (t.val - 1) (Nat.lt_of_le_of_lt (Nat.sub_le _ _) t.isLt)).1,
         k1_pay5 (grid1.coords t) (iblk1 V c 1 t)
            (accAt1 V c (t.val - 1) (Nat.lt_of_le_of_lt (Nat.sub_le _ _) t.isLt)).2) := by
  obtain ⟨n, hn⟩ := t
  cases n with
  | zero => exact absurd (Nat.zero_mod _) h0
  | succ n => exact (if_neg h0).trans rfl

/-! ## What the body finds in the two input windows -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The differences' window holds its block at every point. -/
theorem before1_0 (c : Dev nD) (t : Fin cfg1.N) (d) : (dat1 V c).before 0 t d = iblk1 V c 0 t :=
  before1_0_of V (dat1 V c) (A_eq1 V c 0) (after1_0 V c) t d

/-- The labels' window holds its block at every point. -/
theorem before1_1 (c : Dev nD) (t : Fin cfg1.N) (d) : (dat1 V c).before 1 t d = iblk1 V c 1 t :=
  before1_1_of V (dat1 V c) (A_eq1 V c 1) (after1_1 V c) t d

/-! ## Whole-buffer accesses -/

theorem hz2 : (![0, 0] : Fin 2 → Nat) = fun _ => 0 := funext fun a => by fin_cases a <;> rfl

/-- After a list of stores whose LAST is a store of the whole buffer, the buffer reads that store's payload. -/
theorem read_writes_head_whole {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

set_option maxHeartbeats 1000000 in
/-- A class tile's first batch tile: both running sums are reset to zero, then get this tile's product added. -/
theorem sound_kernel1_A (c : Dev nD) (E : Set ℕ) (i : grid1.Coords)
    (arg2 : Memref sig .tc .vmem S1024x256 .f32) (harg2 : arg2.IsWhole)
    (arg3 : Memref sig .tc .vmem S1024x1 .i32) (harg3 : arg3.IsWhole)
    (arg4 : Memref sig .tc .vmem S2000x256 .f32) (harg4 : arg4.IsWhole)
    (arg5 : Memref sig .tc .vmem S2000x1 .f32) (harg5 : arg5.IsWhole)
    (arg6 : Memref sig .tc .vmem S2000x256 .f32) (harg6 : arg6.IsWhole)
    (arg7 : Memref sig .tc .vmem S2000x1 .f32) (harg7 : arg7.IsWhole)
    (hc0 : cond1_0 i) (hc1 : ¬cond1_1 i)
    (x0 : Vec F S1024x256 .f32) (x1 : Vec F S1024x1 .i32)
    (K : PUnit → sProp 𝕄) :
    iprop(owns (c : Thread nD τ) arg2 fullShare x0 ∗ owns (c : Thread nD τ) arg3 fullShare x1
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg6 fullShare (k1_pay4 i x1 x0 k1_pay1)
            ∗ owns (c : Thread nD τ) arg7 fullShare (k1_pay5 i x1 k1_pay2)) -∗ K ⟨⟩))
      ⊢ wp frame (wpE (defs₀ (F := F)) Variants.none c none) E (cc1__scatter_kernel i arg2 harg2 arg3 harg3 arg4 harg4 arg5 harg5 arg6 harg6 arg7 harg7) K := by
  simp only [cc1__scatter_kernel_eq_skeleton]; unfold cc1__scatter_kernel_skel
  unfold owns
  iintro ⟨⟨%f0, %hf0, H0⟩, ⟨%f1, %hf1, H1⟩, ⟨%d6, %f6, -, H6⟩, ⟨%d7, %f7, -, H7⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    sl_unfold_words
    rw [read_writes_head_whole _ _ hz2]
    simp only [View.readAt_eq_ld, View.ld_unit_zero (S := S1024x1) hz2, View.ld_unit_zero (S := S1024x256) hz2,
      View.readCov_unit_zero (S := S2000x256) _ hz2]
  iexists _; isplitr
  swap; · iexact H7
  ipureintro
  sl_unfold_words
  rw [read_writes_head_whole _ _ hz2]
  simp only [View.readAt_eq_ld, View.ld_unit_zero (S := S1024x1) hz2, View.readCov_unit_zero (S := S2000x1) _ hz2]

set_option maxHeartbeats 1000000 in
/-- A batch tile that is neither first nor last: each running sum gets this tile's product added; nothing else moves. -/
theorem sound_kernel1_B (c : Dev nD) (E : Set ℕ) (i : grid1.Coords)
    (arg2 : Memref sig .tc .vmem S1024x256 .f32) (harg2 : arg2.IsWhole)
    (arg3 : Memref sig .tc .vmem S1024x1 .i32) (harg3 : arg3.IsWhole)
    (arg4 : Memref sig .tc .vmem S2000x256 .f32) (harg4 : arg4.IsWhole)
    (arg5 : Memref sig .tc .vmem S2000x1 .f32) (harg5 : arg5.IsWhole)
    (arg6 : Memref sig .tc .vmem S2000x256 .f32) (harg6 : arg6.IsWhole)
    (arg7 : Memref sig .tc .vmem S2000x1 .f32) (harg7 : arg7.IsWhole)
    (hc0 : ¬cond1_0 i) (hc1 : ¬cond1_1 i)
    (x0 : Vec F S1024x256 .f32) (x1 : Vec F S1024x1 .i32) (xs6 : Vec F S2000x256 .f32) (xs7 : Vec F S2000x1 .f32)
    (K : PUnit → sProp 𝕄) :
    iprop(owns (c : Thread nD τ) arg2 fullShare x0 ∗ owns (c : Thread nD τ) arg3 fullShare x1
        ∗ owns (c : Thread nD τ) arg6 fullShare xs6 ∗ owns (c : Thread nD τ) arg7 fullShare xs7
        ∗ (iprop(owns (c : Thread nD τ) arg2 fullShare x0 ∗ owns (c : Thread nD τ) arg3 fullShare x1
            ∗ owns (c : Thread nD τ) arg6 fullShare (k1_pay4 i x1 x0 xs6)
            ∗ owns (c : Thread nD τ) arg7 fullShare (k1_pay5 i x1 xs7)) -∗ K ⟨⟩))
      ⊢ wp frame (wpE (defs₀ (F := F)) Variants.none c none) E (cc1__scatter_kernel i arg2 harg2 arg3 harg3 arg4 harg4 arg5 harg5 arg6 harg6 arg7 harg7) K := by
  simp only [cc1__scatter_kernel_eq_skeleton]; unfold cc1__scatter_kernel_skel
  unfold owns
  iintro ⟨⟨%f0, %hf0, H0⟩, ⟨%f1, %hf1, H1⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H6]
  · iexists _; isplitr
    swap; · iexact H6
    ipureintro
    rw [read_writes_head_whole _ _ hz2]
    simp only [View.readAt_eq_ld, View.ld_unit_zero (S := S1024x1) hz2, View.ld_unit_zero (S := S1024x256) hz2,
      View.ld_unit_zero (S := S2000x256) hz2]
  iexists _; isplitr
  swap; · iexact H7
  ipureintro
  rw [read_writes_head_whole _ _ hz2]
  simp only [View.readAt_eq_ld, View.ld_unit_zero (S := S1024x1) hz2, View.ld_unit_zero (S := S2000x1) hz2]

set_option maxHeartbeats 1000000 in
/-- A class tile's last batch tile (never its first): the running sums get this tile's product added, and the two
    result blocks are stored at the sums so updated. -/
theorem sound_kernel1_C (c : Dev nD) (E : Set ℕ) (i : grid1.Coords)
    (arg2 : Memref sig .tc .vmem S1024x256 .f32) (harg2 : arg2.IsWhole)
    (arg3 : Memref sig .tc .vmem S1024x1 .i32) (harg3 : arg3.IsWhole)
    (arg4 : Memref sig .tc .vmem S2000x256 .f32) (harg4 : arg4.IsWhole)
    (arg5 : Memref sig .tc .vmem S2000x1 .f32) (harg5 : arg5.IsWhole)
    (arg6 : Memref sig .tc .vmem S2000x256 .f32) (harg6 : arg6.IsWhole)
    (arg7 : Memref sig .tc .vmem S2000x1 .f32) (harg7 : arg7.IsWhole)
    (hc0 : ¬cond1_0 i) (hc1 : cond1_1 i)
    (x0 : Vec F S1024x256 .f32) (x1 : Vec F S1024x1 .i32) (xs6 : Vec F S2000x256 .f32) (xs7 : Vec F S2000x1 .f32)
    (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ owns (c : Thread nD τ) arg6 fullShare xs6 ∗ owns (c : Thread nD τ) arg7 fullShare xs7
        ∗ (iprop(owns (c : Thread nD τ) arg2 fullShare x0 ∗ owns (c : Thread nD τ) arg3 fullShare x1
            ∗ owns (c : Thread nD τ) arg4 fullShare (k1_pay4 i x1 x0 xs6)
            ∗ owns (c : Thread nD τ) arg5 fullShare (k1_pay5 i x1 xs7)
            ∗ owns (c : Thread nD τ) arg6 fullShare (k1_pay4 i x1 x0 xs6)
            ∗ owns (c : Thread nD τ) arg7 fullShare (k1_pay5 i x1 xs7)) -∗ K ⟨⟩))
      ⊢ wp frame (wpE (defs₀ (F := F)) Variants.none c none) E (cc1__scatter_kernel i arg2 harg2 arg3 harg3 arg4 harg4 arg5 harg5 arg6 harg6 arg7 harg7) K := by
  simp only [cc1__scatter_kernel_eq_skeleton]; unfold cc1__scatter_kernel_skel
  unfold owns
  iintro ⟨⟨%f0, %hf0, H0⟩, ⟨%f1, %hf1, H1⟩, ⟨%d4, %f4, -, H4⟩, ⟨%d5, %f5, -, H5⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_words
    rw [read_writes_head_whole _ _ hz2]
    simp only [View.readAt_eq_ld, View.ld_unit_zero (S := S1024x1) hz2, View.ld_unit_zero (S := S1024x256) hz2,
      View.ld_unit_zero (S := S2000x256) hz2, View.readCov_unit_zero (S := S2000x256) _ hz2]
  isplitl [H5]
  · iexists _; isplitr
    swap; · iexact H5
    ipureintro
    sl_unfold_words
    rw [read_writes_head_whole _ _ hz2]
    simp only [View.readAt_eq_ld, View.ld_unit_zero (S := S1024x1) hz2, View.ld_unit_zero (S := S2000x1) hz2,
      View.readCov_unit_zero (S := S2000x1) _ hz2]
  isplitl [H6]
  · iexists _; isplitr
    swap; · iexact H6
    ipureintro
    sl_unfold_words
    rw [read_writes_head_whole _ _ hz2]
    simp only [View.readAt_eq_ld, View.ld_unit_zero (S := S1024x1) hz2, View.ld_unit_zero (S := S1024x256) hz2,
      View.ld_unit_zero (S := S2000x256) hz2]
  iexists _; isplitr
  swap; · iexact H7
  ipureintro
  sl_unfold_words
  rw [read_writes_head_whole _ _ hz2]
  simp only [View.readAt_eq_ld, View.ld_unit_zero (S := S1024x1) hz2, View.ld_unit_zero (S := S2000x1) hz2]

/-! ## The body obligation at a generic point -/

/-- What the body is handed at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The two input windows hold their blocks. By the batch tile's position in its class tile
    the point is a first one (the sums restart: whatever the scratch held is overwritten), a middle one, or a last
    one (the result blocks are stored at the updated sums); first and last never coincide, the class tile having
    sixteen batch tiles. At a first or middle point the two result windows are idle and go back as they came. The
    other calls' scoped buffers, the generator register and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 800 := lt_of_lt_of_eq t.isLt (show cfg1.N = 800 from N_1)
  by_cases h0 : t.val % 16 = 0
  · have h1 : ¬t.val % 16 = 15 := by omega
    have hc1 : ¬cond1_1 (grid1.coords t) := fun h => h1 ((hcond1_1 t).mp h)
    rw [Dat.leavesExact_idle (dat1 V c) 2 t (idleAt1_2 t hc1) (noFlush1_2 t hc1)]
    rw [Dat.leavesExact_idle (dat1 V c) 3 t (idleAt1_3 t hc1) (noFlush1_3 t hc1)]
    rw [accAt1_first V c t h0]
    dsimp only
    by_cases hz : t.val = 0
    · rw [PhiS1_castSucc V c t, PhiS1_zero V c _ _ hz, PhiA1_eq]
      iintro ⟨⟨HS0, HS1, Hr, Hg⟩, Ho, ⟨%d0, H0⟩, ⟨%d1, H1⟩, H2, H3⟩
      iapply (sound_kernel1_A c Set.univ (grid1.coords t) _ _ _ _ _ _ _ _ _ _ _ _ ((hcond1_0 t).mpr h0) hc1 (iblk1 V c 0 t) (iblk1 V c 1 t) _)
      isplitl [H0]; · iexact H0
      isplitl [H1]; · iexact H1
      isplitl [HS0]; · iexact HS0
      isplitl [HS1]; · iexact HS1
      iintro ⟨H0, H1, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      iexact H3
    · rw [PhiS1_castSucc V c t, PhiS1_pos V c _ _ hz]
      iintro ⟨⟨HS0, HS1, Hr, Hg⟩, Ho, ⟨%d0, H0⟩, ⟨%d1, H1⟩, H2, H3⟩
      iapply (sound_kernel1_A c Set.univ (grid1.coords t) _ _ _ _ _ _ _ _ _ _ _ _ ((hcond1_0 t).mpr h0) hc1 (iblk1 V c 0 t) (iblk1 V c 1 t) _)
      isplitl [H0]; · iexact H0
      isplitl [H1]; · iexact H1
      isplitl [HS0]; · iexists _; iexact HS0
      isplitl [HS1]; · iexists _; iexact HS1
      iintro ⟨H0, H1, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      iexact H3
  · have hz : t.val ≠ 0 := fun h => h0 (by rw [h])
    have hc0 : ¬cond1_0 (grid1.coords t) := fun h => h0 ((hcond1_0 t).mp h)
    by_cases h1 : t.val % 16 = 15
    · have hc1 : cond1_1 (grid1.coords t) := (hcond1_1 t).mpr h1
      rw [show (dat1 V c).leavesExact 2 t = owns (c : Thread nD τ) (st1_2 t) fullShare ((dat1 V c).after 2 t) from by
        unfold Dat.leavesExact; rw [liveAt1_2 t hc1], after1_2]
      rw [show (dat1 V c).leavesExact 3 t = owns (c : Thread nD τ) (st1_3 t) fullShare ((dat1 V c).after 3 t) from by
        unfold Dat.leavesExact; rw [liveAt1_3 t hc1], after1_3]
      rw [accAt1_next V c t h0]
      dsimp only
      rw [PhiS1_castSucc V c t, PhiS1_pos V c _ _ hz]
      iintro ⟨⟨HS0, HS1, Hr, Hg⟩, Ho, ⟨%d0, H0⟩, ⟨%d1, H1⟩, ⟨%d2, H2⟩, ⟨%d3, H3⟩⟩
      iapply (sound_kernel1_C c Set.univ (grid1.coords t) _ _ _ _ _ _ _ _ _ _ _ _ hc0 hc1 (iblk1 V c 0 t) (iblk1 V c 1 t) _ _ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 2 t (idleAt1_2 t hc1) (noFlush1_2 t hc1)]
      rw [Dat.leavesExact_idle (dat1 V c) 3 t (idleAt1_3 t hc1) (noFlush1_3 t hc1)]
      rw [accAt1_next V c t h0]
      dsimp only
      rw [PhiS1_castSucc V c t, PhiS1_pos V c _ _ hz]
      iintro ⟨⟨HS0, HS1, Hr, Hg⟩, Ho, ⟨%d0, H0⟩, ⟨%d1, H1⟩, H2, H3⟩
      iapply (sound_kernel1_B c Set.univ (grid1.coords t) _ _ _ _ _ _ _ _ _ _ _ _ hc0 hc1 (iblk1 V c 0 t) (iblk1 V c 1 t) _ _ _)
      isplitl [H0]; · iexact H0
      isplitl [H1]; · iexact H1
      isplitl [HS0]; · iexact HS0
      isplitl [HS1]; · iexact HS1
      iintro ⟨H0, H1, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      iexact H3

/-- The library's body obligation for the scatter call, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After any point the invariant gives the class invariant back: the running sums' named contents are forgotten. -/
theorem Phi_out1 (c : Dev nD) (t : Fin (cfg1.N + 1)) (ht : t.val ≠ 0) :
    (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨HS0, HS1, Hr, Hg⟩
  isplitl [HS0]; · iexists _; iexact HS0
  isplitl [HS1]; · iexists _; iexact HS1
  isplitl [Hr]; · iexact Hr
  iexact Hg

theorem hout1 (c : Dev nD) : (dat1 V c).Φ (Fin.last cfg1.N) ⊢ (Pipeline.ΦA spec1 c : sProp 𝕄) :=
  Phi_out1 V c _ (by rw [Fin.val_last]; have : cfg1.N = 800 := N_1; omega)

end Cert.KernelIdeal.Hand

end
-- ==== Proof.Ideal.FinalizeBody.lean ====
import proofs.«426712_j80015240724894_1_alg».proof.Proof.Gen.KernelIdeal.Launch
import proofs.«426712_j80015240724894_1_alg».proof.Proof.Gen.KernelIdeal.Skeleton
import proofs.«426712_j80015240724894_1_alg».proof.Proof.Gen.KernelIdeal.Points
import proofs.«426712_j80015240724894_1_alg».proof.Proof.Ideal.RegionData
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every definition below is stated at this parameter
variable (V : (c : Dev nD) → (b : Ref sig .tc) → Buf (Elt F) ((c : Thread nD τ).loc b))

/-! # The finalize call's body: pointwise on one class tile

The body reads the three input tiles whole, and writes the result tile whole in one store: the class table's tile
less half the row sums' tile divided by the counts' tile plus one. -/

/-! ## The input windows' staging buffers hold their blocks -/

/-- An input window's current staging buffer holds its block at every point, fetched there or not, for any proof
    data whose array is the entry contents and whose body leaves the block in place: an unfetched point has the
    block index of the point before it. Window 0: the class table's tile. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1: the row sums' tile. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2: the counts' tile. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body's accesses: each buffer through its whole rectangle -/

/-- The whole tile of 2000 rows by 256 columns, and of 2000 rows by one column. -/
abbrev r2_w : Rect S2000x256 := Rect.unit (s := S2000x256) ![0, 0] S2000x256.size inb_S2000x256_S2000x256_0_0
abbrev r2_n : Rect S2000x1 := Rect.unit (s := S2000x1) ![0, 0] S2000x1.size inb_S2000x1_S2000x1_0_0

/-- The offsets of a whole rank-2 rectangle are zero. -/
theorem zeros2 : (![0, 0] : Fin 2 → Nat) = fun _ => 0 := funext fun a => by fin_cases a <;> rfl

/-- The one store covers the result's buffer: every index lies in the whole rectangle. -/
theorem cover2_3 (p0 : Vec F S2000x256 .f32) (y : S2000x256.Idx) :
    ∃ pc ∈ ([⟨r2_w, p0⟩] : List (View.Piece (Elt F) S2000x256 .f32)), y ∈ pc.1.set :=
  ⟨_, List.mem_singleton_self _, View.mem_set_unit_zero (S := S2000x256) zeros2 inb_S2000x256_S2000x256_0_0 y⟩

/-- A load through the whole rectangle reads the contents; one store through it leaves its payload. So the canonical
    contents of the one store, over the three whole loads, is the payload of the three tiles themselves. -/
theorem canon2_3 (x0 : Vec F S2000x256 .f32) (x1 : Vec F S2000x256 .f32) (x2 : Vec F S2000x1 .f32) :
    View.canon [(⟨r2_w, k2_pay1 (View.ld x1 r2_w) (View.ld x2 r2_n) (View.ld x0 r2_w)⟩ : View.Piece (Elt F) S2000x256 .f32)]
      = k2_pay1 x1 x2 x0 := by
  rw [View.canon_unit_zero (S := S2000x256) zeros2 inb_S2000x256_S2000x256_0_0,
    View.ld_unit_zero (S := S2000x256) zeros2 inb_S2000x256_S2000x256_0_0 x1,
    View.ld_unit_zero (S := S2000x1) zeros2 inb_S2000x1_S2000x1_0_0 x2,
    View.ld_unit_zero (S := S2000x256) zeros2 inb_S2000x256_S2000x256_0_0 x0]

/-! ## The body's triple -/

set_option maxHeartbeats 1000000 in
/-- The body on whole staging memrefs — the class table's tile at `x0`, the row sums' at `x1`, the counts' at `x2`,
    the result's at anything — runs to the continuation holding the inputs' as they were and the result's at the
    pointwise payload of the three tiles. -/
theorem sound_kernel2 (c : Dev nD) (E : Set ℕ) (i : grid2.Coords)
    (arg1 : Memref sig .tc .vmem S2000x256 .f32) (harg1 : arg1.IsWhole) (arg2 : Memref sig .tc .vmem S2000x256 .f32) (harg2 : arg2.IsWhole)
    (arg3 : Memref sig .tc .vmem S2000x1 .f32) (harg3 : arg3.IsWhole) (arg4 : Memref sig .tc .vmem S2000x256 .f32) (harg4 : arg4.IsWhole)
    (x0 : Vec F S2000x256 .f32) (x1 : Vec F S2000x256 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k2_pay1 x1 x2 x0)) -∗ K ⟨⟩))
      ⊢ wp frame (wpE (defs₀ (F := F)) Variants.none c none) E (cc2__finalize_kernel i arg1 harg1 arg2 harg2 arg3 harg3 arg4 harg4) K := by
  simp only [cc2__finalize_kernel_eq_skeleton]; unfold cc2__finalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover2_3 _)]
  exact canon2_3 _ _ _

/-! ## The body obligation, at a generic point -/

/-- What the body is called with at point `t`: the invariant, nothing owed, each window's current staging buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for the finalize call, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Ideal.Run.lean ====
import proofs.«426712_j80015240724894_1_alg».proof.Proof.Gen.KernelIdeal.Launch
import proofs.«426712_j80015240724894_1_alg».proof.Proof.Gen.KernelIdeal.Skeleton
import proofs.«426712_j80015240724894_1_alg».proof.Proof.Gen.KernelIdeal.Points
import proofs.«426712_j80015240724894_1_alg».proof.Proof.Ideal.Fold
import proofs.«426712_j80015240724894_1_alg».proof.Proof.Ideal.GatherBody
import proofs.«426712_j80015240724894_1_alg».proof.Proof.Ideal.ScatterBody
import proofs.«426712_j80015240724894_1_alg».proof.Proof.Ideal.FinalizeBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The proof data family and the thread state -/

/-- The prefetched tables' admissible contents: no call has a table. -/
abbrev adm : (p : Fin 3) → (pcfgs (F := F) p).Adm := fun p => (cfgs p).toPCfg_adm
/-- Every call's proof data, each at the contents its call is entered with: the gather call after the reshape of the
    labels, the scatter call after the host's mean of squares, the finalize call straight after the scatter call. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and the core
    owing nothing. -/
abbrev R (c : Dev nD) : sProp 𝕄 := iprop((∃ r, prngReg c r) ∗ ∃ W, owes (c : Thread nD τ) (0 : CellTallies nD τ sig Unit) W)
/-- A host stretch as an item: its operations over the unscoped buffers held at the contents `W`, `R` riding along;
    it leaves those buffers at the operations applied in order. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The reshape of the labels allocates no buffer. -/
theorem hostOps0_fresh : (hostOps0 : List (HloOp τ sig (Elt F))).Forall fun op => op.fresh = ∅ := by
  simp only [List.Forall]; repeat' constructor
/-- No operation of the host's mean of squares allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W5 m ρ c) ∗ ∃ r, prngReg c r)

/-! # The three calls as items

Each call is entered from every unscoped buffer at its entry contents and left with them at its exit contents: its
windows' arrays are split out of the unscoped buffers at entry and put back, at what the write-backs leave, at exit;
the generator register goes into the call's invariant and comes back; nothing is owed; the kernels have no semaphore
of their own. The gather and the scatter call's invariants name their running sums, so the class's invariant is
turned into theirs before the first point and back after the last. -/

set_option backward.isDefEq.respectTransparency.types false in
/-- THE GATHER CALL: entered after the reshape of the labels, left at the contents the host's mean of squares starts from. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    have h := hin0 (V1 m ρ) c
    unfold Pipeline.ΦA at h
    iintro ⟨Hp, -, Hr⟩
    iapply h
    isplitl [Hr]; · iexact Hr
    iexact Hp
  hout c := by
    rw [Pipeline.ownSems0_none, show (pdats m ρ 0 c).Φ (Fin.last _) = (dat0 (V1 m ρ) c).Φ (Fin.last cfg0.N) from rfl]
    have h := hout0 (V1 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SCATTER CALL: entered after the host's mean of squares, left at the contents the finalize call is entered with. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have h := hin1 (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V3 m ρ) c).Φ (Fin.last cfg1.N) from rfl]
    have h := hout1 (V3 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE FINALIZE CALL: entered straight from the scatter call's exit contents, left at the program's last contents. Its
    invariant is the class's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # The program as its five items, and the launch -/

/-- The program's five items in order: the reshape of the labels, the gather call, the host's mean of squares, the
    scatter call, the finalize call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
/-- The program is the run of its items: it is the chain of its items, and the items' run is that chain by
    definitional unfolding. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of the program on
    the TensorCores terminates, nothing faulting, and every final state holds every unscoped buffer at the last
    boundary's contents `W5`: the three calls' records over the launch theorem for a program of several calls. -/
theorem run : θ_run defs (onTc (τ := τ) (main (F := F))) ⟨m, fun _ => 0, ρ⟩ (fun r => ∀ c : Dev nD, ∀ b : Ref sig .tc,
      ¬ (Proc.devRef .tc b : DevRef τ sig).isScoped →
      r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

end Cert.KernelIdeal.Hand

end
-- ==== Proof.Ideal.Frame.lean ====
import proofs.«426712_j80015240724894_1_alg».proof.Proof.Gen.KernelIdeal.Launch
import proofs.«426712_j80015240724894_1_alg».proof.Proof.Gen.KernelIdeal.Skeleton
import proofs.«426712_j80015240724894_1_alg».proof.Proof.Gen.KernelIdeal.Points
import proofs.«426712_j80015240724894_1_alg».proof.Proof.Ideal.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The arguments end as launched

No host operation writes an argument and no call writes one back: a call reads it through an input window or leaves it
alone, so the last boundary's contents at an argument walk back to the launch memory. -/

/-- No operation of the first host stretch (the reshape) writes `b`, when `b` is not the label column. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- No operation of the second host stretch (the mean of squares) writes `b`, when `b` is none of its seven results. -/
theorem W3_of_ne (c : Dev nD) (b : Ref sig .tc) (h2 : b ≠ main_v2) (h3 : b ≠ main_cst) (h4 : b ≠ main_v3) (h5 : b ≠ main_cst_0)
    (h6 : b ≠ main_v4) (h7 : b ≠ main_cst_1) (h8 : b ≠ main_v5) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.nullary_writes, StableHlo.binary_writes, Finset.mem_singleton]
    exact ⟨StableHlo.devRef_ne_of_ne h2, StableHlo.devRef_ne_of_ne h3, StableHlo.devRef_ne_of_ne h4, StableHlo.devRef_ne_of_ne h5,
      StableHlo.devRef_ne_of_ne h6, StableHlo.devRef_ne_of_ne h7, StableHlo.devRef_ne_of_ne h8⟩))

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide) (by decide) (by decide) (by decide) (by decide) (by decide) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_ne m ρ c main_arg0 (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide) (by decide) (by decide) (by decide) (by decide) (by decide) (by decide)
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := (W5_arr m ρ c 0).trans (((dat2 (V4 m ρ) c).arrAt_in 0 rfl _).trans (A_eq2 (V4 m ρ) c 0))
    _ = W3 m ρ c (Proc.devRef .tc main_arg2) := W4_of_ne m ρ c main_arg2 (by decide)
    _ = W2 m ρ c (Proc.devRef .tc main_arg2) := W3_of_ne m ρ c main_arg2 (by decide) (by decide) (by decide) (by decide) (by decide) (by decide) (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of_ne m ρ c main_arg2 (by decide)
    _ = m ((c : Thread nD τ).loc main_arg2) := rfl

/-- THE FRAME, at any instance: the program runs to the end, nothing faulting, and its three argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c main_arg0 (by decide)).trans (W5_main_arg0 m ρ c),
     (h c main_arg1 (by decide)).trans (W5_main_arg1 m ρ c),
     (h c main_arg2 (by decide)).trans (W5_main_arg2 m ρ c)⟩) (run m ρ)

end Cert.KernelIdeal.Hand

end
-- ==== Proof.Spec.lean ====
/-
  What the program computes, as plain functions of the three argument arrays at the ideal instance (floats are
  extended reals): for labels `t b` in range, the difference `centers[t b] - features[b]` row by row; its mean
  square; per class the sum of the differences of the rows carrying that label and their number; and the class
  table moved against that mean difference, `centers - sums / (counts + 1) · ½`. Both programs are shown to end at
  these functions.
-/
import Idealize.ShloMosaic.PureOps.Ideal
import Idealize.ShloMosaic.Lib.ValueIdx
import Idealize.ShloMosaic.Lib.StableHlo

noncomputable section

namespace Cert.Spec

open Idealize.ShloMosaic Idealize.ShloMosaic.ValueIdx

abbrev SB : Shape := ⟨1, ![16384]⟩
abbrev SBxD : Shape := ⟨2, ![16384, 256]⟩
abbrev SCxD : Shape := ⟨2, ![100000, 256]⟩
abbrev SCx1 : Shape := ⟨2, ![100000, 1]⟩
abbrev S0 : Shape := ⟨0, ![]⟩

/-- The label of batch row `b`, the 32-bit word read as a natural number (below 100000 under the precondition). -/
def label (t : IVec SB 32) (b : Fin 16384) : ℕ := (t (ix1 b)).toNat

/-- Row `b`, column `d`: the labelled class's row of the table less the features' row (zero row for a label out of range). -/
def diff (feat : FVec Ideal SBxD .f32) (t : IVec SB 32) (cen : FVec Ideal SCxD .f32) : FVec Ideal SBxD .f32 :=
  fun j => (if h : label t (j 0) < 100000 then cen (ix2 (⟨label t (j 0), h⟩ : Fin 100000) (j 1)) else 0) - feat j

/-- The differences squared, entry by entry. -/
def sq (d : FVec Ideal SBxD .f32) : FVec Ideal SBxD .f32 := fun j => d j * d j

/-- The host's tail after the squares, shared by both programs: the sum of all entries from zero, divided by
    `16384 · 256`, times one (the three literals as the programs print them). -/
def lossTail (h1 : SBxD.ReducesTo [0, 1] S0) (h2 : 0 < S0.numel) (x : FVec Ideal SBxD .f32) : FVec Ideal S0 .f32 :=
  mulf (Host.divf (Host.reduceAdd x (constant (F := Ideal) S0 .f32 0x00000000#32) h1 h2) (constant (F := Ideal) S0 .f32 0x4A800000#32))
    (constant (F := Ideal) S0 .f32 0x3F800000#32)

/-- Class `k`, column `d`: the sum of the differences of the batch rows labelled `k`. -/
def dsum (d : FVec Ideal SBxD .f32) (t : IVec SB 32) : FVec Ideal SCxD .f32 :=
  fun j => ∑ b : Fin 16384, if label t b = (j 0).val then d (ix2 b (j 1)) else 0

/-- Class `k`: the number of batch rows labelled `k`. -/
def cnt (t : IVec SB 32) : FVec Ideal SCx1 .f32 :=
  fun j => ∑ b : Fin 16384, if label t b = (j 0).val then (1 : EReal) else 0

/-- The new class table: each entry less half the class's mean difference, the mean taken over the count plus one
    (the literals `1.0` and `0.5` as the programs print them). -/
def newc (cen : FVec Ideal SCxD .f32) (ds : FVec Ideal SCxD .f32) (cn : FVec Ideal SCx1 .f32) : FVec Ideal SCxD .f32 :=
  fun j => cen j - Ideal.div (ds j) (cn (ix2 (j 0) (0 : Fin 1)) + Ideal.ofBits .f32 0x3F800000#32) * Ideal.ofBits .f32 0x3F000000#32

/-- The domain the statement is made on: every float entry a real number, every label a class number. -/
def InDomain (feat : FVec Ideal SBxD .f32) (t : IVec SB 32) (cen : FVec Ideal SCxD .f32) : Prop :=
  (∀ j, feat j ≠ ⊤ ∧ feat j ≠ ⊥) ∧ (∀ j, cen j ≠ ⊤ ∧ cen j ≠ ⊥)
    ∧ ∀ b : Fin 16384, 0 ≤ (t (ix1 b)).toInt ∧ (t (ix1 b)).toInt < 100000

end Cert.Spec

end
-- ==== Proof.Ideal.HostValue.lean ====
import proofs.«426712_j80015240724894_1_alg».proof.Proof.Gen.KernelIdeal.Launch
import proofs.«426712_j80015240724894_1_alg».proof.Proof.Gen.KernelIdeal.Skeleton
import proofs.«426712_j80015240724894_1_alg».proof.Proof.Gen.KernelIdeal.Points
import proofs.«426712_j80015240724894_1_alg».proof.Proof.Ideal.Fold
import proofs.«426712_j80015240724894_1_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-! # The named buffers read through the boundaries' contents

Which buffer holds what at each of the program's boundaries: an argument is never written; the label column is the
reshaped labels; a call's result array holds what its write-backs leave; the host's mean of squares is its three
operations applied to the gather call's result. -/

/-- A buffer other than the label column passes the reshape of the labels unchanged. -/
theorem reshape_keeps (Wv : Valuation τ sig (Elt Ideal)) (r : Ref sig .tc) (h : r ≠ main_v0) :
    StableHlo.after hostOps0 Wv (Proc.devRef .tc r) = Wv (Proc.devRef .tc r) :=
  StableHlo.after_of_forall_not_mem (b := Proc.devRef .tc r) _ _ (List.forall_iff_forall_mem.mp (by
    simp only [hostOps0, List.Forall, StableHlo.reshape_writes, Finset.mem_singleton]
    exact StableHlo.devRef_ne_of_ne h))

/-- A buffer that is none of the seven results of the host's mean of squares passes that stretch unchanged. -/
theorem meansq_keeps (Wv : Valuation τ sig (Elt Ideal)) (r : Ref sig .tc)
    (h : r ≠ main_v2 ∧ r ≠ main_cst ∧ r ≠ main_v3 ∧ r ≠ main_cst_0 ∧ r ≠ main_v4 ∧ r ≠ main_cst_1 ∧ r ≠ main_v5) :
    StableHlo.after hostOps1 Wv (Proc.devRef .tc r) = Wv (Proc.devRef .tc r) := by
  obtain ⟨h1, h2, h3, h4, h5, h6, h7⟩ := h
  refine StableHlo.after_of_forall_not_mem (b := Proc.devRef .tc r) _ _ (List.forall_iff_forall_mem.mp ?_)
  simp only [hostOps1, List.Forall, StableHlo.nullary_writes, StableHlo.binary_writes, Finset.mem_singleton]
  exact ⟨StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7⟩

/-- The squares, entry by entry, are the host's product of the array with itself. -/
theorem sq_eq_mulf (x : FVec Ideal S16384x256 .f32) : Spec.sq x = mulf x x := rfl

-- at the gather call's entry
theorem V1_arg0 (c : Dev nD) : V1 m ρ c main_arg0 = m ((c : Thread nD τ).loc main_arg0) :=
  (reshape_keeps (W0 m ρ c) main_arg0 (by decide)).trans rfl
theorem V1_arg2 (c : Dev nD) : V1 m ρ c main_arg2 = m ((c : Thread nD τ).loc main_arg2) :=
  (reshape_keeps (W0 m ρ c) main_arg2 (by decide)).trans rfl
/-- The label column is the labels, row by row. -/
theorem V1_v0_col (c : Dev nD) (b : Fin 16384) :
    (V1 m ρ c main_v0 : IVec S16384x1 32) (ix2 b (0 : Fin 1)) = (m ((c : Thread nD τ).loc main_arg1) : IVec S16384 32) (ix1 b) := by
  show (StableHlo.after hostOps0 (W0 m ρ c) (Proc.devRef .tc main_v0) : IVec S16384x1 32) (ix2 b (0 : Fin 1)) = _
  after_results
  show shapeCast S16384x1 (W0 m ρ c (Proc.devRef .tc main_arg1) : IVec S16384 32) shapeCasts_S16384_S16384x1
      (ix2 b (0 : Fin 1)) = _
  -- row `b`, column 0 of the column and entry `b` of the labels have the same row-major position
  refine (shapeCast_apply _ _ (ix2 b (0 : Fin 1)) (ix1 b) ?_).trans rfl
  rw [Shape.rowMajor_val_one, Shape.rowMajor_val_two]
  show b.val = b.val * 1 + 0
  omega

-- after the gather call
theorem V2_v1 (c : Dev nD) : V2 m ρ c main_v1 = (dat0 (V1 m ρ) c).arrAt 3 cfg0.N := W2_arr m ρ c 3
theorem V2_v0 (c : Dev nD) : V2 m ρ c main_v0 = V1 m ρ c main_v0 :=
  (W2_arr m ρ c 2).trans (((dat0 (V1 m ρ) c).arrAt_in 2 rfl _).trans (A_eq0 (V1 m ρ) c 2))
theorem V2_arg2 (c : Dev nD) : V2 m ρ c main_arg2 = V1 m ρ c main_arg2 :=
  (W2_arr m ρ c 1).trans (((dat0 (V1 m ρ) c).arrAt_in 1 rfl _).trans (A_eq0 (V1 m ρ) c 1))

-- after the host's mean of squares
theorem V3_v1 (c : Dev nD) : V3 m ρ c main_v1 = V2 m ρ c main_v1 := meansq_keeps (W2 m ρ c) main_v1 (by decide)
theorem V3_v0 (c : Dev nD) : V3 m ρ c main_v0 = V2 m ρ c main_v0 := meansq_keeps (W2 m ρ c) main_v0 (by decide)
theorem V3_arg2 (c : Dev nD) : V3 m ρ c main_arg2 = V2 m ρ c main_arg2 := meansq_keeps (W2 m ρ c) main_arg2 (by decide)
/-- The first result: the shared host tail of the gather call's result squared. -/
theorem V3_v5 (c : Dev nD) :
    (V3 m ρ c main_v5 : FVec Ideal S_ .f32)
      = Spec.lossTail reducesTo_S16384x256_S_d0_1 h_S_ (Spec.sq (V2 m ρ c main_v1 : FVec Ideal S16384x256 .f32)) := by
  show (StableHlo.after hostOps1 (W2 m ρ c) (Proc.devRef .tc main_v5) : FVec Ideal S_ .f32) = _
  after_results
  unfold Spec.lossTail
  rw [sq_eq_mulf]

-- after the scatter call
theorem V4_v6_0 (c : Dev nD) : V4 m ρ c main_v6_0 = (dat1 (V3 m ρ) c).arrAt 2 cfg1.N := W4_arr m ρ c 2
theorem V4_v6_1 (c : Dev nD) : V4 m ρ c main_v6_1 = (dat1 (V3 m ρ) c).arrAt 3 cfg1.N := W4_arr m ρ c 3
theorem V4_arg2 (c : Dev nD) : V4 m ρ c main_arg2 = V3 m ρ c main_arg2 := W4_of_ne m ρ c main_arg2 (by decide)
theorem V4_v5 (c : Dev nD) : V4 m ρ c main_v5 = V3 m ρ c main_v5 := W4_of_ne m ρ c main_v5 (by decide)

-- after the finalize call
theorem V5_v7 (c : Dev nD) : V5 m ρ c main_v7 = (dat2 (V4 m ρ) c).arrAt 3 cfg2.N := W5_arr m ρ c 3
theorem V5_v5 (c : Dev nD) : V5 m ρ c main_v5 = V4 m ρ c main_v5 := W5_of_ne m ρ c main_v5 (by decide)
theorem V5_arg0 (c : Dev nD) : V5 m ρ c main_arg0 = m ((c : Thread nD τ).loc main_arg0) :=
  calc V5 m ρ c main_arg0
    _ = V4 m ρ c main_arg0 := W5_of_ne m ρ c main_arg0 (by decide)
    _ = V3 m ρ c main_arg0 := W4_of_ne m ρ c main_arg0 (by decide)
    _ = V2 m ρ c main_arg0 := meansq_keeps (W2 m ρ c) main_arg0 (by decide)
    _ = V1 m ρ c main_arg0 := (W2_arr m ρ c 0).trans (((dat0 (V1 m ρ) c).arrAt_in 0 rfl _).trans (A_eq0 (V1 m ρ) c 0))
    _ = m ((c : Thread nD τ).loc main_arg0) := V1_arg0 m ρ c
theorem V5_arg1 (c : Dev nD) : V5 m ρ c main_arg1 = m ((c : Thread nD τ).loc main_arg1) :=
  calc V5 m ρ c main_arg1
    _ = V4 m ρ c main_arg1 := W5_of_ne m ρ c main_arg1 (by decide)
    _ = V3 m ρ c main_arg1 := W4_of_ne m ρ c main_arg1 (by decide)
    _ = V2 m ρ c main_arg1 := meansq_keeps (W2 m ρ c) main_arg1 (by decide)
    _ = V1 m ρ c main_arg1 := W2_of_ne m ρ c main_arg1 (by decide)
    _ = m ((c : Thread nD τ).loc main_arg1) := (reshape_keeps (W0 m ρ c) main_arg1 (by decide)).trans rfl
theorem V5_arg2 (c : Dev nD) : V5 m ρ c main_arg2 = m ((c : Thread nD τ).loc main_arg2) :=
  calc V5 m ρ c main_arg2
    _ = V4 m ρ c main_arg2 := (W5_arr m ρ c 0).trans (((dat2 (V4 m ρ) c).arrAt_in 0 rfl _).trans (A_eq2 (V4 m ρ) c 0))
    _ = V3 m ρ c main_arg2 := V4_arg2 m ρ c
    _ = V2 m ρ c main_arg2 := V3_arg2 m ρ c
    _ = V1 m ρ c main_arg2 := V2_arg2 m ρ c
    _ = m ((c : Thread nD τ).loc main_arg2) := V1_arg2 m ρ c

end Cert.KernelIdeal.Hand

end
-- ==== Proof.Ideal.GatherValue.lean ====
import proofs.«426712_j80015240724894_1_alg».proof.Proof.Gen.KernelIdeal.Launch
import proofs.«426712_j80015240724894_1_alg».proof.Proof.Gen.KernelIdeal.Skeleton
import proofs.«426712_j80015240724894_1_alg».proof.Proof.Gen.KernelIdeal.Points
import proofs.«426712_j80015240724894_1_alg».proof.Proof.Ideal.RegionData
import proofs.«426712_j80015240724894_1_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

namespace Gather

/-- The class id the body forms at class tile `i1`, position `k`, as a 32-bit word: no wrap. -/
theorem classWord (i1 k : ℕ) (hi : i1 < 50) (hk : k < 2000) :
    IntOp.addi (Scalar.muli (BitVec.ofNat 32 i1) 2000#32) (BitVec.ofNat 32 k) = BitVec.ofNat 32 (i1 * 2000 + k) := by
  apply BitVec.eq_of_toNat_eq
  simp only [IntOp.addi, Scalar.muli, IntOp.muli, BitVec.toNat_add, BitVec.toNat_mul, BitVec.toNat_ofNat]
  omega

/-- The one-hot entry: the widened compare bit, converted, is `1` where the label word names that class and `0` elsewhere. -/
theorem onehot_word (lab : BitVec 32) (i1 k : ℕ) (hi : i1 < 50) (hk : k < 2000) :
    (FloatOps.sitofp (F := Ideal) .f32
        ((IntOp.cmpi .eq lab (IntOp.addi (Scalar.muli (BitVec.ofNat 32 i1) 2000#32) (BitVec.ofNat 32 k))).setWidth 32) : EReal)
      = if lab.toNat = i1 * 2000 + k then 1 else 0 := by
  rw [classWord i1 k hi hk]
  show (((((IntOp.cmpi .eq lab (BitVec.ofNat 32 (i1 * 2000 + k))).setWidth 32).toInt : ℤ) : ℝ) : EReal) = _
  by_cases h : lab.toNat = i1 * 2000 + k
  · have e : lab = BitVec.ofNat 32 (i1 * 2000 + k) := by
      apply BitVec.eq_of_toNat_eq; rw [BitVec.toNat_ofNat, h]; omega
    rw [if_pos h, ← e]
    have : (IntOp.cmpi .eq lab lab).setWidth 32 = 1#32 := by simp [IntOp.cmpi]
    rw [this]; simp
  · have e : lab ≠ BitVec.ofNat 32 (i1 * 2000 + k) := by
      intro e; apply h; rw [e, BitVec.toNat_ofNat]; omega
    rw [if_neg h]
    have : (IntOp.cmpi .eq lab (BitVec.ofNat 32 (i1 * 2000 + k))).setWidth 32 = 0#32 := by
      simp [IntOp.cmpi, beq_eq_false_iff_ne.mpr e]
    rw [this]; simp

/-! The product's operand indices, axis by axis: the left operand is read at (row of the result, contraction
    position), the right at (contraction position, column of the result). -/

theorem lhs_mm_0 (i : S1024x256.Idx) (q : dot_S1024x2000_S2000x256_S1024x256_1_0_0_1_n_n.contr.Idx) :
    (dot_S1024x2000_S2000x256_S1024x256_1_0_0_1_n_n.lhsIdx i q 0).val = (i 0).val := by
  unfold DotDims.lhsIdx
  rw [dif_neg (show ¬(0 : Fin S1024x2000.rank) ∈ dot_S1024x2000_S2000x256_S1024x256_1_0_0_1_n_n.lhsBatch by decide),
    dif_pos (show (0 : Fin S1024x2000.rank) ∈ dot_S1024x2000_S2000x256_S1024x256_1_0_0_1_n_n.lhsNonContracting by decide)]
  rfl

theorem lhs_mm_1 (i : S1024x256.Idx) (q : dot_S1024x2000_S2000x256_S1024x256_1_0_0_1_n_n.contr.Idx) :
    (dot_S1024x2000_S2000x256_S1024x256_1_0_0_1_n_n.lhsIdx i q 1).val = (q ⟨0, by decide⟩).val :=
  dot_S1024x2000_S2000x256_S1024x256_1_0_0_1_n_n.lhsIdx_val_of_single rfl i q

theorem rhs_mm_0 (i : S1024x256.Idx) (q : dot_S1024x2000_S2000x256_S1024x256_1_0_0_1_n_n.contr.Idx) :
    (dot_S1024x2000_S2000x256_S1024x256_1_0_0_1_n_n.rhsIdx i q 0).val = (q ⟨0, by decide⟩).val :=
  dot_S1024x2000_S2000x256_S1024x256_1_0_0_1_n_n.rhsIdx_val_of_single rfl i q

theorem rhs_mm_1 (i : S1024x256.Idx) (q : dot_S1024x2000_S2000x256_S1024x256_1_0_0_1_n_n.contr.Idx) :
    (dot_S1024x2000_S2000x256_S1024x256_1_0_0_1_n_n.rhsIdx i q 1).val = (i 1).val := by
  unfold DotDims.rhsIdx
  rw [dif_neg (show ¬(1 : Fin S2000x256.rank) ∈ dot_S1024x2000_S2000x256_S1024x256_1_0_0_1_n_n.rhsBatch by decide),
    dif_pos (show (1 : Fin S2000x256.rank) ∈ dot_S1024x2000_S2000x256_S1024x256_1_0_0_1_n_n.rhsNonContracting by decide)]
  rfl

/-- A product of a [1024, 2000] by a [2000, 256] vector onto zero, read at (p, q): the sum over the 2000 contraction
    positions of the left operand's (p, k) entry times the right operand's (k, q) entry. -/
theorem matmul_zero_apply {φ₁ φ₂ : FTy} (L : FVec Ideal S1024x2000 φ₁) (R : FVec Ideal S2000x256 φ₂) (p : Fin 1024) (q : Fin 256) :
    FloatOps.matmul dot_S1024x2000_S2000x256_S1024x256_1_0_0_1_n_n none L R (constant (F := Ideal) S1024x256 .f32 0x00000000#32) (ix2 p q)
      = ∑ k : Fin 2000, L (ix2 p k) * R (ix2 k q) := by
  rw [Ideal.matmul_constant_zero_apply, ← Equiv.sum_comp (contrEquiv1 dot_S1024x2000_S2000x256_S1024x256_1_0_0_1_n_n 2000 rfl rfl).symm]
  refine Finset.sum_congr rfl fun k _ => ?_
  have hk := contrEquiv1_symm_val dot_S1024x2000_S2000x256_S1024x256_1_0_0_1_n_n 2000 rfl rfl k
  have el : dot_S1024x2000_S2000x256_S1024x256_1_0_0_1_n_n.lhsIdx (ix2 p q) ((contrEquiv1 dot_S1024x2000_S2000x256_S1024x256_1_0_0_1_n_n 2000 rfl rfl).symm k) = ix2 p k :=
    funext fun a => Fin.ext (by
      match a with
      | ⟨0, _⟩ => exact lhs_mm_0 _ _
      | ⟨1, _⟩ => exact (lhs_mm_1 _ _).trans hk)
  have er : dot_S1024x2000_S2000x256_S1024x256_1_0_0_1_n_n.rhsIdx (ix2 p q) ((contrEquiv1 dot_S1024x2000_S2000x256_S1024x256_1_0_0_1_n_n 2000 rfl rfl).symm k) = ix2 k q :=
    funext fun a => Fin.ext (by
      match a with
      | ⟨0, _⟩ => exact (rhs_mm_0 _ _).trans hk
      | ⟨1, _⟩ => exact rhs_mm_1 _ _)
  rw [el, er]

/-- THE BODY'S UPDATE at (p, q): what the running sum held there plus, over the tile's 2000 classes, the table block's
    (k, q) entry where row p's label word names class `2000·i₁ + k` (the compare bit as `1`) and nothing elsewhere. -/
theorem pay2_apply (i : grid0.Coords) (lab : Vec Ideal S1024x1 .i32) (cenb : Vec Ideal S2000x256 .f32) (acc : Vec Ideal S1024x256 .f32)
    (p : Fin 1024) (q : Fin 256) :
    k0_pay2 (F := Ideal) i lab cenb acc (ix2 p q)
      = acc (ix2 p q) + ∑ k : Fin 2000, (if (lab (ix2 p (0 : Fin 1))).toNat = (i 1).val * 2000 + k.val then (1 : EReal) else 0) * cenb (ix2 k q) := by
  unfold k0_pay2
  dsimp only
  refine (congrFun (shapeCast_self _ _) (ix2 p q)).trans ?_
  refine (addf_apply _ _ _).trans ?_
  refine congrArg (acc (ix2 p q) + ·) ?_
  refine (matmul_zero_apply _ _ p q).trans ?_
  refine Finset.sum_congr rfl fun k _ => ?_
  refine congrArg₂ (· * ·) ?_ rfl
  have hb : broadcastTo S1024x2000 (shapeCast S1024x1 lab shapeCasts_S1024x1_S1024x1) broadcasts_S1024x1_S1024x2000 (ix2 p k)
      = lab (ix2 p (0 : Fin 1)) := by
    rw [shapeCast_self]
    refine broadcastTo_apply _ _ _ _ fun a => ?_
    match a with
    | ⟨0, _⟩ => rfl
    | ⟨1, _⟩ => rfl
  have hio : iota Kind.tc S1024x2000 32 [1] iota_S1024x2000_d1_w32 (ix2 p k) = BitVec.ofNat 32 k.val :=
    iota_single_apply _ _ _ _ _ _
  show FloatOps.sitofp (F := Ideal) .f32 ((IntOp.cmpi .eq
      (broadcastTo S1024x2000 (shapeCast S1024x1 lab shapeCasts_S1024x1_S1024x1) broadcasts_S1024x1_S1024x2000 (ix2 p k))
      (IntOp.addi (Scalar.muli (BitVec.ofNat 32 (i 1).val) 2000#32) (iota Kind.tc S1024x2000 32 [1] iota_S1024x2000_d1_w32 (ix2 p k)))).setWidth 32) = _
  rw [hb, hio]
  exact onehot_word _ _ _ (i 1).isLt k.isLt

/-- The reset value is the zero block. -/
theorem pay1_apply (j : S1024x256.Idx) : k0_pay1 (F := Ideal) j = 0 := by
  unfold k0_pay1
  refine (congrFun (shapeCast_self _ _) j).trans ?_
  exact Ideal.ofBits_zero_f32

/-- The stored result is the running sum less the features' block, entry by entry. -/
theorem pay3_apply (a b : Vec Ideal S1024x256 .f32) (j : S1024x256.Idx) : k0_pay3 (F := Ideal) a b j = a j - b j := rfl

/-! The grid's two coordinates at position `t` (batch tile `t / 50`, class tile `t % 50`) and the four windows' block
    indices there: the features', the labels' and the result's blocks are numbered by the batch tile, the table's by the
    class tile, and no window moves along its second axis. -/

theorem coords0 : ∀ t : Fin cfg0.N, (grid0.coords t 0).val = t.val / 50 ∧ (grid0.coords t 1).val = t.val % 50 :=
  (by decide +kernel : ∀ t : Fin grid0.N, (grid0.coords t 0).val = t.val / 50 ∧ (grid0.coords t 1).val = t.val % 50)

theorem idx0 : ∀ t : Fin cfg0.N,
    win0_0.index t (0 : Fin 2) = t.val / 50 ∧ win0_0.index t (1 : Fin 2) = 0
    ∧ win0_1.index t (0 : Fin 2) = t.val % 50 ∧ win0_1.index t (1 : Fin 2) = 0
    ∧ win0_2.index t (0 : Fin 2) = t.val / 50 ∧ win0_2.index t (1 : Fin 2) = 0
    ∧ win0_3.index t (0 : Fin 2) = t.val / 50 ∧ win0_3.index t (1 : Fin 2) = 0 :=
  (by decide +kernel : ∀ t : Fin grid0.N, _)

/-! # The mathematics of one batch tile

    Rows and classes are numbered by naturals so that the arithmetic of tiles is plain: `rowLabel lab r` is the label of
    batch row `r` read as a number, `tabAt cen r q` entry (r, q) of the class table. At grid position `n` (batch tile
    `n / 50`, class tile `n % 50`) the body adds `tileSum lab cen n` to the running sum. -/

/-- The label of batch row `r`, as a number (0 past the batch). -/
def rowLabel (lab : IVec S16384x1 32) (r : ℕ) : ℕ :=
  if h : r < 16384 then (lab (ix2 (⟨r, h⟩ : Fin 16384) (0 : Fin 1))).toNat else 0

/-- Entry (r, q) of the class table (0 past the table). -/
def tabAt (cen : FVec Ideal S100000x256 .f32) (r : ℕ) (q : Fin 256) : EReal :=
  if h : r < 100000 then cen (ix2 (⟨r, h⟩ : Fin 100000) q) else 0

/-- What position `n` adds at (p, q): over the class tile's 2000 classes `2000·(n % 50) + k`, the table's entry
    for the class that row `1024·(n / 50) + p` is labelled with, if it lies in this tile. -/
def tileSum (lab : IVec S16384x1 32) (cen : FVec Ideal S100000x256 .f32) (n : ℕ) (j : S1024x256.Idx) : EReal :=
  ∑ k : Fin 2000, (if rowLabel lab (1024 * (n / 50) + (j 0).val) = n % 50 * 2000 + k.val then (1 : EReal) else 0)
    * tabAt cen (2000 * (n % 50) + k.val) (j 1)

/-- OVER THE 50 CLASS TILES of batch tile `i₀` the additions make the labelled row of the table: class `L` lies in
    exactly one tile, `L / 2000`, at position `L % 2000`; every other term is `0` times an entry. -/
theorem tileSum_run (lab : IVec S16384x1 32) (cen : FVec Ideal S100000x256 .f32) (i0 : ℕ) (j : S1024x256.Idx) (L : ℕ)
    (hL : rowLabel lab (1024 * i0 + (j 0).val) = L) (hLr : L < 100000) :
    ∑ s ∈ Finset.range 50, tileSum lab cen (50 * i0 + s) j = tabAt cen L (j 1) := by
  have key : ∀ s ∈ Finset.range 50, tileSum lab cen (50 * i0 + s) j
      = ∑ k : Fin 2000, (if L = s * 2000 + k.val then (1 : EReal) else 0) * tabAt cen (2000 * s + k.val) (j 1) := by
    intro s hs
    have hs' : s < 50 := Finset.mem_range.mp hs
    unfold tileSum
    rw [show (50 * i0 + s) / 50 = i0 by omega, show (50 * i0 + s) % 50 = s by omega, hL]
  rw [Finset.sum_congr rfl key, Finset.sum_eq_single (L / 2000)]
  · rw [Finset.sum_eq_single (⟨L % 2000, Nat.mod_lt _ (by decide)⟩ : Fin 2000)]
    · rw [if_pos (by show L = L / 2000 * 2000 + L % 2000; omega), one_mul]
      exact congrArg (fun r => tabAt cen r (j 1)) (by show 2000 * (L / 2000) + L % 2000 = L; omega)
    · intro k _ hk
      rw [if_neg, zero_mul]
      intro e
      exact hk (Fin.ext (by show k.val = L % 2000; have := k.isLt; omega))
    · intro h; exact absurd (Finset.mem_univ _) h
  · intro s hs hne
    refine Finset.sum_eq_zero fun k _ => ?_
    rw [if_neg, zero_mul]
    intro e
    have := k.isLt
    exact hne (by omega)
  · intro h
    exact absurd (Finset.mem_range.mpr (by omega)) h

end Gather

-- the TensorCore's buffer contents when the region is entered, at the ideal instance
variable (V : (c : Dev nD) → (b : Ref sig .tc) → Buf (Elt Ideal) ((c : Thread nD τ).loc b))

namespace Gather

/-! # The blocks the body loads, as entries of the arrays

    A block's element sits in its array, on each axis, at the block index times the block's extent plus its own
    coordinate: the features' and the labels' blocks move with the batch tile, the table's with the class tile. -/

/-- The features' block at position `t`: rows `1024·(t / 50) + p`. -/
theorem iblk0_0_apply (c : Dev nD) (t : Fin cfg0.N) (p : Fin 1024) (q : Fin 256) (r : Fin 16384)
    (hr : r.val = 1024 * (t.val / 50) + p.val) :
    (iblk0 V c 0 t : Vec Ideal S1024x256 .f32) (ix2 p q) = (V c main_arg0 : Vec Ideal S16384x256 .f32) (ix2 r q) := by
  obtain ⟨e0, e1, -⟩ := idx0 t
  unfold iblk0
  rw [View.read_apply]
  show V c main_arg0 _ = V c main_arg0 _
  refine congrArg _ (funext fun a => Fin.ext ?_)
  match a with
  | ⟨0, _⟩ => show win0_0.index t 0 * 1024 + 1 * p.val = r.val; rw [e0, hr]; omega
  | ⟨1, _⟩ => show win0_0.index t 1 * 256 + 1 * q.val = q.val; rw [e1]; omega

/-- The table's block at position `t`: rows `2000·(t % 50) + k`. -/
theorem iblk0_1_apply (c : Dev nD) (t : Fin cfg0.N) (k : Fin 2000) (q : Fin 256) (r : Fin 100000)
    (hr : r.val = 2000 * (t.val % 50) + k.val) :
    (iblk0 V c 1 t : Vec Ideal S2000x256 .f32) (ix2 k q) = (V c main_arg2 : Vec Ideal S100000x256 .f32) (ix2 r q) := by
  obtain ⟨-, -, e0, e1, -⟩ := idx0 t
  unfold iblk0
  rw [View.read_apply]
  show V c main_arg2 _ = V c main_arg2 _
  refine congrArg _ (funext fun a => Fin.ext ?_)
  match a with
  | ⟨0, _⟩ => show win0_1.index t 0 * 2000 + 1 * k.val = r.val; rw [e0, hr]; omega
  | ⟨1, _⟩ => show win0_1.index t 1 * 256 + 1 * q.val = q.val; rw [e1]; omega

/-- The labels' block at position `t`: rows `1024·(t / 50) + p` of the label column. -/
theorem iblk0_2_apply (c : Dev nD) (t : Fin cfg0.N) (p : Fin 1024) (r : Fin 16384)
    (hr : r.val = 1024 * (t.val / 50) + p.val) :
    (iblk0 V c 2 t : Vec Ideal S1024x1 .i32) (ix2 p (0 : Fin 1)) = (V c main_v0 : Vec Ideal S16384x1 .i32) (ix2 r (0 : Fin 1)) := by
  obtain ⟨-, -, -, -, e0, e1, -⟩ := idx0 t
  unfold iblk0
  rw [View.read_apply]
  show V c main_v0 _ = V c main_v0 _
  refine congrArg _ (funext fun a => Fin.ext ?_)
  match a with
  | ⟨0, _⟩ => show win0_2.index t 0 * 1024 + 1 * p.val = r.val; rw [e0, hr]; omega
  | ⟨1, _⟩ => show win0_2.index t 1 * 1 + 1 * (0 : Fin 1).val = (0 : Fin 1).val; rw [e1]; rfl

/-! # The running sum in closed form -/

/-- ONE POSITION'S UPDATE, over the arrays: the body at position `n` leaves what it found plus `tileSum` of the label
    column and the table as the region finds them. -/
theorem step_apply (c : Dev nD) (n : ℕ) (h : n < cfg0.N) (acc : Vec Ideal S1024x256 .f32) (j : S1024x256.Idx) :
    k0_pay2 (F := Ideal) (grid0.coords ⟨n, h⟩) (iblk0 V c 2 ⟨n, h⟩) (iblk0 V c 1 ⟨n, h⟩) acc j
      = acc j + tileSum (V c main_v0) (V c main_arg2) n j := by
  have hN : cfg0.N = 800 := N_0
  obtain ⟨p, q, rfl⟩ : ∃ (p : Fin 1024) (q : Fin 256), j = ix2 p q := ⟨j 0, j 1, eq_ix2 j⟩
  refine (pay2_apply (grid0.coords ⟨n, h⟩) (iblk0 V c 2 ⟨n, h⟩) (iblk0 V c 1 ⟨n, h⟩) acc p q).trans ?_
  refine congrArg (acc (ix2 p q) + ·) ?_
  unfold tileSum
  refine Finset.sum_congr rfl fun k _ => ?_
  have hr : 1024 * (n / 50) + p.val < 16384 := by have := p.isLt; omega
  have hk : 2000 * (n % 50) + k.val < 100000 := by have := k.isLt; omega
  rw [iblk0_2_apply V c ⟨n, h⟩ p ⟨1024 * (n / 50) + p.val, hr⟩ rfl,
    iblk0_1_apply V c ⟨n, h⟩ k q ⟨2000 * (n % 50) + k.val, hk⟩ rfl, (coords0 ⟨n, h⟩).2]
  show _ = (if rowLabel (V c main_v0) (1024 * (n / 50) + p.val) = n % 50 * 2000 + k.val then (1 : EReal) else 0)
    * tabAt (V c main_arg2) (2000 * (n % 50) + k.val) q
  unfold rowLabel tabAt
  rw [dif_pos hr, dif_pos hk]

/-- The running sum at a batch tile's first class tile: the update of the zero block. -/
theorem accAt0_reset (c : Dev nD) (n : ℕ) (h : n < cfg0.N) (h0 : n % 50 = 0) :
    accAt0 V c n h = k0_pay2 (grid0.coords ⟨n, h⟩) (iblk0 V c 2 ⟨n, h⟩) (iblk0 V c 1 ⟨n, h⟩) (k0_pay1 (F := Ideal)) := by
  cases n with
  | zero => rfl
  | succ n => rw [accAt0, if_pos h0]

/-- The running sum at a later class tile: the update of what the position before left. -/
theorem accAt0_step (c : Dev nD) (n : ℕ) (h : n + 1 < cfg0.N) (h0 : ¬(n + 1) % 50 = 0) :
    accAt0 V c (n + 1) h
      = k0_pay2 (grid0.coords ⟨n + 1, h⟩) (iblk0 V c 2 ⟨n + 1, h⟩) (iblk0 V c 1 ⟨n + 1, h⟩) (accAt0 V c n (Nat.lt_of_succ_lt h)) := by
  rw [accAt0, if_neg h0]

/-- THE RUNNING SUM AFTER POSITION `n`: the additions of the class tiles `0 … n % 50` of its batch tile, from zero
    (induction on the position inside the batch tile's run). -/
theorem accAt0_apply (c : Dev nD) (n : ℕ) (hn : n < cfg0.N) (j : S1024x256.Idx) :
    accAt0 V c n hn j = ∑ s ∈ Finset.range (n % 50 + 1), tileSum (V c main_v0) (V c main_arg2) (50 * (n / 50) + s) j := by
  have hN : cfg0.N = 800 := N_0
  have hdm : 50 * (n / 50) + n % 50 = n := Nat.div_add_mod n 50
  have h' : 50 * (n / 50) + n % 50 < cfg0.N := by rw [hdm]; exact hn
  rw [Pipeline.eq_accAt_of_mod (accAt0 V c) 50
    (fun m hm => k0_pay2 (F := Ideal) (grid0.coords ⟨m, hm⟩) (iblk0 V c 2 ⟨m, hm⟩) (iblk0 V c 1 ⟨m, hm⟩) (k0_pay1 (F := Ideal)))
    (fun m hm acc => k0_pay2 (F := Ideal) (grid0.coords ⟨m, hm⟩) (iblk0 V c 2 ⟨m, hm⟩) (iblk0 V c 1 ⟨m, hm⟩) acc)
    (fun m hm h0 => accAt0_reset V c m hm h0) (fun m hm h0 => accAt0_step V c m hm h0) (by decide) n hn h']
  rw [Pipeline.accAt_add_apply
    (fun m hm => k0_pay2 (F := Ideal) (grid0.coords ⟨m, hm⟩) (iblk0 V c 2 ⟨m, hm⟩) (iblk0 V c 1 ⟨m, hm⟩) (k0_pay1 (F := Ideal)))
    (fun m hm acc => k0_pay2 (F := Ideal) (grid0.coords ⟨m, hm⟩) (iblk0 V c 2 ⟨m, hm⟩) (iblk0 V c 1 ⟨m, hm⟩) acc)
    (fun _ => (0 : EReal)) (tileSum (V c main_v0) (V c main_arg2)) (50 * (n / 50)) 49
    (fun hb i => by
      show k0_pay2 (F := Ideal) (grid0.coords ⟨50 * (n / 50), hb⟩) (iblk0 V c 2 ⟨50 * (n / 50), hb⟩) (iblk0 V c 1 ⟨50 * (n / 50), hb⟩) (k0_pay1 (F := Ideal)) i = _
      rw [step_apply V c (50 * (n / 50)) hb (k0_pay1 (F := Ideal)) i, pay1_apply])
    (fun m hm acc i _ _ => step_apply V c m hm acc i)
    (n % 50) (by have := Nat.mod_lt n (show 50 > 0 by decide); omega) h' j]
  exact zero_add _

/-! # The result block, and the array -/

/-- WHAT A BATCH TILE'S LAST CLASS TILE STORES at (p, q), over the arrays: all 50 class tiles have been added, so the
    running sum is the labelled row of the table; the features' entry is taken off. -/
theorem stored_apply (c : Dev nD) (feat : FVec Ideal Spec.SBxD .f32) (tg : IVec Spec.SB 32) (cen : FVec Ideal Spec.SCxD .f32)
    (hfeat : (V c main_arg0 : FVec Ideal S16384x256 .f32) = feat)
    (hcen : (V c main_arg2 : FVec Ideal S100000x256 .f32) = cen)
    (htgt : ∀ b : Fin 16384, (V c main_v0 : IVec S16384x1 32) (ix2 b (0 : Fin 1)) = tg (ix1 b))
    (hrange : ∀ b, Spec.label tg b < 100000)
    (t : Fin cfg0.N) (ht : t.val % 50 = 49) (p : Fin 1024) (q : Fin 256) (r : Fin 16384)
    (hr : r.val = 1024 * (t.val / 50) + p.val) :
    k0_pay3 (F := Ideal) (accAt0 V c t.val t.isLt) (iblk0 V c 0 t) (ix2 p q) = Spec.diff feat tg cen (ix2 r q) := by
  have hL : rowLabel (V c main_v0) (1024 * (t.val / 50) + ((ix2 p q : S1024x256.Idx) 0).val) = Spec.label tg r := by
    show rowLabel (V c main_v0) (1024 * (t.val / 50) + p.val) = (tg (ix1 r)).toNat
    unfold rowLabel
    rw [dif_pos (by rw [← hr]; exact r.isLt), ← htgt r]
    exact congrArg (fun b : Fin 16384 => ((V c main_v0 : IVec S16384x1 32) (ix2 b (0 : Fin 1))).toNat) (Fin.ext hr.symm)
  refine (pay3_apply _ _ _).trans ?_
  rw [accAt0_apply V c t.val t.isLt (ix2 p q), ht, iblk0_0_apply V c t p q r hr,
    tileSum_run (V c main_v0) (V c main_arg2) (t.val / 50) (ix2 p q) (Spec.label tg r) hL (hrange r)]
  show tabAt (V c main_arg2) (Spec.label tg r) q - (V c main_arg0 : Vec Ideal S16384x256 .f32) (ix2 r q)
    = (if h : Spec.label tg r < 100000 then cen (ix2 (⟨Spec.label tg r, h⟩ : Fin 100000) q) else 0) - feat (ix2 r q)
  unfold tabAt
  rw [hcen, hfeat]

/-- WHAT A WRITING POSITION WRITES BACK is its block of the specification's array: the block's (p, q) sits in the array
    at row `1024·(t / 50) + p`, column q. -/
theorem flushed_eq (c : Dev nD) (feat : FVec Ideal Spec.SBxD .f32) (tg : IVec Spec.SB 32) (cen : FVec Ideal Spec.SCxD .f32)
    (hfeat : (V c main_arg0 : FVec Ideal S16384x256 .f32) = feat)
    (hcen : (V c main_arg2 : FVec Ideal S100000x256 .f32) = cen)
    (htgt : ∀ b : Fin 16384, (V c main_v0 : IVec S16384x1 32) (ix2 b (0 : Fin 1)) = tg (ix1 b))
    (hrange : ∀ b, Spec.label tg b < 100000)
    (t : Fin cfg0.N) (hf : (cfg0.win 3).flush t = true) :
    (dat0 (F := Ideal) V c).flushed 3 t = ((cfg0.win 3).blk t).view.read (Elt Ideal) (Spec.diff feat tg cen) := by
  have hN : cfg0.N = 800 := N_0
  have ht : t.val % 50 = 49 := (flush0_3 t).mp hf
  obtain ⟨-, -, -, -, -, -, e0, e1⟩ := idx0 t
  show (cfg0.win 3).cut (grid0.coords t) ((dat0 (F := Ideal) V c).after 3 t) = _
  rw [after0_3]
  funext y
  obtain ⟨p, q, rfl⟩ : ∃ (p : Fin 1024) (q : Fin 256), y = (ix2 p q : S1024x256.Idx) :=
    ⟨y 0, y 1, eq_ix2 (n0 := 1024) (n1 := 256) y⟩
  have hr : 1024 * (t.val / 50) + p.val < 16384 := by have := p.isLt; have := t.isLt; omega
  have hx : (cfg0.win 3).xinj (grid0.coords t) (ix2 p q : S1024x256.Idx) = (ix2 p q : S1024x256.Idx) :=
    funext fun a => by
      match a with
      | ⟨0, _⟩ => rfl
      | ⟨1, _⟩ => rfl
  have he : ((cfg0.win 3).blk t).view.emb (ix2 p q : S1024x256.Idx)
      = (ix2 (⟨1024 * (t.val / 50) + p.val, hr⟩ : Fin 16384) q : S16384x256.Idx) :=
    funext fun a => Fin.ext (by
      match a with
      | ⟨0, _⟩ => show win0_3.index t 0 * 1024 + 1 * p.val = 1024 * (t.val / 50) + p.val; rw [e0]; omega
      | ⟨1, _⟩ => show win0_3.index t 1 * 256 + 1 * q.val = q.val; rw [e1]; omega)
  rw [View.read_apply]
  show k0_pay3 (F := Ideal) (accAt0 V c t.val t.isLt) (iblk0 V c 0 t) ((cfg0.win 3).xinj (grid0.coords t) (ix2 p q : S1024x256.Idx))
    = Spec.diff feat tg cen (((cfg0.win 3).blk t).view.emb (ix2 p q : S1024x256.Idx))
  rw [hx, he]
  exact stored_apply V c feat tg cen hfeat hcen htgt hrange t ht p q _ rfl

/-- Every entry of the result array lies in the block some writing position writes back: row `r` in batch tile
    `r / 1024`, whose last class tile is position `50·(r / 1024) + 49`. -/
theorem covered (i : S16384x256.Idx) :
    ∃ t : Fin cfg0.N, (cfg0.win 3).flush t = true ∧ i ∈ ((cfg0.win 3).blk t).view.set := by
  have hN : cfg0.N = 800 := N_0
  have h0 : (i 0).val < 16384 := idx2_lt0 i
  have h1 : (i 1).val < 256 := idx2_lt1 i
  have htN : 50 * ((i 0).val / 1024) + 49 < cfg0.N := by rw [hN]; omega
  obtain ⟨-, -, -, -, -, -, e0, e1⟩ := idx0 ⟨50 * ((i 0).val / 1024) + 49, htN⟩
  refine ⟨⟨50 * ((i 0).val / 1024) + 49, htN⟩, (flush0_3 _).mpr (by show (50 * ((i 0).val / 1024) + 49) % 50 = 49; omega), ?_⟩
  show i ∈ ((View.whole main_v1).slice (win0_3.rect ⟨50 * ((i 0).val / 1024) + 49, htN⟩)).set
  rw [View.set_slice_whole, Rect.mem_set_unit]
  intro a
  match a with
  | ⟨0, _⟩ =>
    show win0_3.index ⟨50 * ((i 0).val / 1024) + 49, htN⟩ 0 * 1024 ≤ (i 0).val
      ∧ (i 0).val < win0_3.index ⟨50 * ((i 0).val / 1024) + 49, htN⟩ 0 * 1024 + 1024
    rw [e0]
    show (50 * ((i 0).val / 1024) + 49) / 50 * 1024 ≤ (i 0).val ∧ (i 0).val < (50 * ((i 0).val / 1024) + 49) / 50 * 1024 + 1024
    omega
  | ⟨1, _⟩ =>
    show win0_3.index ⟨50 * ((i 0).val / 1024) + 49, htN⟩ 1 * 256 ≤ (i 1).val
      ∧ (i 1).val < win0_3.index ⟨50 * ((i 0).val / 1024) + 49, htN⟩ 1 * 256 + 256
    rw [e1]
    omega

end Gather

/-- THE GATHER CALL'S RESULT. With the features, the label column and the class table as the call finds them, every
    table entry a real number and every label a class number, the result array ends at the labelled row of the table
    less the features' row. -/
theorem gather_arr (c : Dev nD) (feat : FVec Ideal Spec.SBxD .f32) (t : IVec Spec.SB 32) (cen : FVec Ideal Spec.SCxD .f32)
    (hfeat : (V c main_arg0 : FVec Ideal S16384x256 .f32) = feat)
    (hcen : (V c main_arg2 : FVec Ideal S100000x256 .f32) = cen)
    (htgt : ∀ b : Fin 16384, (V c main_v0 : IVec S16384x1 32) (ix2 b (0 : Fin 1)) = t (ix1 b))
    (hfin : ∀ j, cen j ≠ ⊤ ∧ cen j ≠ ⊥) (hrange : ∀ b, Spec.label t b < 100000) :
    ((dat0 (F := Ideal) V c).arrAt 3 cfg0.N : FVec Ideal S16384x256 .f32) = Spec.diff feat t cen :=
  (dat0 (F := Ideal) V c).arrAt_eq_of_cover 3 (Spec.diff feat t cen)
    (fun p hf => Gather.flushed_eq V c feat t cen hfeat hcen htgt hrange p hf) Gather.covered

end Cert.KernelIdeal.Hand

end
-- ==== Proof.Ideal.ScatterValue.lean ====
import proofs.«426712_j80015240724894_1_alg».proof.Proof.Gen.KernelIdeal.Launch
import proofs.«426712_j80015240724894_1_alg».proof.Proof.Gen.KernelIdeal.Skeleton
import proofs.«426712_j80015240724894_1_alg».proof.Proof.Gen.KernelIdeal.Points
import proofs.«426712_j80015240724894_1_alg».proof.Proof.Ideal.RegionData
import proofs.«426712_j80015240724894_1_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

-- the TensorCore's buffer contents when the region is entered, at the ideal instance
variable (V : (c : Dev nD) → (b : Ref sig .tc) → Buf (Elt Ideal) ((c : Thread nD τ).loc b))

/-! # The scatter call's two result arrays

Grid point t of the scatter call is class tile t / 16 and batch tile t % 16. Its body adds to the two running sums,
for class k of the tile and column q,

  Σ_{p < 1024} [label (1024 (t % 16) + p) = 2000 (t / 16) + k] · d (1024 (t % 16) + p, q)    and    Σ_{p < 1024} [ … ] · 1,

the two products contracting the batch axis of the one-hot factor and of the differences (of the constant one). The
sums start from zero at batch tile 0, so after batch tile 15 they run over all 16 · 1024 = 16384 batch rows; only
there are the result blocks written back, and the blocks of the 50 class tiles cover the 100000 classes. The factor
is one or zero, so a product with it is the other factor or zero, whatever extended real that factor is. -/

namespace ScatterValue

/-! ## The one-hot factor -/

/-- The compare bit, widened and converted: 1 where the two words are equal, else 0. -/
theorem sitofp_eq_bit (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  by_cases h : a = b
  · rw [if_pos h]
    have e : (IntOp.cmpi .eq a b).setWidth 32 = 1#32 := by
      subst h; simp [IntOp.cmpi]
    rw [e]; norm_num
  · rw [if_neg h]
    have hb : (a == b) = false := beq_eq_false_iff_ne.mpr h
    have e : (IntOp.cmpi .eq a b).setWidth 32 = 0#32 := by
      simp [IntOp.cmpi, hb]
    rw [e]; norm_num

/-- The one-hot factor of the scatter call at row p of the batch tile and class k of the class tile:
    1 where the row's label word is the class word (class tile number times 2000, plus k), else 0. -/
theorem onehot_apply (i : grid1.Coords) (lab : Vec Ideal S1024x1 .i32) (p : Fin 1024) (k : Fin 2000) :
    k1_pay3 (F := Ideal) i lab (ix2 p k)
      = if lab (ix2 p (0 : Fin 1)) = BitVec.ofNat 32 (i 0).val * 2000#32 + BitVec.ofNat 32 k.val then (1 : EReal) else 0 := by
  unfold k1_pay3
  have eb : broadcastTo S1024x2000 (shapeCast S1024x1 lab shapeCasts_S1024x1_S1024x1) broadcasts_S1024x1_S1024x2000 (ix2 p k)
      = lab (ix2 p (0 : Fin 1)) := by
    refine (broadcastTo_apply _ _ (ix2 p k) (ix2 p (0 : Fin 1)) fun a => ?_).trans ?_
    · match a with
      | ⟨0, _⟩ => rfl
      | ⟨1, _⟩ => rfl
    · rw [shapeCast_self]
  have ei : iota Kind.tc S1024x2000 32 [1] iota_S1024x2000_d1_w32 (ix2 p k) = BitVec.ofNat 32 k.val :=
    iota_single_apply _ _ _ _ _ _
  show FloatOps.sitofp (F := Ideal) .f32 ((IntOp.cmpi .eq
      (broadcastTo S1024x2000 (shapeCast S1024x1 lab shapeCasts_S1024x1_S1024x1) broadcasts_S1024x1_S1024x2000 (ix2 p k))
      (BitVec.ofNat 32 (i 0).val * 2000#32 + iota Kind.tc S1024x2000 32 [1] iota_S1024x2000_d1_w32 (ix2 p k))).setWidth 32) = _
  rw [eb, ei]
  exact sitofp_eq_bit _ _

/-! ## The two products at an index -/

/-! The two products of the scatter call contract axis 0 of both operands: at result index (k, q) and contraction
    position p the left operand is read at (p, k), the right one at (p, q). -/

theorem lhs_rows_0 (j : S2000x256.Idx) (c : dot_S1024x2000_S1024x256_S2000x256_0_0_1_1_n_n.contr.Idx) :
    (dot_S1024x2000_S1024x256_S2000x256_0_0_1_1_n_n.lhsIdx j c (0 : Fin 2)).val = (c ⟨0, Nat.one_pos⟩).val :=
  DotDims.lhsIdx_val_of_single _ rfl j c

theorem lhs_rows_1 (j : S2000x256.Idx) (c : dot_S1024x2000_S1024x256_S2000x256_0_0_1_1_n_n.contr.Idx) :
    (dot_S1024x2000_S1024x256_S2000x256_0_0_1_1_n_n.lhsIdx j c (1 : Fin 2)).val = (j 0).val := by
  simp [DotDims.lhsIdx, dot_S1024x2000_S1024x256_S2000x256_0_0_1_1_n_n]; rfl

theorem rhs_rows_0 (j : S2000x256.Idx) (c : dot_S1024x2000_S1024x256_S2000x256_0_0_1_1_n_n.contr.Idx) :
    (dot_S1024x2000_S1024x256_S2000x256_0_0_1_1_n_n.rhsIdx j c (0 : Fin 2)).val = (c ⟨0, Nat.one_pos⟩).val :=
  DotDims.rhsIdx_val_of_single _ rfl j c

theorem rhs_rows_1 (j : S2000x256.Idx) (c : dot_S1024x2000_S1024x256_S2000x256_0_0_1_1_n_n.contr.Idx) :
    (dot_S1024x2000_S1024x256_S2000x256_0_0_1_1_n_n.rhsIdx j c (1 : Fin 2)).val = (j 1).val := by
  simp [DotDims.rhsIdx, dot_S1024x2000_S1024x256_S2000x256_0_0_1_1_n_n]; rfl

/-- The running row sums after one grid point: what was there plus, for class k and column q, the sum over the
    batch tile's rows p of the one-hot factor times the difference at (p, q). -/
theorem rows_pay_apply (i : grid1.Coords) (lab : Vec Ideal S1024x1 .i32) (x : FVec Ideal S1024x256 .f32)
    (acc : FVec Ideal S2000x256 .f32) (k : Fin 2000) (q : Fin 256) :
    k1_pay4 (F := Ideal) i lab x acc (ix2 k q)
      = acc (ix2 k q) + ∑ p : Fin 1024, k1_pay3 (F := Ideal) i lab (ix2 p k) * x (ix2 p q) := by
  unfold k1_pay4
  refine (congrFun (shapeCast_self _ _) (ix2 k q)).trans ?_
  refine congrArg (acc (ix2 k q) + ·) ?_
  refine (Ideal.matmul_constant_zero_apply dot_S1024x2000_S1024x256_S2000x256_0_0_1_1_n_n none (k1_pay3 (F := Ideal) i lab)
    (truncf .bf16 (shapeCast S1024x256 x shapeCasts_S1024x256_S1024x256) bitsLt_bf16_f32) (ix2 k q)).trans ?_
  rw [← Equiv.sum_comp (contrEquiv1 dot_S1024x2000_S1024x256_S2000x256_0_0_1_1_n_n 1024 rfl rfl).symm]
  refine Finset.sum_congr rfl fun p _ => ?_
  have hc := contrEquiv1_symm_val dot_S1024x2000_S1024x256_S2000x256_0_0_1_1_n_n 1024 rfl rfl p
  have hl : dot_S1024x2000_S1024x256_S2000x256_0_0_1_1_n_n.lhsIdx (ix2 k q)
      ((contrEquiv1 dot_S1024x2000_S1024x256_S2000x256_0_0_1_1_n_n 1024 rfl rfl).symm p) = ix2 p k := by
    funext a; apply Fin.ext
    match a with
    | ⟨0, _⟩ => exact (lhs_rows_0 _ _).trans hc
    | ⟨1, _⟩ => exact lhs_rows_1 _ _
  have hr : dot_S1024x2000_S1024x256_S2000x256_0_0_1_1_n_n.rhsIdx (ix2 k q)
      ((contrEquiv1 dot_S1024x2000_S1024x256_S2000x256_0_0_1_1_n_n 1024 rfl rfl).symm p) = ix2 p q := by
    funext a; apply Fin.ext
    match a with
    | ⟨0, _⟩ => exact (rhs_rows_0 _ _).trans hc
    | ⟨1, _⟩ => exact rhs_rows_1 _ _
  rw [hl, hr]
  refine congrArg (k1_pay3 (F := Ideal) i lab (ix2 p k) * ·) ?_
  exact congrFun (shapeCast_self x _) (ix2 p q)

theorem lhs_cnt_0 (j : S2000x1.Idx) (c : dot_S1024x2000_S1024x1_S2000x1_0_0_1_1_n_n.contr.Idx) :
    (dot_S1024x2000_S1024x1_S2000x1_0_0_1_1_n_n.lhsIdx j c (0 : Fin 2)).val = (c ⟨0, Nat.one_pos⟩).val :=
  DotDims.lhsIdx_val_of_single _ rfl j c

theorem lhs_cnt_1 (j : S2000x1.Idx) (c : dot_S1024x2000_S1024x1_S2000x1_0_0_1_1_n_n.contr.Idx) :
    (dot_S1024x2000_S1024x1_S2000x1_0_0_1_1_n_n.lhsIdx j c (1 : Fin 2)).val = (j 0).val := by
  simp [DotDims.lhsIdx, dot_S1024x2000_S1024x1_S2000x1_0_0_1_1_n_n]; rfl

/-- The bf16 word 0x3F80 is the number one. -/
theorem one_bf16 : Ideal.ofBits .bf16 0x3F80#16 = 1 := by
  simp [Ideal.ofBits, Ideal.ieee, -EReal.coe_mul]; norm_num

/-- The running counts after one grid point: what was there plus, for class k, the sum over the batch tile's rows p
    of the one-hot factor (the right operand of the product is the constant one). -/
theorem cnt_pay_apply (i : grid1.Coords) (lab : Vec Ideal S1024x1 .i32) (acc : FVec Ideal S2000x1 .f32) (k : Fin 2000) :
    k1_pay5 (F := Ideal) i lab acc (ix2 k (0 : Fin 1))
      = acc (ix2 k (0 : Fin 1)) + ∑ p : Fin 1024, k1_pay3 (F := Ideal) i lab (ix2 p k) := by
  unfold k1_pay5
  refine (congrFun (shapeCast_self _ _) (ix2 k (0 : Fin 1))).trans ?_
  refine congrArg (acc (ix2 k (0 : Fin 1)) + ·) ?_
  refine (Ideal.matmul_constant_zero_apply dot_S1024x2000_S1024x1_S2000x1_0_0_1_1_n_n none (k1_pay3 (F := Ideal) i lab)
    (broadcast S1024x1 (Scalar.ofBits (F := Ideal) .bf16 0x3F80#16)) (ix2 k (0 : Fin 1))).trans ?_
  rw [← Equiv.sum_comp (contrEquiv1 dot_S1024x2000_S1024x1_S2000x1_0_0_1_1_n_n 1024 rfl rfl).symm]
  refine Finset.sum_congr rfl fun p _ => ?_
  have hc := contrEquiv1_symm_val dot_S1024x2000_S1024x1_S2000x1_0_0_1_1_n_n 1024 rfl rfl p
  have hl : dot_S1024x2000_S1024x1_S2000x1_0_0_1_1_n_n.lhsIdx (ix2 k (0 : Fin 1))
      ((contrEquiv1 dot_S1024x2000_S1024x1_S2000x1_0_0_1_1_n_n 1024 rfl rfl).symm p) = ix2 p k := by
    funext a; apply Fin.ext
    match a with
    | ⟨0, _⟩ => exact (lhs_cnt_0 _ _).trans hc
    | ⟨1, _⟩ => exact lhs_cnt_1 _ _
  rw [hl]
  show k1_pay3 (F := Ideal) i lab (ix2 p k) * Ideal.ofBits .bf16 0x3F80#16 = _
  rw [one_bf16, mul_one]

/-! ## The reset values -/

/-- The reset values of the two running sums are zero everywhere. -/
theorem rows_zero_apply (j : S2000x256.Idx) : k1_pay1 (F := Ideal) j = 0 := by
  unfold k1_pay1
  refine (congrFun (shapeCast_self _ _) j).trans ?_
  exact Ideal.ofBits_zero_f32

theorem cnt_zero_apply (j : S2000x1.Idx) : k1_pay2 (F := Ideal) j = 0 := by
  unfold k1_pay2
  refine (congrFun (shapeCast_self _ _) j).trans ?_
  exact Ideal.ofBits_zero_f32

/-! ## The grid, the index maps, and the input blocks as rows of their arrays -/

/-- The scatter call's grid and index maps over its 800 points: point t is class tile t / 16 and batch tile t % 16; the
    two input windows sit at batch tile t % 16, the two result windows at class tile t / 16. -/
theorem scatter_idx_facts : ∀ t : Fin cfg1.N,
    (grid1.coords t (0 : Fin 2)).val = t.val / 16 ∧ (grid1.coords t (1 : Fin 2)).val = t.val % 16
    ∧ win1_0.index t (0 : Fin 2) = t.val % 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = t.val / 16 ∧ win1_3.index t (1 : Fin 2) = 0 :=
  (by decide +kernel : ∀ t : Fin grid1.N, _)

theorem N1_eq : cfg1.N = 800 := by decide +kernel

/-- The differences' block at point t: row p, column q of the block is row 1024 (t % 16) + p, column q of the array. -/
theorem diff_blk_apply (c : Dev nD) (t : Fin cfg1.N) (p : Fin 1024) (q : Fin 256) (b : Fin 16384)
    (hb : b.val = 1024 * (t.val % 16) + p.val) :
    (iblk1 V c 0 t : Vec Ideal S1024x256 .f32) (ix2 p q) = (V c main_v1 : FVec Ideal S16384x256 .f32) (ix2 b q) := by
  obtain ⟨-, -, e0, e1, -⟩ := scatter_idx_facts t
  unfold iblk1
  rw [View.read_apply]
  show V c main_v1 _ = V c main_v1 _
  congr 1
  funext a
  apply Fin.ext
  match a with
  | ⟨0, _⟩ => show win1_0.index t (0 : Fin 2) * 1024 + 1 * p.val = b.val; rw [e0, hb]; omega
  | ⟨1, _⟩ => show win1_0.index t (1 : Fin 2) * 256 + 1 * q.val = q.val; rw [e1]; omega

/-- The labels' block at point t: row p of the block is row 1024 (t % 16) + p of the label column. -/
theorem lab_blk_apply (c : Dev nD) (t : Fin cfg1.N) (p : Fin 1024) (b : Fin 16384)
    (hb : b.val = 1024 * (t.val % 16) + p.val) :
    (iblk1 V c 1 t : Vec Ideal S1024x1 .i32) (ix2 p (0 : Fin 1)) = (V c main_v0 : IVec S16384x1 32) (ix2 b (0 : Fin 1)) := by
  obtain ⟨-, -, -, -, e0, e1, -⟩ := scatter_idx_facts t
  unfold iblk1
  rw [View.read_apply]
  show V c main_v0 _ = V c main_v0 _
  congr 1
  funext a
  apply Fin.ext
  match a with
  | ⟨0, _⟩ => show win1_1.index t (0 : Fin 2) * 1024 + 1 * p.val = b.val; rw [e0, hb]; omega
  | ⟨1, _⟩ => show win1_1.index t (1 : Fin 2) * 1 + 1 * (0 : Fin 1).val = (0 : Fin 1).val; rw [e1]; rfl

/-! ## One batch row's contribution, and a grid point's addend as a sum of contributions -/

/-- Batch row b's contribution to class K, column q of the row sums, as a function of the natural number b:
    the difference at (b, q) when row b carries label K, else zero (zero past the batch). -/
def rowTerm (lab : IVec S16384x1 32) (d : FVec Ideal S16384x256 .f32) (K : ℕ) (q : Fin 256) (b : ℕ) : EReal :=
  if h : b < 16384 then (if (lab (ix2 (⟨b, h⟩ : Fin 16384) (0 : Fin 1))).toNat = K then d (ix2 (⟨b, h⟩ : Fin 16384) q) else 0) else 0

/-- Batch row b's contribution to class K's count: one when row b carries label K, else zero. -/
def cntTerm (lab : IVec S16384x1 32) (K : ℕ) (b : ℕ) : EReal :=
  if h : b < 16384 then (if (lab (ix2 (⟨b, h⟩ : Fin 16384) (0 : Fin 1))).toNat = K then 1 else 0) else 0

/-- A label word is the class word of class tile a, class k inside the tile, exactly when it is the number 2000 a + k:
    the class word is computed in 32 bits without overflow. -/
theorem word_eq_iff (w : BitVec 32) (a k : ℕ) (ha : a < 50) (hk : k < 2000) :
    w = BitVec.ofNat 32 a * 2000#32 + BitVec.ofNat 32 k ↔ w.toNat = 2000 * a + k := by
  have e : (BitVec.ofNat 32 a * 2000#32 + BitVec.ofNat 32 k).toNat = 2000 * a + k := by
    simp only [BitVec.toNat_add, BitVec.toNat_mul, BitVec.toNat_ofNat]
    norm_num
    omega
  constructor
  · rintro rfl; exact e
  · intro h; exact BitVec.eq_of_toNat_eq (h.trans e.symm)

/-- The addend of grid point t to the row sums at class k of its class tile, column q: the contributions of the
    batch tile's 1024 rows to class 2000 (t / 16) + k. -/
theorem rows_addend (c : Dev nD) (t : Fin cfg1.N) (k : Fin 2000) (q : Fin 256) :
    ∑ p : Fin 1024, k1_pay3 (F := Ideal) (grid1.coords t) (iblk1 V c 1 t) (ix2 p k) * (iblk1 V c 0 t : Vec Ideal S1024x256 .f32) (ix2 p q)
      = ∑ p ∈ Finset.range 1024, rowTerm (V c main_v0) (V c main_v1) (2000 * (t.val / 16) + k.val) q (1024 * (t.val % 16) + p) := by
  obtain ⟨g0, -⟩ := scatter_idx_facts t
  have hN : cfg1.N = 800 := N1_eq
  have ht : t.val < 800 := hN ▸ t.isLt
  rw [Finset.sum_range]
  refine Finset.sum_congr rfl fun p _ => ?_
  have hp : p.val < 1024 := p.isLt
  have hb : 1024 * (t.val % 16) + p.val < 16384 := by omega
  rw [onehot_apply, lab_blk_apply V c t p ⟨1024 * (t.val % 16) + p.val, hb⟩ rfl,
    diff_blk_apply V c t p q ⟨1024 * (t.val % 16) + p.val, hb⟩ rfl, g0]
  unfold rowTerm
  rw [dif_pos hb]
  by_cases h : ((V c main_v0 : IVec S16384x1 32) (ix2 (⟨1024 * (t.val % 16) + p.val, hb⟩ : Fin 16384) (0 : Fin 1))).toNat = 2000 * (t.val / 16) + k.val
  · rw [if_pos h, if_pos ((word_eq_iff _ _ _ (by omega) k.isLt).mpr h), one_mul]
  · rw [if_neg h, if_neg (fun h' => h ((word_eq_iff _ _ _ (by omega) k.isLt).mp h')), zero_mul]

/-- The addend of grid point t to the count of class k of its class tile. -/
theorem cnt_addend (c : Dev nD) (t : Fin cfg1.N) (k : Fin 2000) :
    ∑ p : Fin 1024, k1_pay3 (F := Ideal) (grid1.coords t) (iblk1 V c 1 t) (ix2 p k)
      = ∑ p ∈ Finset.range 1024, cntTerm (V c main_v0) (2000 * (t.val / 16) + k.val) (1024 * (t.val % 16) + p) := by
  obtain ⟨g0, -⟩ := scatter_idx_facts t
  have hN : cfg1.N = 800 := N1_eq
  have ht : t.val < 800 := hN ▸ t.isLt
  rw [Finset.sum_range]
  refine Finset.sum_congr rfl fun p _ => ?_
  have hp : p.val < 1024 := p.isLt
  have hb : 1024 * (t.val % 16) + p.val < 16384 := by omega
  rw [onehot_apply, lab_blk_apply V c t p ⟨1024 * (t.val % 16) + p.val, hb⟩ rfl, g0]
  unfold cntTerm
  rw [dif_pos hb]
  by_cases h : ((V c main_v0 : IVec S16384x1 32) (ix2 (⟨1024 * (t.val % 16) + p.val, hb⟩ : Fin 16384) (0 : Fin 1))).toNat = 2000 * (t.val / 16) + k.val
  · rw [if_pos h, if_pos ((word_eq_iff _ _ _ (by omega) k.isLt).mpr h)]
  · rw [if_neg h, if_neg (fun h' => h ((word_eq_iff _ _ _ (by omega) k.isLt).mp h'))]

/-- One grid point's step on the row sums: a running sum over the batch rows before the tile becomes the sum over
    the rows up to the tile's end. -/
theorem rows_step (c : Dev nD) (t : Fin cfg1.N) (acc : FVec Ideal S2000x256 .f32) (k : Fin 2000) (q : Fin 256)
    (hacc : acc (ix2 k q) = ∑ b ∈ Finset.range (1024 * (t.val % 16)),
      rowTerm (V c main_v0) (V c main_v1) (2000 * (t.val / 16) + k.val) q b) :
    k1_pay4 (F := Ideal) (grid1.coords t) (iblk1 V c 1 t) (iblk1 V c 0 t) acc (ix2 k q)
      = ∑ b ∈ Finset.range (1024 * (t.val % 16 + 1)),
          rowTerm (V c main_v0) (V c main_v1) (2000 * (t.val / 16) + k.val) q b := by
  refine (rows_pay_apply (grid1.coords t) (iblk1 V c 1 t) (iblk1 V c 0 t) acc k q).trans ?_
  rw [rows_addend V c t k q, hacc, Nat.mul_succ, Finset.sum_range_add]

/-- One grid point's step on the counts. -/
theorem cnt_step (c : Dev nD) (t : Fin cfg1.N) (acc : FVec Ideal S2000x1 .f32) (k : Fin 2000)
    (hacc : acc (ix2 k (0 : Fin 1)) = ∑ b ∈ Finset.range (1024 * (t.val % 16)),
      cntTerm (V c main_v0) (2000 * (t.val / 16) + k.val) b) :
    k1_pay5 (F := Ideal) (grid1.coords t) (iblk1 V c 1 t) acc (ix2 k (0 : Fin 1))
      = ∑ b ∈ Finset.range (1024 * (t.val % 16 + 1)), cntTerm (V c main_v0) (2000 * (t.val / 16) + k.val) b := by
  refine (cnt_pay_apply (grid1.coords t) (iblk1 V c 1 t) acc k).trans ?_
  rw [cnt_addend V c t k, hacc, Nat.mul_succ, Finset.sum_range_add]

/-! ## The running sums in closed form -/

/-- The running sums at a class tile's first batch tile: the reset values stepped once. -/
theorem accAt1_reset (c : Dev nD) (n : ℕ) (hn : n < cfg1.N) (h : n % 16 = 0) :
    accAt1 V c n hn
      = (k1_pay4 (grid1.coords ⟨n, hn⟩) (iblk1 V c 1 ⟨n, hn⟩) (iblk1 V c 0 ⟨n, hn⟩) (k1_pay1 (F := Ideal)),
         k1_pay5 (grid1.coords ⟨n, hn⟩) (iblk1 V c 1 ⟨n, hn⟩) (k1_pay2 (F := Ideal))) := by
  cases n with
  | zero => rfl
  | succ n => rw [accAt1, if_pos h]

/-- The running sums at a later batch tile: what the point before left, stepped once. -/
theorem accAt1_step (c : Dev nD) (n : ℕ) (hn : n + 1 < cfg1.N) (h : ¬(n + 1) % 16 = 0) :
    accAt1 V c (n + 1) hn
      = (k1_pay4 (grid1.coords ⟨n + 1, hn⟩) (iblk1 V c 1 ⟨n + 1, hn⟩) (iblk1 V c 0 ⟨n + 1, hn⟩) (accAt1 V c n (Nat.lt_of_succ_lt hn)).1,
         k1_pay5 (grid1.coords ⟨n + 1, hn⟩) (iblk1 V c 1 ⟨n + 1, hn⟩) (accAt1 V c n (Nat.lt_of_succ_lt hn)).2) := by
  rw [accAt1, if_neg h]

/-- THE RUNNING SUMS IN CLOSED FORM: after position n (class tile n / 16, batch tile n % 16) the row sum at class k
    of the tile, column q is the sum of the contributions of the batch rows below 1024 (n % 16 + 1) to class
    2000 (n / 16) + k, and the count likewise. By induction on the position. -/
theorem acc_closed (c : Dev nD) : ∀ (n : ℕ) (hn : n < cfg1.N),
    (∀ (k : Fin 2000) (q : Fin 256), (accAt1 V c n hn).1 (ix2 k q)
      = ∑ b ∈ Finset.range (1024 * (n % 16 + 1)), rowTerm (V c main_v0) (V c main_v1) (2000 * (n / 16) + k.val) q b)
    ∧ (∀ k : Fin 2000, (accAt1 V c n hn).2 (ix2 k (0 : Fin 1))
      = ∑ b ∈ Finset.range (1024 * (n % 16 + 1)), cntTerm (V c main_v0) (2000 * (n / 16) + k.val) b)
  | 0, hn => by
    rw [accAt1_reset V c 0 hn rfl]
    refine ⟨fun k q => ?_, fun k => ?_⟩
    · exact rows_step V c ⟨0, hn⟩ (k1_pay1 (F := Ideal)) k q (by rw [rows_zero_apply]; rfl)
    · exact cnt_step V c ⟨0, hn⟩ (k1_pay2 (F := Ideal)) k (by rw [cnt_zero_apply]; rfl)
  | n + 1, hn => by
    by_cases h : (n + 1) % 16 = 0
    · rw [accAt1_reset V c (n + 1) hn h]
      refine ⟨fun k q => ?_, fun k => ?_⟩
      · refine rows_step V c ⟨n + 1, hn⟩ (k1_pay1 (F := Ideal)) k q ?_
        rw [rows_zero_apply]
        show (0 : EReal) = ∑ b ∈ Finset.range (1024 * ((n + 1) % 16)), _
        rw [h]; rfl
      · refine cnt_step V c ⟨n + 1, hn⟩ (k1_pay2 (F := Ideal)) k ?_
        rw [cnt_zero_apply]
        show (0 : EReal) = ∑ b ∈ Finset.range (1024 * ((n + 1) % 16)), _
        rw [h]; rfl
    · obtain ⟨ihr, ihc⟩ := acc_closed c n (Nat.lt_of_succ_lt hn)
      have e1 : (n + 1) % 16 = n % 16 + 1 := by omega
      have e2 : (n + 1) / 16 = n / 16 := by omega
      rw [accAt1_step V c n hn h]
      refine ⟨fun k q => ?_, fun k => ?_⟩
      · refine rows_step V c ⟨n + 1, hn⟩ _ k q ?_
        show (accAt1 V c n _).1 (ix2 k q) = ∑ b ∈ Finset.range (1024 * ((n + 1) % 16)), rowTerm _ _ (2000 * ((n + 1) / 16) + k.val) q b
        rw [e1, e2]; exact ihr k q
      · refine cnt_step V c ⟨n + 1, hn⟩ _ k ?_
        show (accAt1 V c n _).2 (ix2 k (0 : Fin 1)) = ∑ b ∈ Finset.range (1024 * ((n + 1) % 16)), cntTerm _ (2000 * ((n + 1) / 16) + k.val) b
        rw [e1, e2]; exact ihc k

/-! ## From the blocks written back to the arrays -/

/-- A class tile's block of a whole-array function, read at an index of the block, is the function at the
    block's element of the array. -/
theorem rows_read_blk (G : FVec Ideal S100000x256 .f32) (t : Fin cfg1.N) (j : S2000x256.Idx) :
    ((cfg1.win 2).blk t).view.read (Elt Ideal) G j = G (((cfg1.win 2).blk t).view.emb j) := rfl

theorem cnt_read_blk (G : FVec Ideal S100000x1 .f32) (t : Fin cfg1.N) (j : S2000x1.Idx) :
    ((cfg1.win 3).blk t).view.read (Elt Ideal) G j = G (((cfg1.win 3).blk t).view.emb j) := rfl

/-- The contributions of all the batch rows to class K, column q, summed: the specification's row sum. -/
theorem rowTerm_sum (c : Dev nD) (d : FVec Ideal Spec.SBxD .f32) (tgt : IVec Spec.SB 32)
    (hd : (V c main_v1 : FVec Ideal S16384x256 .f32) = d)
    (htgt : ∀ b : Fin 16384, (V c main_v0 : IVec S16384x1 32) (ix2 b (0 : Fin 1)) = tgt (ix1 b))
    (K : Fin 100000) (q : Fin 256) :
    ∑ b ∈ Finset.range 16384, rowTerm (V c main_v0) (V c main_v1) K.val q b = Spec.dsum d tgt (ix2 K q) := by
  rw [Finset.sum_range]
  unfold Spec.dsum Spec.label
  refine Finset.sum_congr rfl fun b _ => ?_
  unfold rowTerm
  rw [dif_pos b.isLt, htgt ⟨b.val, b.isLt⟩, hd]

/-- The contributions of all the batch rows to class K's count, summed: the specification's count. -/
theorem cntTerm_sum (c : Dev nD) (tgt : IVec Spec.SB 32)
    (htgt : ∀ b : Fin 16384, (V c main_v0 : IVec S16384x1 32) (ix2 b (0 : Fin 1)) = tgt (ix1 b))
    (K : Fin 100000) :
    ∑ b ∈ Finset.range 16384, cntTerm (V c main_v0) K.val b = Spec.cnt tgt (ix2 K (0 : Fin 1)) := by
  rw [Finset.sum_range]
  unfold Spec.cnt Spec.label
  refine Finset.sum_congr rfl fun b _ => ?_
  unfold cntTerm
  rw [dif_pos b.isLt, htgt ⟨b.val, b.isLt⟩]

/-- WHAT A CLASS TILE'S LAST BATCH TILE WRITES BACK to the row sums is its block of the specification's row sums. -/
theorem rows_flushed_eq (c : Dev nD) (d : FVec Ideal Spec.SBxD .f32) (tgt : IVec Spec.SB 32)
    (hd : (V c main_v1 : FVec Ideal S16384x256 .f32) = d)
    (htgt : ∀ b : Fin 16384, (V c main_v0 : IVec S16384x1 32) (ix2 b (0 : Fin 1)) = tgt (ix1 b))
    (t : Fin cfg1.N) (hf : (cfg1.win 2).flush t = true) :
    (dat1 (F := Ideal) V c).flushed 2 t = ((cfg1.win 2).blk t).view.read (Elt Ideal) (Spec.dsum d tgt) := by
  have h15 : t.val % 16 = 15 := (flush1_2 t).mp hf
  have hN : cfg1.N = 800 := N1_eq
  have ht : t.val < 800 := hN ▸ t.isLt
  obtain ⟨-, -, -, -, -, -, e0, e1, -⟩ := scatter_idx_facts t
  show (cfg1.win 2).cut (grid1.coords t) ((dat1 (F := Ideal) V c).after 2 t) = _
  rw [after1_2]
  funext j
  obtain ⟨k, q, rfl⟩ : ∃ (k : Fin 2000) (q : Fin 256), j = ix2 k q := ⟨j 0, j 1, eq_ix2 j⟩
  have hk : k.val < 2000 := k.isLt
  have hK : 2000 * (t.val / 16) + k.val < 100000 := by omega
  have hemb : ((cfg1.win 2).blk t).view.emb (ix2 k q) = ix2 (⟨2000 * (t.val / 16) + k.val, hK⟩ : Fin 100000) q := by
    funext a
    apply Fin.ext
    match a with
    | ⟨0, _⟩ => show win1_2.index t (0 : Fin 2) * 2000 + 1 * k.val = 2000 * (t.val / 16) + k.val; rw [e0]; omega
    | ⟨1, _⟩ => show win1_2.index t (1 : Fin 2) * 256 + 1 * q.val = q.val; rw [e1]; omega
  refine Eq.trans ?_ (rows_read_blk (Spec.dsum d tgt) t (ix2 k q)).symm
  show (accAt1 V c t.val t.isLt).1 (ix2 k q) = _
  rw [hemb, (acc_closed V c t.val t.isLt).1 k q, h15]
  exact rowTerm_sum V c d tgt hd htgt ⟨2000 * (t.val / 16) + k.val, hK⟩ q

/-- WHAT A CLASS TILE'S LAST BATCH TILE WRITES BACK to the counts is its block of the specification's counts. -/
theorem cnt_flushed_eq (c : Dev nD) (tgt : IVec Spec.SB 32)
    (htgt : ∀ b : Fin 16384, (V c main_v0 : IVec S16384x1 32) (ix2 b (0 : Fin 1)) = tgt (ix1 b))
    (t : Fin cfg1.N) (hf : (cfg1.win 3).flush t = true) :
    (dat1 (F := Ideal) V c).flushed 3 t = ((cfg1.win 3).blk t).view.read (Elt Ideal) (Spec.cnt tgt) := by
  have h15 : t.val % 16 = 15 := (flush1_3 t).mp hf
  have hN : cfg1.N = 800 := N1_eq
  have ht : t.val < 800 := hN ▸ t.isLt
  obtain ⟨-, -, -, -, -, -, -, -, e0, e1⟩ := scatter_idx_facts t
  show (cfg1.win 3).cut (grid1.coords t) ((dat1 (F := Ideal) V c).after 3 t) = _
  rw [after1_3]
  funext j
  obtain ⟨k, z, rfl⟩ : ∃ (k : Fin 2000) (z : Fin 1), j = ix2 k z := ⟨j 0, j 1, eq_ix2 j⟩
  obtain rfl : z = 0 := Subsingleton.elim _ _
  have hk : k.val < 2000 := k.isLt
  have hK : 2000 * (t.val / 16) + k.val < 100000 := by omega
  have hemb : ((cfg1.win 3).blk t).view.emb (ix2 k (0 : Fin 1)) = ix2 (⟨2000 * (t.val / 16) + k.val, hK⟩ : Fin 100000) (0 : Fin 1) := by
    funext a
    apply Fin.ext
    match a with
    | ⟨0, _⟩ => show win1_3.index t (0 : Fin 2) * 2000 + 1 * k.val = 2000 * (t.val / 16) + k.val; rw [e0]; omega
    | ⟨1, _⟩ => show win1_3.index t (1 : Fin 2) * 1 + 1 * (0 : Fin 1).val = (0 : Fin 1).val; rw [e1]; rfl
  refine Eq.trans ?_ (cnt_read_blk (Spec.cnt tgt) t (ix2 k (0 : Fin 1))).symm
  show (accAt1 V c t.val t.isLt).2 (ix2 k (0 : Fin 1)) = _
  rw [hemb, (acc_closed V c t.val t.isLt).2 k, h15]
  exact cntTerm_sum V c tgt htgt ⟨2000 * (t.val / 16) + k.val, hK⟩

/-- Every class lies in the block its class tile's last batch tile writes back: class K in tile K / 2000. -/
theorem rows_cover (i : S100000x256.Idx) :
    ∃ t : Fin cfg1.N, (cfg1.win 2).flush t = true ∧ i ∈ ((cfg1.win 2).blk t).view.set := by
  have hN : cfg1.N = 800 := N1_eq
  have h0 : (i 0).val < 100000 := (i 0).isLt
  have h1 : (i 1).val < 256 := (i 1).isLt
  have hlt : 16 * ((i 0).val / 2000) + 15 < cfg1.N := by rw [hN]; omega
  refine ⟨⟨16 * ((i 0).val / 2000) + 15, hlt⟩, (flush1_2 _).mpr (by show (16 * ((i 0).val / 2000) + 15) % 16 = 15; omega), ?_⟩
  obtain ⟨-, -, -, -, -, -, e0, e1, -⟩ := scatter_idx_facts ⟨16 * ((i 0).val / 2000) + 15, hlt⟩
  have e0' : win1_2.index ⟨16 * ((i 0).val / 2000) + 15, hlt⟩ (0 : Fin 2) = (i 0).val / 2000 := by
    rw [e0]; show (16 * ((i 0).val / 2000) + 15) / 16 = _; omega
  show i ∈ ((View.whole main_v6_0).slice (win1_2.rect ⟨16 * ((i 0).val / 2000) + 15, hlt⟩)).set
  rw [View.set_slice_whole, Rect.mem_set_unit]
  intro a
  match a with
  | ⟨0, _⟩ =>
    show win1_2.index ⟨16 * ((i 0).val / 2000) + 15, hlt⟩ (0 : Fin 2) * 2000 ≤ (i 0).val
      ∧ (i 0).val < win1_2.index ⟨16 * ((i 0).val / 2000) + 15, hlt⟩ (0 : Fin 2) * 2000 + 2000
    rw [e0']; omega
  | ⟨1, _⟩ =>
    show win1_2.index ⟨16 * ((i 0).val / 2000) + 15, hlt⟩ (1 : Fin 2) * 256 ≤ (i 1).val
      ∧ (i 1).val < win1_2.index ⟨16 * ((i 0).val / 2000) + 15, hlt⟩ (1 : Fin 2) * 256 + 256
    rw [e1]; omega

theorem cnt_cover (i : S100000x1.Idx) :
    ∃ t : Fin cfg1.N, (cfg1.win 3).flush t = true ∧ i ∈ ((cfg1.win 3).blk t).view.set := by
  have hN : cfg1.N = 800 := N1_eq
  have h0 : (i 0).val < 100000 := (i 0).isLt
  have h1 : (i 1).val < 1 := (i 1).isLt
  have hlt : 16 * ((i 0).val / 2000) + 15 < cfg1.N := by rw [hN]; omega
  refine ⟨⟨16 * ((i 0).val / 2000) + 15, hlt⟩, (flush1_3 _).mpr (by show (16 * ((i 0).val / 2000) + 15) % 16 = 15; omega), ?_⟩
  obtain ⟨-, -, -, -, -, -, -, -, e0, e1⟩ := scatter_idx_facts ⟨16 * ((i 0).val / 2000) + 15, hlt⟩
  have e0' : win1_3.index ⟨16 * ((i 0).val / 2000) + 15, hlt⟩ (0 : Fin 2) = (i 0).val / 2000 := by
    rw [e0]; show (16 * ((i 0).val / 2000) + 15) / 16 = _; omega
  show i ∈ ((View.whole main_v6_1).slice (win1_3.rect ⟨16 * ((i 0).val / 2000) + 15, hlt⟩)).set
  rw [View.set_slice_whole, Rect.mem_set_unit]
  intro a
  match a with
  | ⟨0, _⟩ =>
    show win1_3.index ⟨16 * ((i 0).val / 2000) + 15, hlt⟩ (0 : Fin 2) * 2000 ≤ (i 0).val
      ∧ (i 0).val < win1_3.index ⟨16 * ((i 0).val / 2000) + 15, hlt⟩ (0 : Fin 2) * 2000 + 2000
    rw [e0']; omega
  | ⟨1, _⟩ =>
    show win1_3.index ⟨16 * ((i 0).val / 2000) + 15, hlt⟩ (1 : Fin 2) * 1 ≤ (i 1).val
      ∧ (i 1).val < win1_3.index ⟨16 * ((i 0).val / 2000) + 15, hlt⟩ (1 : Fin 2) * 1 + 1
    rw [e1]; omega

end ScatterValue

open ScatterValue

/-- THE SCATTER CALL'S FIRST RESULT: per class and column, the sum of the differences of the batch rows carrying that
    label (every difference a real number). -/
theorem scatter_sum_arr (c : Dev nD) (d : FVec Ideal Spec.SBxD .f32) (t : IVec Spec.SB 32)
    (hd : (V c main_v1 : FVec Ideal S16384x256 .f32) = d)
    (htgt : ∀ b : Fin 16384, (V c main_v0 : IVec S16384x1 32) (ix2 b (0 : Fin 1)) = t (ix1 b))
    (hfin : ∀ j, d j ≠ ⊤ ∧ d j ≠ ⊥) (hrange : ∀ b, Spec.label t b < 100000) :
    ((dat1 (F := Ideal) V c).arrAt 2 cfg1.N : FVec Ideal S100000x256 .f32) = Spec.dsum d t :=
  (dat1 (F := Ideal) V c).arrAt_eq_of_cover 2 (Spec.dsum d t) (fun p hf => rows_flushed_eq V c d t hd htgt p hf) rows_cover

/-- THE SCATTER CALL'S SECOND RESULT: per class, the number of batch rows carrying that label. -/
theorem scatter_cnt_arr (c : Dev nD) (t : IVec Spec.SB 32)
    (htgt : ∀ b : Fin 16384, (V c main_v0 : IVec S16384x1 32) (ix2 b (0 : Fin 1)) = t (ix1 b))
    (hrange : ∀ b, Spec.label t b < 100000) :
    ((dat1 (F := Ideal) V c).arrAt 3 cfg1.N : FVec Ideal S100000x1 .f32) = Spec.cnt t :=
  (dat1 (F := Ideal) V c).arrAt_eq_of_cover 3 (Spec.cnt t) (fun p hf => cnt_flushed_eq V c t htgt p hf) cnt_cover

end Cert.KernelIdeal.Hand

end
-- ==== Proof.Ideal.FinalizeValue.lean ====
import proofs.«426712_j80015240724894_1_alg».proof.Proof.Gen.KernelIdeal.Launch
import proofs.«426712_j80015240724894_1_alg».proof.Proof.Gen.KernelIdeal.Skeleton
import proofs.«426712_j80015240724894_1_alg».proof.Proof.Gen.KernelIdeal.Points
import proofs.«426712_j80015240724894_1_alg».proof.Proof.Ideal.RegionData
import proofs.«426712_j80015240724894_1_alg».proof.Proof.Spec
import Idealize.ShloMosaic.PureOps.Ideal.Laws
import Idealize.ShloMosaic.Lib.Pipeline.Value
import Idealize.ShloMosaic.Lib.ValueIdx
import Idealize.ShloMosaic.Lib.ValueLayout
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-! # The finalize call's value

The call is pointwise on class tiles: at point `t` every window's block is rows `2000·t … 2000·t + 1999` of its
array, and the block written back is the table's block less half the quotient of the row sums' block by the counts'
column plus one. Read index by index this is the specification's new table restricted to the tile; the fifty tiles
cover the array. -/

/-- A column broadcast over many: a `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's result at row `p`, column `q` of the tile: the table's entry less the row sum's entry divided by the
    row's count plus one, times one half. -/
theorem pay_apply (v0 : Vec Ideal S2000x256 .f32) (v2 : Vec Ideal S2000x1 .f32) (v10 : Vec Ideal S2000x256 .f32)
    (p : Fin 2000) (q : Fin 256) :
    k2_pay1 v0 v2 v10 (ix2 p q)
      = v10 (ix2 p q) - Ideal.div (v0 (ix2 p q)) (v2 (ix2 p (0 : Fin 1)) + Ideal.ofBits .f32 0x3F800000#32)
          * Ideal.ofBits .f32 0x3F000000#32 := by
  unfold k2_pay1
  show v10 (ix2 p q) - Ideal.div ((shapeCast S2000x256 v0 shapeCasts_S2000x256_S2000x256 : FVec Ideal S2000x256 .f32) (ix2 p q))
      (broadcastTo S2000x256 (addf (F := Ideal) (shapeCast S2000x1 v2 shapeCasts_S2000x1_S2000x1 : FVec Ideal S2000x1 .f32)
        (broadcast S2000x1 (Scalar.ofBits (F := Ideal) .f32 0x3F800000#32))) broadcasts_S2000x1_S2000x256 (ix2 p q))
      * Ideal.ofBits .f32 0x3F000000#32 = _
  rw [shapeCast_self, shapeCast_self]
  refine congrArg (fun z => v10 (ix2 p q) - Ideal.div (v0 (ix2 p q)) z * Ideal.ofBits .f32 0x3F000000#32) ?_
  exact broadcastTo_a1_ab_apply _ _ p q

/-- The new table at an index, from entries read at indices that are that index and its row's one count. -/
theorem newc_at (cen ds : FVec Ideal S100000x256 .f32) (cn : FVec Ideal S100000x1 .f32)
    (k0 k1 k3 : S100000x256.Idx) (k2 : S100000x1.Idx) (h0 : k0 = k3) (h1 : k1 = k3) (h2 : k2 = ix2 (k3 0) (0 : Fin 1)) :
    cen k0 - Ideal.div (ds k1) (cn k2 + Ideal.ofBits .f32 0x3F800000#32) * Ideal.ofBits .f32 0x3F000000#32
      = Spec.newc cen ds cn k3 := by
  subst h0 h1 h2
  rfl

/-- The printed index maps over the grid: at point `t` every window's block is block `(t, 0)` of its array. -/
theorem tile_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Every class tile is some point's. -/
theorem tile_onto : ∀ q : Fin 50, ∃ t : Fin cfg2.N, t.val = q.val :=
  (by decide +kernel : ∀ q : Fin 50, ∃ t : Fin grid2.N, t.val = q.val)

/-- An index of the result array is in point `t`'s block iff each coordinate is in the block's range on its axis. -/
theorem mem_tile (t : Fin cfg2.N) (i : S100000x256.Idx) :
    i ∈ ((cfg2.win 3).blk t).view.set ↔ ∀ a : Fin 2, win2_3.index t a * S2000x256.size a ≤ (i a).val
      ∧ (i a).val < win2_3.index t a * S2000x256.size a + S2000x256.size a := by
  show i ∈ ((View.whole main_v7).slice (win2_3.rect t)).set ↔ _
  rw [View.set_slice_whole, Rect.mem_set_unit]
  exact Iff.rfl

/-- THE COVER: row `r` of the result array lies in the block of point `r / 2000`. -/
theorem tiles_cover (i : S100000x256.Idx) :
    ∃ t : Fin cfg2.N, (cfg2.win 3).flush t = true ∧ i ∈ ((cfg2.win 3).blk t).view.set := by
  have hi0 : (i 0).val < 100000 := (i 0).isLt
  have hi1 : (i 1).val < 256 := (i 1).isLt
  obtain ⟨t, ht⟩ := tile_onto ⟨(i 0).val / 2000, by omega⟩
  have ht' : t.val = (i 0).val / 2000 := ht
  obtain ⟨-, -, -, -, -, -, e30, e31⟩ := tile_index t
  refine ⟨t, flush2_3 t, ?_⟩
  rw [mem_tile]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 256 ≤ (i 1).val ∧ (i 1).val < win2_3.index t (1 : Fin 2) * 256 + 256
    omega

-- the TensorCore's buffer contents when the region is entered, at the ideal instance
variable (V : (c : Dev nD) → (b : Ref sig .tc) → Buf (Elt Ideal) ((c : Thread nD τ).loc b))

/-- WHAT POINT `t` WRITES BACK is block `t` of the new table computed from the three arrays as the call finds them. -/
theorem flushed_tile (c : Dev nD) (t : Fin cfg2.N) :
    (dat2 (F := Ideal) V c).flushed 3 t
      = ((cfg2.win 3).blk t).view.read (Elt Ideal)
          (Spec.newc (V c main_arg2 : FVec Ideal S100000x256 .f32) (V c main_v6_0 : FVec Ideal S100000x256 .f32)
            (V c main_v6_1 : FVec Ideal S100000x1 .f32)) := by
  show (cfg2.win 3).cut (grid2.coords t) ((dat2 V c).after 3 t) = _
  rw [after2_3]
  obtain ⟨e00, e01, e10, e11, e20, e21, e30, e31⟩ := tile_index t
  funext j
  obtain ⟨p, q, rfl⟩ : ∃ (p : Fin 2000) (q : Fin 256), j = ix2 p q := ⟨j 0, j 1, eq_ix2 j⟩
  refine (pay_apply _ _ _ p q).trans ?_
  -- the table's and the row sums' blocks sit where the result's block sits
  have h0 : ((cfg2.win 0).blk t).view.emb (ix2 p q) = ((cfg2.win 3).blk t).view.emb (ix2 p q) := by
    funext a; apply Fin.ext
    match a with
    | ⟨0, _⟩ =>
      show win2_0.index t (0 : Fin 2) * 2000 + 1 * p.val = win2_3.index t (0 : Fin 2) * 2000 + 1 * p.val
      omega
    | ⟨1, _⟩ =>
      show win2_0.index t (1 : Fin 2) * 256 + 1 * q.val = win2_3.index t (1 : Fin 2) * 256 + 1 * q.val
      omega
  have h1 : ((cfg2.win 1).blk t).view.emb (ix2 p q) = ((cfg2.win 3).blk t).view.emb (ix2 p q) := by
    funext a; apply Fin.ext
    match a with
    | ⟨0, _⟩ =>
      show win2_1.index t (0 : Fin 2) * 2000 + 1 * p.val = win2_3.index t (0 : Fin 2) * 2000 + 1 * p.val
      omega
    | ⟨1, _⟩ =>
      show win2_1.index t (1 : Fin 2) * 256 + 1 * q.val = win2_3.index t (1 : Fin 2) * 256 + 1 * q.val
      omega
  -- the counts' block is the same rows, its one column
  have h2 : ((cfg2.win 2).blk t).view.emb (ix2 p (0 : Fin 1))
      = ix2 ((((cfg2.win 3).blk t).view.emb (ix2 p q)) 0) (0 : Fin 1) := by
    funext a; apply Fin.ext
    match a with
    | ⟨0, _⟩ =>
      show win2_2.index t (0 : Fin 2) * 2000 + 1 * p.val = win2_3.index t (0 : Fin 2) * 2000 + 1 * p.val
      omega
    | ⟨1, _⟩ =>
      show win2_2.index t (1 : Fin 2) * 1 + 1 * 0 = 0
      omega
  exact newc_at (V c main_arg2) (V c main_v6_0) (V c main_v6_1) _ _ _ _ h0 h1 h2

/-- THE FINALIZE CALL'S RESULT: the table less half the class's mean difference, entry by entry. -/
theorem finalize_arr (c : Dev nD) (cen ds : FVec Ideal Spec.SCxD .f32) (cn : FVec Ideal Spec.SCx1 .f32)
    (hcen : (V c main_arg2 : FVec Ideal S100000x256 .f32) = cen)
    (hds : (V c main_v6_0 : FVec Ideal S100000x256 .f32) = ds)
    (hcn : (V c main_v6_1 : FVec Ideal S100000x1 .f32) = cn) :
    ((dat2 (F := Ideal) V c).arrAt 3 cfg2.N : FVec Ideal S100000x256 .f32) = Spec.newc cen ds cn := by
  subst hcen hds hcn
  exact (dat2 (F := Ideal) V c).arrAt_eq_of_cover 3 _ (fun t _ => flushed_tile V c t) tiles_cover

end Cert.KernelIdeal.Hand

end
-- ==== Proof.PreFacts.lean ====
import proofs.«426712_j80015240724894_1_alg».proof.Pre_finite_inputs
import proofs.«426712_j80015240724894_1_alg».proof.Proof.Gen.Pre_finite_inputs
import proofs.«426712_j80015240724894_1_alg».proof.Proof.Spec
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx

/-- A rank-0 shape has one index. -/
instance : Subsingleton Cert.Pre_finite_inputs.S_.Idx := ⟨fun a b => funext fun d => d.elim0⟩

/-- The word 0x7F800000 denotes +∞. -/
theorem inf_word : Ideal.ofBits .f32 0x7F800000#32 = (⊤ : EReal) := by simp [Ideal.ofBits, Ideal.ieee]

/-- |x| < +∞ says that x is a real number. -/
theorem real_of_abs_lt (x : EReal)
    (h : Ideal.cmp .olt (max x (-x)) (Ideal.ofBits .f32 0x7F800000#32) = 1#1) : x ≠ ⊤ ∧ x ≠ ⊥ := by
  rw [inf_word] at h
  unfold Ideal.cmp at h
  rw [StableHlo.Predicate.ofBool_eq_one_iff, decide_eq_true_eq] at h
  constructor
  · rintro rfl
    simp at h
  · rintro rfl
    simp at h

/-- The two signed compares of a word against 0 and against 100000, read as its signed value. -/
theorem range_of_cmp (w : BitVec 32) (h0 : IntOp.cmpi .sge w 0#32 = 1#1) (h1 : IntOp.cmpi .slt w 100000#32 = 1#1) :
    0 ≤ w.toInt ∧ w.toInt < 100000 := by
  unfold IntOp.cmpi at h0 h1
  rw [StableHlo.Predicate.ofBool_eq_one_iff] at h0 h1
  simp only [BitVec.sle, BitVec.slt, decide_eq_true_eq] at h0 h1
  have z : (0#32 : BitVec 32).toInt = 0 := by decide
  have c : (100000#32 : BitVec 32).toInt = 100000 := by decide
  rw [z] at h0
  rw [c] at h1
  exact ⟨h0, h1⟩

/-- The difference of two real numbers is a real number. -/
theorem sub_real {x y : EReal} (hx : x ≠ ⊤ ∧ x ≠ ⊥) (hy : y ≠ ⊤ ∧ y ≠ ⊥) : x - y ≠ ⊤ ∧ x - y ≠ ⊥ := by
  lift x to ℝ using hx
  lift y to ℝ using hy
  rw [← EReal.coe_sub]
  exact ⟨EReal.coe_ne_top _, EReal.coe_ne_bot _⟩

/-- THE PRECONDITION READ: where the printed predicate is all ones, every float entry is a real number and every label
    lies in `[0, 100000)`. -/
theorem inDomain_of_pre [Cert.Pre_finite_inputs.Facts] (a0 : FVec Ideal Cert.Pre_finite_inputs.S16384x256 .f32)
    (a1 : IVec Cert.Pre_finite_inputs.S16384 32) (a2 : FVec Ideal Cert.Pre_finite_inputs.S100000x256 .f32)
    (h : Cert.Pre_finite_inputs.fn (F := Ideal) a0 a1 a2 = fun _ => 1#1) : Spec.InDomain a0 a1 a2 := by
  have e := congrFun h ix0
  dsimp only [Cert.Pre_finite_inputs.fn, Cert.Pre_finite_inputs.fn_part1] at e
  -- the conjunction of the four one-bit words
  obtain ⟨e123, e4⟩ := IntOp.andi_eq_one.1 e
  obtain ⟨e12, e3⟩ := IntOp.andi_eq_one.1 e123
  obtain ⟨e1, e2⟩ := IntOp.andi_eq_one.1 e12
  refine ⟨fun j => ?_, fun j => ?_, fun b => ?_⟩
  · -- every entry of the first float array: |x| < +∞
    exact real_of_abs_lt (a0 j) (Host.reduce_andi_all _ _ _ _ ix0 e1 j)
  · -- every entry of the second float array
    exact real_of_abs_lt (a2 j) (Host.reduce_andi_all _ _ _ _ ix0 e2 j)
  · -- every label: 0 ≤ t and t < 100000, signed
    exact range_of_cmp (a1 (ix1 b)) (Host.reduce_andi_all _ _ _ _ ix0 e3 (ix1 b)) (Host.reduce_andi_all _ _ _ _ ix0 e4 (ix1 b))

/-- In the domain a label read as a natural number is its signed reading, and is a class number. -/
theorem label_facts {feat : FVec Ideal Spec.SBxD .f32} {t : IVec Spec.SB 32} {cen : FVec Ideal Spec.SCxD .f32}
    (h : Spec.InDomain feat t cen) (b : Fin 16384) :
    (t (ix1 b)).toInt = (Spec.label t b : ℤ) ∧ Spec.label t b < 100000 := by
  obtain ⟨h0, h1⟩ := h.2.2 b
  have hlt := (t (ix1 b)).isLt
  -- a word whose signed reading is nonnegative reads the same unsigned
  have e : (t (ix1 b)).toInt = ((t (ix1 b)).toNat : ℤ) := by
    rw [BitVec.toInt_eq_toNat_cond] at h0 ⊢
    split_ifs at h0 ⊢ <;> omega
  unfold Spec.label
  exact ⟨e, by omega⟩

/-- In the domain every difference is a real number. -/
theorem diff_finite {feat : FVec Ideal Spec.SBxD .f32} {t : IVec Spec.SB 32} {cen : FVec Ideal Spec.SCxD .f32}
    (h : Spec.InDomain feat t cen) (j : Spec.SBxD.Idx) :
    Spec.diff feat t cen j ≠ ⊤ ∧ Spec.diff feat t cen j ≠ ⊥ := by
  have hl : Spec.label t (j 0) < 100000 := (label_facts h (j 0)).2
  unfold Spec.diff
  rw [dif_pos hl]
  exact sub_real (h.2.1 _) (h.1 j)

end Cert.PreFacts

end
-- ==== Proof.Ideal.KernelValue.lean ====
import proofs.«426712_j80015240724894_1_alg».proof.Proof.Gen.KernelIdeal.Launch
import proofs.«426712_j80015240724894_1_alg».proof.Proof.Gen.KernelIdeal.Skeleton
import proofs.«426712_j80015240724894_1_alg».proof.Proof.Gen.KernelIdeal.Points
import proofs.«426712_j80015240724894_1_alg».proof.Proof.Ideal.Frame
import proofs.«426712_j80015240724894_1_alg».proof.Proof.Ideal.HostValue
import proofs.«426712_j80015240724894_1_alg».proof.Proof.Ideal.GatherValue
import proofs.«426712_j80015240724894_1_alg».proof.Proof.Ideal.ScatterValue
import proofs.«426712_j80015240724894_1_alg».proof.Proof.Ideal.FinalizeValue
import proofs.«426712_j80015240724894_1_alg».proof.Proof.PreFacts
import proofs.«426712_j80015240724894_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- THE KERNEL'S RUN AT THE SPECIFICATION. From a memory whose arguments lie in the domain, every weakly fair execution
    of the idealized kernel terminates with its first result at the mean of the squared differences, its second at the
    moved class table, and its arguments unchanged: the gather call leaves the differences, the host their mean
    square, the scatter call the per-class sums and counts, the finalize call the moved table. -/
theorem run_spec
    (hdom : ∀ c : Dev nD, Spec.InDomain (m ((c.tc : Thread nD τ).loc main_arg0)) (m ((c.tc : Thread nD τ).loc main_arg1)) (m ((c.tc : Thread nD τ).loc main_arg2))) :
    θ_run (defs (F := Ideal)) (onTc (τ := τ) (main (F := Ideal))) ⟨m, fun _ => 0, ρ⟩ (fun r => ∀ c : Dev nD,
      (r.2.mem ((c.tc : Thread nD τ).loc main_v5) : FVec Ideal S_ .f32)
        = Spec.lossTail reducesTo_S16384x256_S_d0_1 h_S_ (Spec.sq (Spec.diff (m ((c.tc : Thread nD τ).loc main_arg0)) (m ((c.tc : Thread nD τ).loc main_arg1)) (m ((c.tc : Thread nD τ).loc main_arg2))))
      ∧ (r.2.mem ((c.tc : Thread nD τ).loc main_v7) : FVec Ideal S100000x256 .f32)
        = Spec.newc (m ((c.tc : Thread nD τ).loc main_arg2))
            (Spec.dsum (Spec.diff (m ((c.tc : Thread nD τ).loc main_arg0)) (m ((c.tc : Thread nD τ).loc main_arg1)) (m ((c.tc : Thread nD τ).loc main_arg2))) (m ((c.tc : Thread nD τ).loc main_arg1)))
            (Spec.cnt (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run m ρ)
  have hlab := fun b => Cert.PreFacts.label_facts (hdom c) b
  -- the gather call's result: the differences
  have hdiff : (V2 m ρ c main_v1 : FVec Ideal S16384x256 .f32)
      = Spec.diff (m ((c.tc : Thread nD τ).loc main_arg0)) (m ((c.tc : Thread nD τ).loc main_arg1)) (m ((c.tc : Thread nD τ).loc main_arg2)) :=
    (V2_v1 m ρ c).trans (gather_arr (V1 m ρ) c _ _ _ (V1_arg0 m ρ c) (V1_arg2 m ρ c) (V1_v0_col m ρ c) (hdom c).2.1 (fun b => (hlab b).2))
  -- the label column and the class table as the later calls find them
  have hcol3 : ∀ b : Fin 16384, (V3 m ρ c main_v0 : IVec S16384x1 32) (ix2 b (0 : Fin 1)) = (m ((c.tc : Thread nD τ).loc main_arg1) : IVec S16384 32) (ix1 b) := fun b => by
    rw [V3_v0, V2_v0]; exact V1_v0_col m ρ c b
  have hcen4 : (V4 m ρ c main_arg2 : FVec Ideal S100000x256 .f32) = m ((c.tc : Thread nD τ).loc main_arg2) := by
    rw [V4_arg2, V3_arg2, V2_arg2]; exact V1_arg2 m ρ c
  -- the scatter call's results: the per-class sums and counts
  have hsum : (V4 m ρ c main_v6_0 : FVec Ideal S100000x256 .f32)
      = Spec.dsum (Spec.diff (m ((c.tc : Thread nD τ).loc main_arg0)) (m ((c.tc : Thread nD τ).loc main_arg1)) (m ((c.tc : Thread nD τ).loc main_arg2))) (m ((c.tc : Thread nD τ).loc main_arg1)) :=
    (V4_v6_0 m ρ c).trans (scatter_sum_arr (V3 m ρ) c _ _ ((V3_v1 m ρ c).trans hdiff) hcol3
      (fun j => Cert.PreFacts.diff_finite (hdom c) j) (fun b => (hlab b).2))
  have hcnt : (V4 m ρ c main_v6_1 : FVec Ideal S100000x1 .f32) = Spec.cnt (m ((c.tc : Thread nD τ).loc main_arg1)) :=
    (V4_v6_1 m ρ c).trans (scatter_cnt_arr (V3 m ρ) c _ hcol3 (fun b => (hlab b).2))
  refine ⟨?_, ?_, (h c main_arg0 (by decide)).trans (W5_main_arg0 m ρ c), (h c main_arg1 (by decide)).trans (W5_main_arg1 m ρ c),
    (h c main_arg2 (by decide)).trans (W5_main_arg2 m ρ c)⟩
  · refine (h c main_v5 (by decide)).trans ?_
    refine (V5_v5 m ρ c).trans ((V4_v5 m ρ c).trans ((V3_v5 m ρ c).trans ?_))
    rw [hdiff]
  · refine (h c main_v7 (by decide)).trans ?_
    exact (V5_v7 m ρ c).trans (finalize_arr (V4 m ρ) c _ _ _ hcen4 hsum hcnt)

end Cert.KernelIdeal.Hand

end
-- ==== Proof.LibRowGatherScatter.lean ====
/-
  Three host indexing operations read at an index, for any extents: the gather of whole rows of an
  [N × C] table named by an [E × 1] column of row numbers (jnp's table[idx, :]), and the accumulating
  float scatters that add E updates (rows of an [E × C] array, or the entries of an [E] vector) into the
  rows (entries) those row numbers name (jnp's .at[idx].add, segment_sum), at the exact-arithmetic instance
  where the accumulation is a plain sum.
-/
import Idealize.ShloMosaic.PureOps.Ideal
import Idealize.ShloMosaic.PureOps.Contract
import Idealize.ShloMosaic.Lib.ValueIdx

noncomputable section

namespace Idealize.ShloMosaic.RowOps

open Idealize.ShloMosaic Idealize.ShloMosaic.ValueIdx

/-- Row e of the gathered array is the table's row at e's row number, read signed and clamped into the table. -/
theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![E, 1]⟩ w) (e : Fin E) (k : Fin C) (hN : 0 < N) :
    Host.gather d x idx (ix2 e k) = x (ix2 (⟨min (idx (ix2 e (0 : Fin 1))).toInt.toNat (N - 1), by omega⟩ : Fin N) k) := by
  unfold Host.gather
  congr 1
  funext a
  -- the result's one batch axis is axis 0 (axis 1 is its offset axis); no operand axis is a batching axis
  have hbd : d.batchDims = [0] := by
    show (⟨2, ![E, C]⟩ : Shape).kept d.offsetDims = [0]
    rw [hoff]; rfl
  have hob0 : ∀ a : Fin 2, a ∉ d.operandBatchingDims := fun a => by rw [hob]; exact List.not_mem_nil
  -- every entry of a one-element list of axes is that axis, whatever position it is read at
  have hall0 : ∀ X ∈ d.batchDims, X = 0 := fun X hX => by rw [hbd] at hX; exact List.mem_singleton.1 hX
  have hall1 : ∀ X ∈ d.offsetDims, X = 1 := fun X hX => by rw [hoff] at hX; exact List.mem_singleton.1 hX
  have coord0 : ∀ X : Fin 2, X = 0 → ((ix2 e k) X).val = e.val := fun X h => by subst h; rfl
  have coord1 : ∀ X : Fin 2, X = 1 → ((ix2 e k) X).val = k.val := fun X h => by subst h; rfl
  match a with
  | ⟨0, _⟩ =>
    -- operand axis 0: collapsed (slice size 1, no offset coordinate) and start-indexed: the clamped row number
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e k) idx 0 + d.batchCoord (ix2 e k) 0 + d.offCoord (ix2 e k) 0 = min (idx (ix2 e 0)).toInt.toNat (N - 1)
    rw [GatherDims.batchCoord_eq_zero _ _ _ (hob0 0), GatherDims.offCoord_eq_zero _ _ _ hk]
    simp only [Nat.add_zero]
    unfold GatherDims.start
    rw [dif_pos hm]
    show min (idx _).toInt.toNat (N - d.sliceSizes 0) = _
    rw [hsl]
    congr 3
    congr 1
    -- the start index is read at (e, 0): e from the result's batch coordinate, 0 the one component of the index vector
    funext b
    match b with
    | ⟨0, _⟩ =>
      unfold GatherDims.siIdx
      rw [dif_neg (by rw [hivd]; simp)]
      unfold GatherDims.siCoord
      apply Fin.ext
      simp only [Fin.val_cast]
      exact coord0 _ (hall0 _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    -- operand axis 1: not start-indexed (start 0), kept whole: the offset coordinate is the result's coordinate on axis 1
    apply Fin.ext
    have hk : (1 : Fin 2) ∈ d.sKept := by rw [GatherDims.mem_sKept, hcoll]; exact ⟨by simp, hob0 1⟩
    have hm : (1 : Fin 2) ∉ d.startIndexMap := by rw [hsim]; simp
    show d.start (ix2 e k) idx 1 + d.batchCoord (ix2 e k) 1 + d.offCoord (ix2 e k) 1 = k.val
    rw [GatherDims.batchCoord_eq_zero _ _ _ (hob0 1)]
    unfold GatherDims.start GatherDims.offCoord
    rw [dif_neg hm, dif_pos hk]
    simp only [Nat.add_zero, Nat.zero_add]
    exact coord1 _ (hall1 _ (List.getElem_mem _))

/-- Where one update lands: update (e, k') lands on (i, k) exactly when e's row number, read signed, is i and k' is k.
    On axis 0 (inserted: no window coordinate) the landing coordinate is the row number itself, not clamped, so a
    negative one or one past the table lands nowhere; on axis 1 (start 0) it is the update's own coordinate k', always
    inside the row. -/
private theorem resultIdx_rows_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (k' : Fin C) (i : Fin N) (k : Fin C) :
    d.resultIdx? (ix2 e k') idx = some (ix2 i k) ↔ (idx (ix2 e (0 : Fin 1))).toInt = (i.val : Int) ∧ k' = k := by
  -- the updates' one scatter axis is axis 0 (axis 1 is their window axis); the operand's one window axis is axis 1
  have hus : d.uScatter = [0] := by
    show (⟨2, ![E, C]⟩ : Shape).kept d.updateWindowDims = [0]
    rw [huw]; rfl
  have hsk : d.sKept = [1] := by
    show (⟨2, ![N, C]⟩ : Shape).kept d.insertedWindowDims = [1]
    rw [hiw]; rfl
  have hall0 : ∀ X ∈ d.uScatter, X = 0 := fun X hX => by rw [hus] at hX; exact List.mem_singleton.1 hX
  have hall1 : ∀ X ∈ d.updateWindowDims, X = 1 := fun X hX => by rw [huw] at hX; exact List.mem_singleton.1 hX
  have coord0 : ∀ X : Fin 2, X = 0 → ((ix2 e k') X).val = e.val := fun X h => by subst h; rfl
  have coord1 : ∀ X : Fin 2, X = 1 → ((ix2 e k') X).val = k'.val := fun X h => by subst h; rfl
  -- the four ingredients of the landing index: start and window coordinate on each operand axis
  have hst0 : d.start (ix2 e k') idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _ (hall0 _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e k') 0 = 0 := by
    unfold ScatterDims.window; rw [dif_neg (by rw [hsk]; simp)]
  have hst1 : d.start (ix2 e k') idx 1 = 0 := by
    unfold ScatterDims.start; rw [dif_neg (by rw [hsd]; simp)]
  have hw1 : d.window (ix2 e k') 1 = k'.val := by
    unfold ScatterDims.window; rw [dif_pos (by rw [hsk]; simp)]
    exact coord1 _ (hall1 _ (List.getElem_mem _))
  unfold ScatterDims.resultIdx?
  split
  · -- the landing index is inside the operand: compare it with (i, k) coordinate by coordinate
    rename_i h
    rw [Option.some.injEq]
    constructor
    · intro hf
      have h0 : (d.start (ix2 e k') idx 0 + d.window (ix2 e k') 0).toNat = i.val := congrArg (fun f => (f 0).val) hf
      have h1 : (d.start (ix2 e k') idx 1 + d.window (ix2 e k') 1).toNat = k.val := congrArg (fun f => (f 1).val) hf
      have hh := (h 0).1
      rw [hst0, hw0] at h0 hh
      rw [hst1, hw1] at h1
      exact ⟨by omega, Fin.ext (by omega)⟩
    · rintro ⟨hi, rfl⟩
      funext a
      match a with
      | ⟨0, _⟩ =>
        apply Fin.ext
        show (d.start (ix2 e k') idx 0 + d.window (ix2 e k') 0).toNat = i.val
        rw [hst0, hw0, hi]; omega
      | ⟨1, _⟩ =>
        apply Fin.ext
        show (d.start (ix2 e k') idx 1 + d.window (ix2 e k') 1).toNat = k'.val
        rw [hst1, hw1]; omega
  · -- the landing index leaves the operand: then the row number is no row of the table, i least of all
    rename_i h
    constructor
    · intro hf; exact absurd hf (by simp)
    · rintro ⟨hi, rfl⟩
      exfalso; apply h
      intro a
      match a with
      | ⟨0, _⟩ =>
        show 0 ≤ d.start (ix2 e k') idx 0 + d.window (ix2 e k') 0 ∧ d.start (ix2 e k') idx 0 + d.window (ix2 e k') 0 < (N : Int)
        rw [hst0, hw0, hi]; have := i.isLt; omega
      | ⟨1, _⟩ =>
        show 0 ≤ d.start (ix2 e k') idx 1 + d.window (ix2 e k') 1 ∧ d.start (ix2 e k') idx 1 + d.window (ix2 e k') 1 < (C : Int)
        rw [hst1, hw1]; have := k'.isLt; omega

/-- Entry (i, k) after the scatter: what was there plus the updates' entries (e, k) over the e whose row number is i. -/
theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd d x idx upd (ix2 i k)
      = x (ix2 i k) + ∑ e : Fin E, if (idx (ix2 e (0 : Fin 1))).toInt = (i.val : Int) then upd (ix2 e k) else 0 := by
  unfold Ideal.hostScatterAdd
  congr 1
  -- the sum over the updates that land on (i, k), as a double sum over (e, k') of the updates guarded by "lands on (i, k)"
  rw [Finset.sum_filter, sum_idx2]
  refine Finset.sum_congr rfl fun e _ => ?_
  by_cases he : (idx (ix2 e (0 : Fin 1))).toInt = (i.val : Int)
  · -- row e is aimed at row i: of its C entries exactly the one in column k lands on (i, k)
    rw [if_pos he, Finset.sum_eq_single k]
    · rw [if_pos ((resultIdx_rows_iff d huw hiw hsd hivd idx e k i k).2 ⟨he, rfl⟩)]
    · intro k' _ hk'
      rw [if_neg fun h => hk' ((resultIdx_rows_iff d huw hiw hsd hivd idx e k' i k).1 h).2]
    · intro h; exact absurd (Finset.mem_univ k) h
  · -- row e is aimed elsewhere (or nowhere): none of its entries lands on (i, k)
    rw [if_neg he]
    refine Finset.sum_eq_zero fun k' _ => ?_
    rw [if_neg fun h => he ((resultIdx_rows_iff d huw hiw hsd hivd idx e k' i k).1 h).1]

/-- A sum over a rank-1 index set is the sum over its one coordinate. -/
private theorem sum_idx1 {M : Type*} [AddCommMonoid M] {n : Nat} (f : (⟨1, ![n]⟩ : Shape).Idx → M) :
    ∑ j, f j = ∑ a : Fin n, f (ix1 a) := by
  let φ : (⟨1, ![n]⟩ : Shape).Idx ≃ Fin n :=
    { toFun := fun j => j 0, invFun := fun a => ix1 a, left_inv := fun j => (eq_ix1 j).symm, right_inv := fun _ => rfl }
  rw [← Equiv.sum_comp φ.symm f]
  rfl

/-- Where one update of a vector lands: update e lands on entry i exactly when e's row number, read signed, is i (the
    operand's one axis is inserted: the landing coordinate is the row number itself, not clamped). -/
private theorem resultIdx_vec_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  -- the operand has no window axis
  have hsk : d.sKept = [] := by
    show (⟨1, ![N]⟩ : Shape).kept d.insertedWindowDims = []
    rw [hiw]; rfl
  have coord0 : ∀ X : Fin 1, ((ix1 e) X).val = e.val := fun X => by
    obtain rfl : X = 0 := Subsingleton.elim _ _
    rfl
  have hst0 : d.start (ix1 e) idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _
    | ⟨1, _⟩ =>
      unfold ScatterDims.siIdx
      rw [dif_pos (by rw [hivd])]
      apply Fin.ext
      show List.idxOf (0 : Fin 1) d.scatterDimsToOperandDims = 0
      rw [hsd]; simp
  have hw0 : d.window (ix1 e) 0 = 0 := by
    unfold ScatterDims.window; rw [dif_neg (by rw [hsk]; simp)]
  have hax : ∀ a : Fin 1, a = 0 := fun a => Subsingleton.elim _ _
  unfold ScatterDims.resultIdx?
  split
  · rename_i h
    rw [Option.some.injEq]
    constructor
    · intro hf
      have h0 : (d.start (ix1 e) idx 0 + d.window (ix1 e) 0).toNat = i.val := congrArg (fun f => (f 0).val) hf
      have hh := (h 0).1
      rw [hst0, hw0] at h0 hh
      omega
    · intro hi
      funext a
      obtain rfl := hax a
      apply Fin.ext
      show (d.start (ix1 e) idx 0 + d.window (ix1 e) 0).toNat = i.val
      rw [hst0, hw0, hi]; omega
  · rename_i h
    constructor
    · intro hf; exact absurd hf (by simp)
    · intro hi
      exfalso; apply h
      intro a
      obtain rfl := hax a
      show 0 ≤ d.start (ix1 e) idx 0 + d.window (ix1 e) 0 ∧ d.start (ix1 e) idx 0 + d.window (ix1 e) 0 < (N : Int)
      rw [hst0, hw0, hi]; have := i.isLt; omega

/-- Entry i after the scatter of a vector: what was there plus the updates over the e whose row number is i. -/
theorem scatterAdd_vec_apply {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e : Fin E, if (idx (ix2 e (0 : Fin 1))).toInt = (i.val : Int) then upd (ix1 e) else 0 := by
  unfold Ideal.hostScatterAdd
  congr 1
  rw [Finset.sum_filter, sum_idx1]
  refine Finset.sum_congr rfl fun e _ => ?_
  by_cases he : (idx (ix2 e (0 : Fin 1))).toInt = (i.val : Int)
  · rw [if_pos he, if_pos ((resultIdx_vec_iff d huw hiw hsd hivd idx e i).2 he)]
  · rw [if_neg he, if_neg fun h => he ((resultIdx_vec_iff d huw hiw hsd hivd idx e i).1 h)]

end Idealize.ShloMosaic.RowOps

end
-- ==== Proof.RefValue.lean ====
/-
  The reference's two results as the specification's functions of its three arguments, on the domain (every float
  entry a real number, every label a class number). There the label wrapped by "add the class count if negative" is
  the label, the clamp of the gather does nothing to it, and the signed reading the scatters aim by is its natural
  reading; so a gathered row is the labelled class's row, a scatter-add onto zeros is the sum over the batch rows of a
  class, and the squares agree with the specification's because a difference of real numbers squared does not see
  the order of its terms.
-/
import proofs.«426712_j80015240724894_1_alg».proof.Defs
import proofs.«426712_j80015240724894_1_alg».proof.Proof.Gen.ReferenceIdeal.Read
import proofs.«426712_j80015240724894_1_alg».proof.Proof.Spec
import proofs.«426712_j80015240724894_1_alg».proof.Proof.LibRowGatherScatter
import Idealize.ShloMosaic.PureOps.Ideal.Laws
import Idealize.ShloMosaic.Lib.ValueIdx
import Idealize.ShloMosaic.Lib.IdealHost
import Idealize.ShloMosaic.Lib.StableHlo.Run

noncomputable section

namespace Cert.ReferenceIdeal.RefValue

open Cert.ReferenceIdeal Cert.ReferenceIdeal.Gen
open Idealize.ShloMosaic Idealize.ShloMosaic.TcCoe Idealize.SL.Sem Idealize.ShloMosaic.ValueIdx

/-! ## Labels in the domain -/

/-- A 32-bit word whose signed reading is not negative reads the same signed and unsigned. -/
theorem toInt_eq_toNat_of_nonneg {a : BitVec 32} (h : 0 ≤ a.toInt) : a.toInt = (a.toNat : Int) := by
  rw [BitVec.toInt_eq_toNat_cond] at h ⊢
  have := a.isLt
  split at h <;> rename_i hc
  · rw [if_pos hc]
  · omega

/-- Against the zero word, "less than, signed" is false of a word whose signed reading is not negative. -/
theorem slt_zero_of_nonneg {a : BitVec 32} (h : 0 ≤ a.toInt) : IntOp.cmpi .slt a 0#32 = 0#1 := by
  unfold IntOp.cmpi
  have : a.slt 0#32 = false := by
    simp only [BitVec.slt, BitVec.toInt_zero, decide_eq_false_iff_not, not_lt]
    exact h
  rw [this]; rfl

/-- The labels of the domain: each word read signed is its natural-number reading, a class number. -/
def Labels (t : IVec S16384 32) : Prop :=
  ∀ b : Fin 16384, 0 ≤ (t (ix1 b)).toInt ∧ (t (ix1 b)).toInt < 100000

theorem Labels.toInt {t : IVec S16384 32} (ht : Labels t) (b : Fin 16384) :
    (t (ix1 b)).toInt = (Spec.label t b : Int) := toInt_eq_toNat_of_nonneg (ht b).1

theorem Labels.lt {t : IVec S16384 32} (ht : Labels t) (b : Fin 16384) : Spec.label t b < 100000 := by
  have h1 := ht.toInt b
  have h2 := (ht b).2
  omega

/-! ## The index column the gathers read: the wrapped label is the label -/

/-- "If the label is negative add the class count": in the domain the label is not negative, so the selected word
    is the label itself. -/
theorem wrapped_first {t : IVec S16384 32} (ht : Labels t) (e : Fin 16384) :
    Read.val_main_v5 (F := Ideal) t (ix2 e (0 : Fin 1)) = t (ix1 e) := by
  have hi : Read.idx_main_v5 (ix2 e (0 : Fin 1)) = ix1 e := funext fun a => by match a with | ⟨0, _⟩ => rfl
  rw [Read.val_main_v5_apply, hi, Read.val_main_v4_apply, Read.val_main_v1_apply, Read.val_main_v0_apply, Read.val_main_c_apply,
    slt_zero_of_nonneg (ht e).1, select_zero]

theorem wrapped_second {t : IVec S16384 32} (ht : Labels t) (e : Fin 16384) :
    Read.val_main_v17 (F := Ideal) t (ix2 e (0 : Fin 1)) = t (ix1 e) := by
  have hi : Read.idx_main_v17 (ix2 e (0 : Fin 1)) = ix1 e := funext fun a => by match a with | ⟨0, _⟩ => rfl
  rw [Read.val_main_v17_apply, hi, Read.val_main_v16_apply, Read.val_main_v13_apply, Read.val_main_v12_apply, Read.val_main_c_3_apply,
    slt_zero_of_nonneg (ht e).1, select_zero]

/-! ## The gathered rows -/

/-- Row e of a gather of whole rows of the class table through a column holding the labels is the labelled class's
    row: the clamp into the table does nothing to a class number. -/
theorem gathered_eq {t : IVec S16384 32} (ht : Labels t) (cen : FVec Ideal S100000x256 .f32) (col : IVec S16384x1 32)
    (hcol : ∀ e : Fin 16384, col (ix2 e (0 : Fin 1)) = t (ix1 e)) (e : Fin 16384) (k : Fin 256) :
    Host.gather gather_S100000x256_S16384x1_S16384x256_1_0_n_n_0_1_1256 cen col (ix2 e k)
      = cen (ix2 (⟨Spec.label t e, ht.lt e⟩ : Fin 100000) k) := by
  rw [RowOps.gather_rows_apply gather_S100000x256_S16384x1_S16384x256_1_0_n_n_0_1_1256 rfl rfl rfl rfl rfl rfl cen col e k (by decide)]
  congr 2
  apply Fin.ext
  show min (col (ix2 e (0 : Fin 1))).toInt.toNat (100000 - 1) = Spec.label t e
  rw [hcol, ht.toInt e, Int.toNat_natCast]
  have := ht.lt e
  omega

/-! ## The differences and their squares -/

/-- The reference's second difference array (gathered row less features' row) is the specification's, entry by entry. -/
theorem diff_eq {t : IVec S16384 32} (ht : Labels t) (feat : FVec Ideal S16384x256 .f32) (cen : FVec Ideal S100000x256 .f32)
    (e : Fin 16384) (k : Fin 256) :
    Read.val_main_v19 (F := Ideal) feat t cen (ix2 e k) = Spec.diff feat t cen (ix2 e k) := by
  rw [Read.val_main_v19_apply]
  unfold Read.val_main_v18
  rw [gathered_eq ht cen _ (wrapped_second ht) e k]
  show _ = (if h : Spec.label t e < 100000 then cen (ix2 (⟨Spec.label t e, h⟩ : Fin 100000) k) else 0) - feat (ix2 e k)
  rw [dif_pos (ht.lt e)]
  rfl

/-- On real numbers a difference squared does not see the order of its two terms. -/
theorem sub_sq_comm {a b : EReal} (ha : a ≠ ⊤ ∧ a ≠ ⊥) (hb : b ≠ ⊤ ∧ b ≠ ⊥) : (a - b) * (a - b) = (b - a) * (b - a) := by
  lift a to ℝ using ha
  lift b to ℝ using hb
  rw [← EReal.coe_sub, ← EReal.coe_sub, ← EReal.coe_mul, ← EReal.coe_mul]
  congr 1
  ring

/-- The reference's squares (features' row less gathered row, squared) are the specification's squares of the
    differences taken the other way round: every entry is a real number. -/
theorem squares_eq {feat : FVec Ideal S16384x256 .f32} {t : IVec S16384 32} {cen : FVec Ideal S100000x256 .f32}
    (hd : Spec.InDomain feat t cen) :
    Read.val_main_v8 (F := Ideal) feat t cen = Spec.sq (Spec.diff feat t cen) := by
  have ht : Labels t := hd.2.2
  funext j
  obtain ⟨e, k, rfl⟩ : ∃ (e : Fin 16384) (k : Fin 256), j = ix2 e k := ⟨j 0, j 1, eq_ix2 j⟩
  rw [Read.val_main_v8_apply, Read.val_main_v7_apply]
  unfold Read.val_main_v6
  rw [gathered_eq ht cen _ (wrapped_first ht) e k]
  show _ = ((if h : Spec.label t e < 100000 then cen (ix2 (⟨Spec.label t e, h⟩ : Fin 100000) k) else 0) - feat (ix2 e k))
    * ((if h : Spec.label t e < 100000 then cen (ix2 (⟨Spec.label t e, h⟩ : Fin 100000) k) else 0) - feat (ix2 e k))
  rw [dif_pos (ht.lt e)]
  exact sub_sq_comm (hd.1 _) (hd.2.1 _)

/-- The first result: the same three host operations applied to the same squares. -/
theorem loss_eq {feat : FVec Ideal S16384x256 .f32} {t : IVec S16384 32} {cen : FVec Ideal S100000x256 .f32}
    (hd : Spec.InDomain feat t cen) :
    Read.val_main_v11 (F := Ideal) feat t cen
      = Spec.lossTail reducesTo_S16384x256_S_d0_1 h_S_ (Spec.sq (Spec.diff feat t cen)) := by
  rw [← squares_eq hd]
  rfl

/-! ## The per-class sums and counts -/

/-- In the domain, "the label read signed is class i" says the label is i. -/
theorem Labels.toInt_eq_iff {t : IVec S16384 32} (ht : Labels t) (b : Fin 16384) (i : ℕ) :
    (t (ix1 b)).toInt = (i : Int) ↔ Spec.label t b = i := by
  rw [ht.toInt b]; exact Int.natCast_inj

/-- The label column the two scatters read is the label vector. -/
theorem column_first (t : IVec S16384 32) (e : Fin 16384) :
    Read.val_main_v21 (F := Ideal) t (ix2 e (0 : Fin 1)) = t (ix1 e) := by
  have hi : Read.idx_main_v21 (ix2 e (0 : Fin 1)) = ix1 e := funext fun a => by match a with | ⟨0, _⟩ => rfl
  rw [Read.val_main_v21_apply, hi]

theorem column_second (t : IVec S16384 32) (e : Fin 16384) :
    Read.val_main_v25 (F := Ideal) t (ix2 e (0 : Fin 1)) = t (ix1 e) := by
  have hi : Read.idx_main_v25 (ix2 e (0 : Fin 1)) = ix1 e := funext fun a => by match a with | ⟨0, _⟩ => rfl
  rw [Read.val_main_v25_apply, hi]

/-- The scatter-add of the differences onto zeros: entry (i, k) is the sum of the differences' entries (b, k) over
    the batch rows b labelled i. -/
theorem sums_eq {t : IVec S16384 32} (ht : Labels t) (feat : FVec Ideal S16384x256 .f32) (cen : FVec Ideal S100000x256 .f32)
    (i : Fin 100000) (k : Fin 256) :
    Read.val_main_v22 (F := Ideal) feat t cen (ix2 i k) = Spec.dsum (Spec.diff feat t cen) t (ix2 i k) := by
  unfold Read.val_main_v22
  show Ideal.hostScatterAdd scatter_S100000x256_S16384x1_S16384x256_1_0_0_1 _ _ _ (ix2 i k) = _
  rw [RowOps.scatterAdd_rows_apply scatter_S100000x256_S16384x1_S16384x256_1_0_0_1 rfl rfl rfl rfl]
  rw [Read.val_main_v20_apply, Read.val_main_cst_5_apply, Ideal.ofBits_def, Ideal.ofBits_zero_f32, zero_add]
  show _ = ∑ b : Fin 16384, if Spec.label t b = i.val then Spec.diff feat t cen (ix2 b k) else 0
  refine Finset.sum_congr rfl fun b _ => ?_
  rw [column_first t b, diff_eq ht feat cen b k]
  exact if_congr (ht.toInt_eq_iff b i.val) rfl rfl

/-- The scatter-add of ones onto zeros: entry i is the number of batch rows labelled i. -/
theorem counts_eq {t : IVec S16384 32} (ht : Labels t) (i : Fin 100000) :
    Read.val_main_v26 (F := Ideal) t (ix1 i) = Spec.cnt t (ix2 i (0 : Fin 1)) := by
  unfold Read.val_main_v26
  show Ideal.hostScatterAdd scatter_S100000_S16384x1_S16384_n_0_0_1 _ _ _ (ix1 i) = _
  rw [RowOps.scatterAdd_vec_apply scatter_S100000_S16384x1_S16384_n_0_0_1 rfl rfl rfl rfl]
  rw [Read.val_main_v24_apply, Read.val_main_cst_7_apply, Ideal.ofBits_def, Ideal.ofBits_zero_f32, zero_add]
  show _ = ∑ b : Fin 16384, if Spec.label t b = i.val then (1 : EReal) else 0
  refine Finset.sum_congr rfl fun b _ => ?_
  rw [column_second t b, Read.val_main_v23_apply, Read.val_main_cst_6_apply, Ideal.ofBits_def, Ideal.ofBits_one_f32]
  exact if_congr (ht.toInt_eq_iff b i.val) rfl rfl

/-! ## The moved class table -/

/-- The second result: each entry of the table less half the class's sum over its count plus one. -/
theorem newc_eq {feat : FVec Ideal S16384x256 .f32} {t : IVec S16384 32} {cen : FVec Ideal S100000x256 .f32}
    (hd : Spec.InDomain feat t cen) :
    Read.val_main_v34 (F := Ideal) feat t cen
      = Spec.newc cen (Spec.dsum (Spec.diff feat t cen) t) (Spec.cnt t) := by
  have ht : Labels t := hd.2.2
  funext j
  obtain ⟨i, k, rfl⟩ : ∃ (i : Fin 100000) (k : Fin 256), j = ix2 i k := ⟨j 0, j 1, eq_ix2 j⟩
  have hi : Read.idx_main_v29 (Read.idx_main_v30 (ix2 i k)) = ix1 i := funext fun a => by match a with | ⟨0, _⟩ => rfl
  rw [Read.val_main_v34_apply, Read.val_main_v33_apply, Read.val_main_v31_apply, Read.val_main_v32_apply, Read.val_main_cst_9_apply,
    Read.val_main_v30_apply, Read.val_main_v29_apply, hi, Read.val_main_v28_apply, Read.val_main_v27_apply, Read.val_main_cst_8_apply,
    sums_eq ht feat cen i k, counts_eq ht i]
  rfl

/-- THE REFERENCE'S RUN AT THE SPECIFICATION. From a memory whose arguments lie in the domain, every weakly fair
    execution of the reference terminates with its first result at the mean of the squared differences, its second at
    the moved class table, and its arguments unchanged. -/
theorem run_spec (m' : (ℓ : Loc nD τ sig) → Buf (Elt Ideal) ℓ) (ρ' : Dev nD → PrngReg)
    (hdom : ∀ c : Dev nD, Spec.InDomain (m' ((c.tc : Thread nD τ).loc main_arg0)) (m' ((c.tc : Thread nD τ).loc main_arg1)) (m' ((c.tc : Thread nD τ).loc main_arg2))) :
    θ_run (defs (F := Ideal)) (onTc (τ := τ) (main (F := Ideal))) ⟨m', fun _ => 0, ρ'⟩ (fun r => ∀ c : Dev nD,
      (r.2.mem ((c.tc : Thread nD τ).loc main_v11) : FVec Ideal S_ .f32)
        = Spec.lossTail reducesTo_S16384x256_S_d0_1 h_S_ (Spec.sq (Spec.diff (m' ((c.tc : Thread nD τ).loc main_arg0)) (m' ((c.tc : Thread nD τ).loc main_arg1)) (m' ((c.tc : Thread nD τ).loc main_arg2))))
      ∧ (r.2.mem ((c.tc : Thread nD τ).loc main_v34) : FVec Ideal S100000x256 .f32)
        = Spec.newc (m' ((c.tc : Thread nD τ).loc main_arg2))
            (Spec.dsum (Spec.diff (m' ((c.tc : Thread nD τ).loc main_arg0)) (m' ((c.tc : Thread nD τ).loc main_arg1)) (m' ((c.tc : Thread nD τ).loc main_arg2))) (m' ((c.tc : Thread nD τ).loc main_arg1)))
            (Spec.cnt (m' ((c.tc : Thread nD τ).loc main_arg1)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) :=
  (θ_run (defs (F := Ideal)) _ _).mono
    (fun _ h c => ⟨(h c).1.trans ((Read.val_main_v11_eq _ _ _).trans (loss_eq (hdom c))),
      (h c).2.1.trans ((Read.val_main_v34_eq _ _ _).trans (newc_eq (hdom c))), (h c).2.2⟩)
    (Cert.ReferenceIdeal.Value.run (F := Ideal) m' ρ')

end Cert.ReferenceIdeal.RefValue

end
-- ==== Proof.lean ====
/-
  The certificate's five claims for the class-centre update: a batch of feature rows, a label per row, a table of
  class centres. Both programs compute, for labels in range and real-valued inputs, the mean square of
  `centres[label] - features` and the table moved by half the per-class mean of those differences (the mean over
  count + 1). The kernel does it in three tiled calls: the labelled rows are picked by a one-hot product accumulated
  over class tiles, the per-class sums and counts by the transposed one-hot product accumulated over batch tiles, the
  update pointwise; the reference with a row gather and two scatter-adds. On the extended reals a one-hot product
  picks its row exactly when the rows are real numbers (zero times a real number is zero), and both programs read a
  label as a row number only when it lies in `[0, 100000)`: the precondition states exactly that.
  The three frames: each kernel program by its run through the three calls (at the word-level and at the ideal
  instance, one text), the reference by its run as a sequence of host operations.
-/
import proofs.«426712_j80015240724894_1_alg».proof.Defs
import proofs.«426712_j80015240724894_1_alg».proof.Proof.Gen.Kernel
import proofs.«426712_j80015240724894_1_alg».proof.Proof.Gen.KernelIdeal
import proofs.«426712_j80015240724894_1_alg».proof.Proof.Gen.ReferenceIdeal
import proofs.«426712_j80015240724894_1_alg».proof.Proof.Gen.Pre_finite_inputs
import proofs.«426712_j80015240724894_1_alg».proof.Proof.Bits.Frame
import proofs.«426712_j80015240724894_1_alg».proof.Proof.Ideal.KernelValue
import proofs.«426712_j80015240724894_1_alg».proof.Proof.RefValue
import proofs.«426712_j80015240724894_1_alg».proof.Proof.PreFacts
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- The idealized kernel runs to the end and leaves its arguments as launched. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference runs to the end and leaves its arguments as launched: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- From memories agreeing on the arguments, in the domain the precondition states, both idealized programs end at the
    specification's two functions of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hdom : ∀ c : Dev Cert.KernelIdeal.nD, Cert.Spec.InDomain
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) :=
    fun c => Cert.PreFacts.inDomain_of_pre _ _ _ (hpre c)
  have hdom' : ∀ c : Dev Cert.ReferenceIdeal.nD, Cert.Spec.InDomain
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) := fun c => by
    rw [(hagree c).1, (hagree c).2.1, (hagree c).2.2]; exact hdom c
  refine ⟨_, _, Cert.KernelIdeal.Hand.run_spec m ρ hdom, ?_⟩
  refine (θ_run Cert.ReferenceIdeal.defs _ _).mono (fun r h c => ?_) (Cert.ReferenceIdeal.RefValue.run_spec m' ρ' hdom')
  obtain ⟨h1, h2, h3, h4, h5⟩ := h c
  refine ⟨h1.trans ?_, h2.trans ?_, h3, h4, h5⟩
  · rw [(hagree c).1, (hagree c).2.1, (hagree c).2.2]
  · rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
